-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v7_0)) (v2 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_v7_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v99) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S1024x258x512 : Shape := ⟨3, ![1024, 258, 512]⟩
abbrev S1024 : Shape := ⟨1, ![1024]⟩
abbrev S2048x512 : Shape := ⟨2, ![2048, 512]⟩
abbrev S2048 : Shape := ⟨1, ![2048]⟩
abbrev S512x1024 : Shape := ⟨2, ![512, 1024]⟩
abbrev S512 : Shape := ⟨1, ![512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S1024x258x512 : S_.BroadcastsInDim S1024x258x512 (![] : Fin 0 → Fin S1024x258x512.rank)
  reducesTo_S1024x258x512_S_d0_1_2 : S1024x258x512.ReducesTo [0, 1, 2] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg3 : IVec S1024 32) (main_v67 : IVec S_ 1) : IVec S_ 1 :=
  let main_c_26 : IVec S_ 32 := constantI S_ 32 258#32
  let main_v68 : IVec S1024 32 := broadcastInDim S1024 ![] bcast_S_S1024 main_c_26
  let main_v69 : IVec S1024 1 := cmpi .slt main_arg3 main_v68
  let main_c_27 : IVec S_ 1 := constantI S_ 1 1#1
  let main_v70 : IVec S_ 1 := (fun x v => Host.reduce IntOp.andi x v reducesTo_S1024_S_d0 h_S_) main_v69 main_c_27
  let main_v71 : IVec S_ 1 := andi main_v67 main_v70
  main_v71

def fn_part3 {F : FTy → Type} [FloatOps F] (main_arg3 : IVec S1024 32) (main_arg12 : FVec F S512x1024 .f32) (main_arg13 : FVec F S512 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S512x1024 .f32 := Host.absf main_arg12
  let main_cst_20 : FVec F S_ .f32 := constant S_ .f32 0x7F800000#32
  let main_v55 : FVec F S512x1024 .f32 := broadcastInDim S512x1024 ![] bcast_S_S512x1024 main_cst_20
  let main_v56 : IVec S512x1024 1 := cmpf .olt main_v54 main_v55
  let main_c_21 : IVec S_ 1 := constantI S_ 1 1#1
  let main_v57 : IVec S_ 1 := (fun x v => Host.reduce IntOp.andi x v reducesTo_S512x1024_S_d0_1 h_S_) main_v56 main_c_21
  let main_v58 : IVec S_ 1 := andi main_v53 main_v57
  let main_v59 : FVec F S512 .f32 := Host.absf main_arg13
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_c_24 : IVec S_ 32 := constantI S_ 32 0#32
  let main_v64 : IVec S1024 32 := broadcastInDim S1024 ![] bcast_S_S1024 main_c_24
  let main_v65 : IVec S1024 1 := cmpi .sge main_arg3 main_v64
  let main_c_25 : IVec S_ 1 := constantI S_ 1 1#1
  let main_v66 : IVec S_ 1 := (fun x v => Host.reduce IntOp.andi x v reducesTo_S1024_S_d0 h_S_) main_v65 main_c_25
  let main_v67 : IVec S_ 1 := andi main_v63 main_v66
  fn_part4 (F := F) main_arg3 main_v67

def fn_part2 {F : FTy → Type} [FloatOps F] (main_arg3 : IVec S1024 32) (main_arg8 : FVec F S2048x512 .f32) (main_arg9 : FVec F S2048x512 .f32) (main_arg10 : FVec F S2048 .f32) (main_arg11 : FVec F S2048 .f32) (main_arg12 : FVec F S512x1024 .f32) (main_arg13 : FVec F S512 .f32) (main_v33 : IVec S_ 1) : IVec S_ 1 :=
  let main_v34 : FVec F S2048x512 .f32 := Host.absf main_arg8
  let main_cst_12 : FVec F S_ .f32 := constant S_ .f32 0x7F800000#32
  let main_v35 : FVec F S2048x512 .f32 := broadcastInDim S2048x512 ![] bcast_S_S2048x512 main_cst_12
  let main_v36 : IVec S2048x512 1 := cmpf .olt main_v34 main_v35
  let main_c_13 : IVec S_ 1 := constantI S_ 1 1#1
  let main_v37 : IVec S_ 1 := (fun x v => Host.reduce IntOp.andi x v reducesTo_S2048x512_S_d0_1 h_S_) main_v36 main_c_13
  let main_v38 : IVec S_ 1 := andi main_v33 main_v37
  let main_v39 : FVec F S2048x512 .f32 := Host.absf main_arg9
  let main_cst_14 : FVec F S_ .f32 := constant S_ .f32 0x7F800000#32
  let main_v40 : FVec F S2048x512 .f32 := broadcastInDim S2048x512 ![] bcast_S_S2048x512 main_cst_14
  let main_v41 : IVec S2048x512 1 := cmpf .olt main_v39 main_v40
  let main_c_15 : IVec S_ 1 := constantI S_ 1 1#1
  let main_v42 : IVec S_ 1 := (fun x v => Host.reduce IntOp.andi x v reducesTo_S2048x512_S_d0_1 h_S_) main_v41 main_c_15
  let main_v43 : IVec S_ 1 := andi main_v38 main_v42
  let main_v44 : FVec F S2048 .f32 := Host.absf main_arg10
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048 .f32 := Host.absf main_arg11
  let main_cst_18 : FVec F S_ .f32 := constant S_ .f32 0x7F800000#32
  let main_v50 : FVec F S2048 .f32 := broadcastInDim S2048 ![] bcast_S_S2048 main_cst_18
  fn_part3 (F := F) main_arg3 main_arg12 main_arg13 main_v48 main_v49 main_v50

def fn_part1 {F : FTy → Type} [FloatOps F] (main_arg3 : IVec S1024 32) (main_arg5 : FVec F S2048x512 .f32) (main_arg6 : FVec F S2048 .f32) (main_arg7 : FVec F S2048 .f32) (main_arg8 : FVec F S2048x512 .f32) (main_arg9 : FVec F S2048x512 .f32) (main_arg10 : FVec F S2048 .f32) (main_arg11 : FVec F S2048 .f32) (main_arg12 : FVec F S512x1024 .f32) (main_arg13 : FVec F S512 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S2048x512 .f32 := Host.absf main_arg5
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048 .f32 := Host.absf main_arg6
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg7
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg3 main_arg8 main_arg9 main_arg10 main_arg11 main_arg12 main_arg13 main_v33

def fn {F : FTy → Type} [FloatOps F] (main_arg0 : FVec F S1024x512 .f32) (main_arg1 : FVec F S1024x258x512 .f32) (main_arg2 : FVec F S1024x258x512 .f32) (main_arg3 : IVec S1024 32) (main_arg4 : FVec F S2048x512 .f32) (main_arg5 : FVec F S2048x512 .f32) (main_arg6 : FVec F S2048 .f32) (main_arg7 : FVec F S2048 .f32) (main_arg8 : FVec F S2048x512 .f32) (main_arg9 : FVec F S2048x512 .f32) (main_arg10 : FVec F S2048 .f32) (main_arg11 : FVec F S2048 .f32) (main_arg12 : FVec F S512x1024 .f32) (main_arg13 : FVec F S512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S1024x258x512 .f32 := Host.absf main_arg1
  let main_cst_0 : FVec F S_ .f32 := constant S_ .f32 0x7F800000#32
  let main_v5 : FVec F S1024x258x512 .f32 := broadcastInDim S1024x258x512 ![] bcast_S_S1024x258x512 main_cst_0
  let main_v6 : IVec S1024x258x512 1 := cmpf .olt main_v4 main_v5
  let main_c_1 : IVec S_ 1 := constantI S_ 1 1#1
  let main_v7 : IVec S_ 1 := (fun x v => Host.reduce IntOp.andi x v reducesTo_S1024x258x512_S_d0_1_2 h_S_) main_v6 main_c_1
  let main_v8 : IVec S_ 1 := andi main_v3 main_v7
  let main_v9 : FVec F S1024x258x512 .f32 := Host.absf main_arg2
  let main_cst_2 : FVec F S_ .f32 := constant S_ .f32 0x7F800000#32
  let main_v10 : FVec F S1024x258x512 .f32 := broadcastInDim S1024x258x512 ![] bcast_S_S1024x258x512 main_cst_2
  let main_v11 : IVec S1024x258x512 1 := cmpf .olt main_v9 main_v10
  let main_c_3 : IVec S_ 1 := constantI S_ 1 1#1
  let main_v12 : IVec S_ 1 := (fun x v => Host.reduce IntOp.andi x v reducesTo_S1024x258x512_S_d0_1_2 h_S_) main_v11 main_c_3
  let main_v13 : IVec S_ 1 := andi main_v8 main_v12
  let main_v14 : FVec F S2048x512 .f32 := Host.absf main_arg4
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg3 main_arg5 main_arg6 main_arg7 main_arg8 main_arg9 main_arg10 main_arg11 main_arg12 main_arg13 main_v13 main_v16
-- ==== Kernel.lean ====
abbrev S1024x512 : Shape := ⟨2, ![1024, 512]⟩
abbrev S1024x258x512 : Shape := ⟨3, ![1024, 258, 512]⟩
abbrev S1024 : Shape := ⟨1, ![1024]⟩
abbrev S2048x512 : Shape := ⟨2, ![2048, 512]⟩
abbrev S2048 : Shape := ⟨1, ![2048]⟩
abbrev S512x1024 : Shape := ⟨2, ![512, 1024]⟩
abbrev S512 : Shape := ⟨1, ![512]⟩
abbrev S1024x1x1 : Shape := ⟨3, ![1024, 1, 1]⟩
abbrev S1024x1x512 : Shape := ⟨3, ![1024, 1, 512]⟩
abbrev S4x258x512 : Shape := ⟨3, ![4, 258, 512]⟩
abbrev S4x1x512 : Shape := ⟨3, ![4, 1, 512]⟩
abbrev S4x1x1 : Shape := ⟨3, ![4, 1, 1]⟩
abbrev S4x512 : Shape := ⟨2, ![4, 512]⟩
abbrev S4x2048 : Shape := ⟨2, ![4, 2048]⟩
abbrev S1x2048 : Shape := ⟨2, ![1, 2048]⟩
abbrev S512x512 : Shape := ⟨2, ![512, 512]⟩
abbrev S1x512 : Shape := ⟨2, ![1, 512]⟩

abbrev nBuf : Space → Nat
  | .hbm => 25
  | .vmem => 24
  | .smem => 0
  | _ => 0

abbrev bufTy : (tb : Table) → Fin (tcTables nBuf tb) → BufTy
  | .hbm, ⟨0, _⟩ => ⟨S1024x512, .f32⟩
  | .hbm, ⟨1, _⟩ => ⟨S1024x258x512, .f32⟩
  | .hbm, ⟨2, _⟩ => ⟨S1024x258x512, .f32⟩
  | .hbm, ⟨3, _⟩ => ⟨S1024, .i32⟩
  | .hbm, ⟨4, _⟩ => ⟨S2048x512, .f32⟩
  | .hbm, ⟨5, _⟩ => ⟨S2048x512, .f32⟩
  | .hbm, ⟨6, _⟩ => ⟨S2048, .f32⟩
  | .hbm, ⟨7, _⟩ => ⟨S2048, .f32⟩
  | .hbm, ⟨8, _⟩ => ⟨S2048x512, .f32⟩
  | .hbm, ⟨9, _⟩ => ⟨S2048x512, .f32⟩
  | .hbm, ⟨10, _⟩ => ⟨S2048, .f32⟩
  | .hbm, ⟨11, _⟩ => ⟨S2048, .f32⟩
  | .hbm, ⟨12, _⟩ => ⟨S512x1024, .f32⟩
  | .hbm, ⟨13, _⟩ => ⟨S512, .f32⟩
  | .hbm, ⟨14, _⟩ => ⟨S1024x1x1, .i32⟩
  | .hbm, ⟨15, _⟩ => ⟨S1024x1x512, .f32⟩
  | .hbm, ⟨16, _⟩ => ⟨S2048x512, .bf16⟩
  | .hbm, ⟨17, _⟩ => ⟨S2048x512, .bf16⟩
  | .hbm, ⟨18, _⟩ => ⟨S2048x512, .bf16⟩
  | .hbm, ⟨19, _⟩ => ⟨S2048x512, .bf16⟩
  | .hbm, ⟨20, _⟩ => ⟨S512x1024, .bf16⟩
  | .hbm, ⟨21, _⟩ => ⟨S1024x258x512, .f32⟩
  | .hbm, ⟨22, _⟩ => ⟨S1024x258x512, .f32⟩
  | .hbm, ⟨23, _⟩ => ⟨S1024x1x512, .f32⟩
  | .hbm, ⟨24, _⟩ => ⟨S1024x512, .f32⟩
  | .local _ .vmem, ⟨0, _⟩ => ⟨S4x258x512, .f32⟩
  | .local _ .vmem, ⟨1, _⟩ => ⟨S4x258x512, .f32⟩
  | .local _ .vmem, ⟨2, _⟩ => ⟨S4x258x512, .f32⟩
  | .local _ .vmem, ⟨3, _⟩ => ⟨S4x258x512, .f32⟩
  | .local _ .vmem, ⟨4, _⟩ => ⟨S4x1x512, .f32⟩
  | .local _ .vmem, ⟨5, _⟩ => ⟨S4x1x512, .f32⟩
  | .local _ .vmem, ⟨6, _⟩ => ⟨S4x1x1, .i32⟩
  | .local _ .vmem, ⟨7, _⟩ => ⟨S4x1x1, .i32⟩
  | .local _ .vmem, ⟨8, _⟩ => ⟨S2048x512, .bf16⟩
  | .local _ .vmem, ⟨9, _⟩ => ⟨S2048x512, .bf16⟩
  | .local _ .vmem, ⟨10, _⟩ => ⟨S2048, .f32⟩
  | .local _ .vmem, ⟨11, _⟩ => ⟨S2048, .f32⟩
  | .local _ .vmem, ⟨12, _⟩ => ⟨S2048x512, .bf16⟩
  | .local _ .vmem, ⟨13, _⟩ => ⟨S2048x512, .bf16⟩
  | .local _ .vmem, ⟨14, _⟩ => ⟨S2048, .f32⟩
  | .local _ .vmem, ⟨15, _⟩ => ⟨S2048, .f32⟩
  | .local _ .vmem, ⟨16, _⟩ => ⟨S512x1024, .bf16⟩
  | .local _ .vmem, ⟨17, _⟩ => ⟨S512, .f32⟩
  | .local _ .vmem, ⟨18, _⟩ => ⟨S4x258x512, .f32⟩
  | .local _ .vmem, ⟨19, _⟩ => ⟨S4x258x512, .f32⟩
  | .local _ .vmem, ⟨20, _⟩ => ⟨S4x258x512, .f32⟩
  | .local _ .vmem, ⟨21, _⟩ => ⟨S4x258x512, .f32⟩
  | .local _ .vmem, ⟨22, _⟩ => ⟨S4x1x512, .f32⟩
  | .local _ .vmem, ⟨23, _⟩ => ⟨S4x1x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7_0 : Ref sig .tc := ⟨.hbm, 21, rfl⟩
abbrev main_v7_1 : Ref sig .tc := ⟨.hbm, 22, rfl⟩
abbrev main_v7_2 : Ref sig .tc := ⟨.hbm, 23, rfl⟩
abbrev main_v8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x258x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x258x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S4x258x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x258x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x1x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  shapeCasts_S1024_S1024x1x1 : S1024.ShapeCasts S1024x1x1
  shapeCasts_S1024x512_S1024x1x512 : S1024x512.ShapeCasts S1024x1x512
  bitsLt_bf16_f32 : FTy.bits .bf16 < FTy.bits .f32
  inb_S4x1x1_S4x1x1_0_0_0 : ∀ a, (![0, 0, 0] : Fin 3 → Nat) a + S4x1x1.size a ≤ S4x1x1.size a
  h_S4x1x1 : 0 < S4x1x1.numel
  shapeCasts_S4x1x1_S4x1x1 : S4x1x1.ShapeCasts S4x1x1
  iota_S4x258x512_d1_w32 : S4x258x512.Iotas .tc 32 [1]
  broadcasts_S4x1x1_S4x258x512 : S4x1x1.Broadcasts S4x258x512
  inb_S4x258x512_S4x258x512_0_0_0 : ∀ a, (![0, 0, 0] : Fin 3 → Nat) a + S4x258x512.size a ≤ S4x258x512.size a
  h_S4x258x512 : 0 < S4x258x512.numel
  reduces_S4x258x512_S4x512 : S4x258x512.Reduces [1] S4x512
  inb_S4x1x512_S4x1x512_0_0_0 : ∀ a, (![0, 0, 0] : Fin 3 → Nat) a + S4x1x512.size a ≤ S4x1x512.size a
  h_S4x1x512 : 0 < S4x1x512.numel
  shapeCasts_S4x1x512_S4x1x512 : S4x1x512.ShapeCasts S4x1x512
  shapeCasts_S4x1x512_S4x512 : S4x1x512.ShapeCasts S4x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S4x2048 : S1x2048.Broadcasts S4x2048
  slices_S4x2048_o0_0_S4x512 : S4x2048.Slices ![0, 0] S4x512
  slices_S4x2048_o0_512_S4x512 : S4x2048.Slices ![0, 512] S4x512
  slices_S4x2048_o0_1024_S4x512 : S4x2048.Slices ![0, 1024] S4x512
  slices_S4x2048_o0_1536_S4x512 : S4x2048.Slices ![0, 1536] S4x512
  shapeCasts_S4x512_S4x1x512 : S4x512.ShapeCasts S4x1x512
  broadcasts_S4x1x512_S4x258x512 : S4x1x512.Broadcasts S4x258x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  slices_S512x1024_o0_0_S512x512 : S512x1024.Slices ![0, 0] S512x512
  slices_S512x1024_o0_512_S512x512 : S512x1024.Slices ![0, 512] S512x512
  inb_S512_S512_0 : ∀ a, (![0] : Fin 1 → Nat) a + S512.size a ≤ S512.size a
  h_S512 : 0 < S512.numel
  shapeCasts_S512_S1x512 : S512.ShapeCasts S1x512
  broadcasts_S1x512_S4x512 : S1x512.Broadcasts S4x512
  shapeCasts_S1024x1x512_S1024x512 : S1024x1x512.ShapeCasts S1024x512
  dot_S4x512_S2048x512_S4x2048_1_1_0_0_n_n_wf : DotDims.WF S4x512 S2048x512 S4x2048 [1] [1] [0] [0] [] []
  dot_S4x512_S512x512_S4x512_1_1_0_0_n_n_wf : DotDims.WF S4x512 S512x512 S4x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x258x512.size a ≤ S1024x258x512.size a
  hwx0_0 : ∀ i : grid0.Coords, EltTy.bits .f32 = 32 ∨ (Rect.block (s := S1024x258x512) S4x258x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x258x512.size a ≤ S1024x258x512.size a
  hwx0_1 : ∀ i : grid0.Coords, EltTy.bits .f32 = 32 ∨ (Rect.block (s := S1024x258x512) S4x258x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x512.size a ≤ S1024x1x512.size a
  hwx0_2 : ∀ i : grid0.Coords, EltTy.bits .f32 = 32 ∨ (Rect.block (s := S1024x1x512) S4x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x1.size a ≤ S1024x1x1.size a
  hwx0_3 : ∀ i : grid0.Coords, EltTy.bits .i32 = 32 ∨ (Rect.block (s := S1024x1x1) S4x1x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x512.size a
  hwx0_4 : ∀ i : grid0.Coords, EltTy.bits .bf16 = 32 ∨ (Rect.block (s := S2048x512) S2048x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S2048x512.size a
  hwx0_5 : ∀ i : grid0.Coords, EltTy.bits .bf16 = 32 ∨ (Rect.block (s := S2048x512) S2048x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048.size a ≤ S2048.size a
  hwx0_6 : ∀ i : grid0.Coords, EltTy.bits .f32 = 32 ∨ (Rect.block (s := S2048) S2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048.size a ≤ S2048.size a
  hwx0_7 : ∀ i : grid0.Coords, EltTy.bits .f32 = 32 ∨ (Rect.block (s := S2048) S2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048x512.size a ≤ S2048x512.size a
  hwx0_8 : ∀ i : grid0.Coords, EltTy.bits .bf16 = 32 ∨ (Rect.block (s := S2048x512) S2048x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x512.size a ≤ S2048x512.size a
  hwx0_9 : ∀ i : grid0.Coords, EltTy.bits .bf16 = 32 ∨ (Rect.block (s := S2048x512) S2048x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2048.size a ≤ S2048.size a
  hwx0_10 : ∀ i : grid0.Coords, EltTy.bits .f32 = 32 ∨ (Rect.block (s := S2048) S2048.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2048.size a ≤ S2048.size a
  hwx0_11 : ∀ i : grid0.Coords, EltTy.bits .f32 = 32 ∨ (Rect.block (s := S2048) S2048.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x1024.size a ≤ S512x1024.size a
  hwx0_12 : ∀ i : grid0.Coords, EltTy.bits .bf16 = 32 ∨ (Rect.block (s := S512x1024) S512x1024.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512.size a ≤ S512.size a
  hwx0_13 : ∀ i : grid0.Coords, EltTy.bits .f32 = 32 ∨ (Rect.block (s := S512) S512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S4x258x512.size a ≤ S1024x258x512.size a
  hwx0_14 : ∀ i : grid0.Coords, EltTy.bits .f32 = 32 ∨ (Rect.block (s := S1024x258x512) S4x258x512.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S4x258x512.size a ≤ S1024x258x512.size a
  hwx0_15 : ∀ i : grid0.Coords, EltTy.bits .f32 = 32 ∨ (Rect.block (s := S1024x258x512) S4x258x512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S4x1x512.size a ≤ S1024x1x512.size a
  hwx0_16 : ∀ i : grid0.Coords, EltTy.bits .f32 = 32 ∨ (Rect.block (s := S1024x1x512) S4x1x512.size (cc0_transform_16 i) (hinb0_16 i)).WholeWords (EltTy.packing .f32)

variable [Facts₀]

def dot_S4x512_S2048x512_S4x2048_1_1_0_0_n_n : DotDims S4x512 S2048x512 S4x2048 where
  lhsContracting := [1]
  rhsContracting := [1]
  lhsNonContracting := [0]
  rhsNonContracting := [0]
  lhsBatch := []
  rhsBatch := []
  wf := dot_S4x512_S2048x512_S4x2048_1_1_0_0_n_n_wf
def dot_S4x512_S512x512_S4x512_1_1_0_0_n_n : DotDims S4x512 S512x512 S4x512 where
  lhsContracting := [1]
  rhsContracting := [1]
  lhsNonContracting := [0]
  rhsNonContracting := [0]
  lhsBatch := []
  rhsBatch := []
  wf := dot_S4x512_S512x512_S4x512_1_1_0_0_n_n_wf

abbrev win0_0 : Pipeline.Window sig grid0 :=
  Pipeline.Window.ofSpec (Memref.whole main_arg1) S4x258x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x258x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4x1x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2048x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S2048x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S2048x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S2048.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6) S512x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v7_0) S4x258x512.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v7_1) S4x258x512.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v7_2) S4x1x512.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S1024x512 : Shape := ⟨2, ![1024, 512]⟩
abbrev S1024x258x512 : Shape := ⟨3, ![1024, 258, 512]⟩
abbrev S1024 : Shape := ⟨1, ![1024]⟩
abbrev S2048x512 : Shape := ⟨2, ![2048, 512]⟩
abbrev S2048 : Shape := ⟨1, ![2048]⟩
abbrev S512x1024 : Shape := ⟨2, ![512, 1024]⟩
abbrev S512 : Shape := ⟨1, ![512]⟩
abbrev S_ : Shape := ⟨0, ![]⟩
abbrev S1024x1 : Shape := ⟨2, ![1024, 1]⟩
abbrev S1024x2 : Shape := ⟨2, ![1024, 2]⟩
abbrev S512x2048 : Shape := ⟨2, ![512, 2048]⟩
abbrev S1024x2048 : Shape := ⟨2, ![1024, 2048]⟩
abbrev S1x2048 : Shape := ⟨2, ![1, 2048]⟩
abbrev S1024x1024 : Shape := ⟨2, ![1024, 1024]⟩
abbrev S1x512 : Shape := ⟨2, ![1, 512]⟩

abbrev nBuf : Space → Nat
  | .hbm => 192
  | .vmem => 0
  | .smem => 0
  | _ => 0

abbrev hbmTy0_0 (i : Nat) : BufTy := match i % 128 with
  | 0 => ⟨S1024x512, .f32⟩
  | 1 => ⟨S1024x258x512, .f32⟩
  | 2 => ⟨S1024x258x512, .f32⟩
  | 3 => ⟨S1024, .i32⟩
  | 4 => ⟨S2048x512, .f32⟩
  | 5 => ⟨S2048x512, .f32⟩
  | 6 => ⟨S2048, .f32⟩
  | 7 => ⟨S2048, .f32⟩
  | 8 => ⟨S2048x512, .f32⟩
  | 9 => ⟨S2048x512, .f32⟩
  | 10 => ⟨S2048, .f32⟩
  | 11 => ⟨S2048, .f32⟩
  | 12 => ⟨S512x1024, .f32⟩
  | 13 => ⟨S512, .f32⟩
  | 14 => ⟨S1024, .i32⟩
  | 15 => ⟨S_, .i32⟩
  | 16 => ⟨S1024, .i32⟩
  | 17 => ⟨S1024, .i1⟩
  | 18 => ⟨S_, .i32⟩
  | 19 => ⟨S1024, .i32⟩
  | 20 => ⟨S1024, .i32⟩
  | 21 => ⟨S1024, .i32⟩
  | 22 => ⟨S_, .i32⟩
  | 23 => ⟨S1024, .i32⟩
  | 24 => ⟨S1024, .i1⟩
  | 25 => ⟨S_, .i32⟩
  | 26 => ⟨S1024, .i32⟩
  | 27 => ⟨S1024, .i32⟩
  | 28 => ⟨S1024, .i32⟩
  | 29 => ⟨S1024x1, .i32⟩
  | 30 => ⟨S1024x1, .i32⟩
  | 31 => ⟨S1024x2, .i32⟩
  | 32 => ⟨S1024x512, .f32⟩
  | 33 => ⟨S_, .i32⟩
  | 34 => ⟨S1024, .i32⟩
  | 35 => ⟨S1024, .i1⟩
  | 36 => ⟨S_, .i32⟩
  | 37 => ⟨S1024, .i32⟩
  | 38 => ⟨S1024, .i32⟩
  | 39 => ⟨S1024, .i32⟩
  | 40 => ⟨S_, .i32⟩
  | 41 => ⟨S1024, .i32⟩
  | 42 => ⟨S1024, .i1⟩
  | 43 => ⟨S_, .i32⟩
  | 44 => ⟨S1024, .i32⟩
  | 45 => ⟨S1024, .i32⟩
  | 46 => ⟨S1024, .i32⟩
  | 47 => ⟨S1024x1, .i32⟩
  | 48 => ⟨S1024x1, .i32⟩
  | 49 => ⟨S1024x2, .i32⟩
  | 50 => ⟨S1024x512, .f32⟩
  | 51 => ⟨S512x2048, .f32⟩
  | 52 => ⟨S1024x2048, .f32⟩
  | 53 => ⟨S512x2048, .f32⟩
  | 54 => ⟨S1024x2048, .f32⟩
  | 55 => ⟨S1024x2048, .f32⟩
  | 56 => ⟨S1x2048, .f32⟩
  | 57 => ⟨S1024x2048, .f32⟩
  | 58 => ⟨S1024x2048, .f32⟩
  | 59 => ⟨S1x2048, .f32⟩
  | 60 => ⟨S1024x2048, .f32⟩
  | 61 => ⟨S1024x2048, .f32⟩
  | 62 => ⟨S1024x512, .f32⟩
  | 63 => ⟨S1024x512, .f32⟩
  | 64 => ⟨S1024x512, .f32⟩
  | 65 => ⟨S1024x512, .f32⟩
  | 66 => ⟨S1024x512, .f32⟩
  | 67 => ⟨S1024x512, .f32⟩
  | 68 => ⟨S_, .f32⟩
  | 69 => ⟨S1024x512, .f32⟩
  | 70 => ⟨S1024x512, .f32⟩
  | 71 => ⟨S_, .f32⟩
  | 72 => ⟨S1024x512, .f32⟩
  | 73 => ⟨S1024x512, .f32⟩
  | 74 => ⟨S1024x512, .f32⟩
  | 75 => ⟨S1024x512, .f32⟩
  | 76 => ⟨S1024x512, .f32⟩
  | 77 => ⟨S_, .f32⟩
  | 78 => ⟨S1024x512, .f32⟩
  | 79 => ⟨S1024x512, .f32⟩
  | 80 => ⟨S_, .f32⟩
  | 81 => ⟨S1024x512, .f32⟩
  | 82 => ⟨S1024x512, .f32⟩
  | 83 => ⟨S1024x512, .f32⟩
  | 84 => ⟨S1024x512, .f32⟩
  | 85 => ⟨S1024x512, .f32⟩
  | 86 => ⟨S1024x512, .f32⟩
  | 87 => ⟨S1024x512, .f32⟩
  | 88 => ⟨S_, .f32⟩
  | 89 => ⟨S1024x512, .f32⟩
  | 90 => ⟨S1024x512, .f32⟩
  | 91 => ⟨S_, .f32⟩
  | 92 => ⟨S1024x512, .f32⟩
  | 93 => ⟨S1024x512, .f32⟩
  | 94 => ⟨S1024x512, .f32⟩
  | 95 => ⟨S1024x512, .f32⟩
  | 96 => ⟨S_, .i32⟩
  | 97 => ⟨S1024, .i32⟩
  | 98 => ⟨S1024, .i32⟩
  | 99 => ⟨S_, .i32⟩
  | 100 => ⟨S1024, .i32⟩
  | 101 => ⟨S1024, .i1⟩
  | 102 => ⟨S_, .i32⟩
  | 103 => ⟨S1024, .i32⟩
  | 104 => ⟨S1024, .i32⟩
  | 105 => ⟨S1024, .i32⟩
  | 106 => ⟨S_, .i32⟩
  | 107 => ⟨S1024, .i32⟩
  | 108 => ⟨S1024, .i1⟩
  | 109 => ⟨S_, .i32⟩
  | 110 => ⟨S1024, .i32⟩
  | 111 => ⟨S1024, .i32⟩
  | 112 => ⟨S1024, .i32⟩
  | 113 => ⟨S1024x1, .i32⟩
  | 114 => ⟨S1024x1, .i32⟩
  | 115 => ⟨S1024x2, .i32⟩
  | 116 => ⟨S1024x258x512, .f32⟩
  | 117 => ⟨S_, .i32⟩
  | 118 => ⟨S1024, .i32⟩
  | 119 => ⟨S1024, .i32⟩
  | 120 => ⟨S_, .i32⟩
  | 121 => ⟨S1024, .i32⟩
  | 122 => ⟨S1024, .i1⟩
  | 123 => ⟨S_, .i32⟩
  | 124 => ⟨S1024, .i32⟩
  | 125 => ⟨S1024, .i32⟩
  | 126 => ⟨S1024, .i32⟩
  | 127 => ⟨S_, .i32⟩
  | _ => ⟨S1024x512, .f32⟩

abbrev hbmTy0_1 (i : Nat) : BufTy := match i % 128 with
  | 0 => ⟨S1024, .i32⟩
  | 1 => ⟨S1024, .i1⟩
  | 2 => ⟨S_, .i32⟩
  | 3 => ⟨S1024, .i32⟩
  | 4 => ⟨S1024, .i32⟩
  | 5 => ⟨S1024, .i32⟩
  | 6 => ⟨S1024x1, .i32⟩
  | 7 => ⟨S1024x1, .i32⟩
  | 8 => ⟨S1024x2, .i32⟩
  | 9 => ⟨S1024x258x512, .f32⟩
  | 10 => ⟨S_, .f32⟩
  | 11 => ⟨S1024x512, .f32⟩
  | 12 => ⟨S512x2048, .f32⟩
  | 13 => ⟨S1024x2048, .f32⟩
  | 14 => ⟨S512x2048, .f32⟩
  | 15 => ⟨S1024x2048, .f32⟩
  | 16 => ⟨S1024x2048, .f32⟩
  | 17 => ⟨S1x2048, .f32⟩
  | 18 => ⟨S1024x2048, .f32⟩
  | 19 => ⟨S1024x2048, .f32⟩
  | 20 => ⟨S1x2048, .f32⟩
  | 21 => ⟨S1024x2048, .f32⟩
  | 22 => ⟨S1024x2048, .f32⟩
  | 23 => ⟨S1024x512, .f32⟩
  | 24 => ⟨S1024x512, .f32⟩
  | 25 => ⟨S1024x512, .f32⟩
  | 26 => ⟨S1024x512, .f32⟩
  | 27 => ⟨S1024x512, .f32⟩
  | 28 => ⟨S1024x512, .f32⟩
  | 29 => ⟨S_, .f32⟩
  | 30 => ⟨S1024x512, .f32⟩
  | 31 => ⟨S1024x512, .f32⟩
  | 32 => ⟨S_, .f32⟩
  | 33 => ⟨S1024x512, .f32⟩
  | 34 => ⟨S1024x512, .f32⟩
  | 35 => ⟨S1024x512, .f32⟩
  | 36 => ⟨S1024x512, .f32⟩
  | 37 => ⟨S1024x512, .f32⟩
  | 38 => ⟨S_, .f32⟩
  | 39 => ⟨S1024x512, .f32⟩
  | 40 => ⟨S1024x512, .f32⟩
  | 41 => ⟨S_, .f32⟩
  | 42 => ⟨S1024x512, .f32⟩
  | 43 => ⟨S1024x512, .f32⟩
  | 44 => ⟨S1024x512, .f32⟩
  | 45 => ⟨S1024x512, .f32⟩
  | 46 => ⟨S1024x512, .f32⟩
  | 47 => ⟨S1024x512, .f32⟩
  | 48 => ⟨S1024x512, .f32⟩
  | 49 => ⟨S_, .f32⟩
  | 50 => ⟨S1024x512, .f32⟩
  | 51 => ⟨S1024x512, .f32⟩
  | 52 => ⟨S_, .f32⟩
  | 53 => ⟨S1024x512, .f32⟩
  | 54 => ⟨S1024x512, .f32⟩
  | 55 => ⟨S1024x512, .f32⟩
  | 56 => ⟨S1024x512, .f32⟩
  | 57 => ⟨S1024x1024, .f32⟩
  | 58 => ⟨S1024x512, .f32⟩
  | 59 => ⟨S1024x512, .f32⟩
  | 60 => ⟨S1x512, .f32⟩
  | 61 => ⟨S1024x512, .f32⟩
  | 62 => ⟨S1024x512, .f32⟩
  | 63 => ⟨S1024x512, .f32⟩
  | _ => ⟨S1024x512, .f32⟩

abbrev hbmTy (i : Nat) : BufTy := match i / 128 with
  | 0 => hbmTy0_0 i
  | 1 => hbmTy0_1 i
  | _ => ⟨S1024x512, .f32⟩

abbrev bufTy : (tb : Table) → Fin (tcTables nBuf tb) → BufTy
  | .hbm, ⟨i, _⟩ => hbmTy i
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c_1 : Ref sig .tc := ⟨.hbm, 22, rfl⟩
abbrev main_v6 : Ref sig .tc := ⟨.hbm, 23, rfl⟩
abbrev main_v7 : Ref sig .tc := ⟨.hbm, 24, rfl⟩
abbrev main_c_2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_5 : Ref sig .tc := ⟨.hbm, 40, rfl⟩
abbrev main_v20 : Ref sig .tc := ⟨.hbm, 41, rfl⟩
abbrev main_v21 : Ref sig .tc := ⟨.hbm, 42, rfl⟩
abbrev main_c_6 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst : Ref sig .tc := ⟨.hbm, 68, rfl⟩
abbrev main_v46 : Ref sig .tc := ⟨.hbm, 69, rfl⟩
abbrev main_v47 : Ref sig .tc := ⟨.hbm, 70, rfl⟩
abbrev main_cst_7 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_8 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_10 : Ref sig .tc := ⟨.hbm, 88, rfl⟩
abbrev main_v62 : Ref sig .tc := ⟨.hbm, 89, rfl⟩
abbrev main_v63 : Ref sig .tc := ⟨.hbm, 90, rfl⟩
abbrev main_cst_11 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_12 : Ref sig .tc := ⟨.hbm, 96, rfl⟩
abbrev main_v68 : Ref sig .tc := ⟨.hbm, 97, rfl⟩
abbrev main_v69 : Ref sig .tc := ⟨.hbm, 98, rfl⟩
abbrev main_c_13 : Ref sig .tc := ⟨.hbm, 99, rfl⟩
abbrev main_v70 : Ref sig .tc := ⟨.hbm, 100, rfl⟩
abbrev main_v71 : Ref sig .tc := ⟨.hbm, 101, rfl⟩
abbrev main_c_14 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_15 : Ref sig .tc := ⟨.hbm, 106, rfl⟩
abbrev main_v75 : Ref sig .tc := ⟨.hbm, 107, rfl⟩
abbrev main_v76 : Ref sig .tc := ⟨.hbm, 108, rfl⟩
abbrev main_c_16 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_c_17 : Ref sig .tc := ⟨.hbm, 117, rfl⟩
abbrev main_v84 : Ref sig .tc := ⟨.hbm, 118, rfl⟩
abbrev main_v85 : Ref sig .tc := ⟨.hbm, 119, rfl⟩
abbrev main_c_18 : Ref sig .tc := ⟨.hbm, 120, rfl⟩
abbrev main_v86 : Ref sig .tc := ⟨.hbm, 121, rfl⟩
abbrev main_v87 : Ref sig .tc := ⟨.hbm, 122, rfl⟩
abbrev main_c_19 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_c_20 : Ref sig .tc := ⟨.hbm, 127, rfl⟩
abbrev main_v91 : Ref sig .tc := ⟨.hbm, 128, rfl⟩
abbrev main_v92 : Ref sig .tc := ⟨.hbm, 129, rfl⟩
abbrev main_c_21 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_22 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_23 : Ref sig .tc := ⟨.hbm, 157, rfl⟩
abbrev main_v118 : Ref sig .tc := ⟨.hbm, 158, rfl⟩
abbrev main_v119 : Ref sig .tc := ⟨.hbm, 159, rfl⟩
abbrev main_cst_24 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_cst_25 : Ref sig .tc := ⟨.hbm, 166, rfl⟩
abbrev main_v125 : Ref sig .tc := ⟨.hbm, 167, rfl⟩
abbrev main_v126 : Ref sig .tc := ⟨.hbm, 168, rfl⟩
abbrev main_cst_26 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_cst_27 : Ref sig .tc := ⟨.hbm, 177, rfl⟩
abbrev main_v134 : Ref sig .tc := ⟨.hbm, 178, rfl⟩
abbrev main_v135 : Ref sig .tc := ⟨.hbm, 179, rfl⟩
abbrev main_cst_28 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  transposes_S2048x512_S512x2048_1_0 : S2048x512.Transposes [1, 0] S512x2048
  bcast_S2048_S1x2048_1 : S2048.BroadcastsInDim S1x2048 (![1] : Fin 1 → Fin S1x2048.rank)
  bcast_S1x2048_S1024x2048_0_1 : S1x2048.BroadcastsInDim S1024x2048 (![0, 1] : Fin 2 → Fin S1024x2048.rank)
  slices_S1024x2048_S1024x512_0_0 : S1024x2048.Slices ![0, 0] S1024x512
  slices_S1024x2048_S1024x512_0_512 : S1024x2048.Slices ![0, 512] S1024x512
  slices_S1024x2048_S1024x512_0_1024 : S1024x2048.Slices ![0, 1024] S1024x512
  slices_S1024x2048_S1024x512_0_1536 : S1024x2048.Slices ![0, 1536] S1024x512
  bcast_S_S1024x512 : S_.BroadcastsInDim S1024x512 (![] : Fin 0 → Fin S1024x512.rank)
  concatenates_S1024x512_S1024x512_S1024x1024_d1 : Shape.Concatenates [S1024x512, S1024x512] S1024x1024 1
  transposes_S512x1024_S1024x512_1_0 : S512x1024.Transposes [1, 0] S1024x512
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  gather_S1024x258x512_S1024x2_S1024x512_1_01_n_n_01_1_11512_wf : GatherDims.WF S1024x258x512 S1024x2 S1024x512 [1] [0, 1] [] [0, 1] [] 1 ![1, 1, 512]
  dot_S1024x512_S512x2048_S1024x2048_1_0_0_1_n_n_wf : DotDims.WF S1024x512 S512x2048 S1024x2048 [1] [0] [0] [1] [] []
  scatter_S1024x258x512_S1024x2_S1024x512_1_01_01_1_wf : ScatterDims.WF S1024x258x512 S1024x2 S1024x512 [1] [0, 1] [0, 1] 1
  dot_S1024x1024_S1024x512_S1024x512_1_0_0_1_n_n_wf : DotDims.WF S1024x1024 S1024x512 S1024x512 [1] [0] [0] [1] [] []

variable [Facts₀]

def gather_S1024x258x512_S1024x2_S1024x512_1_01_n_n_01_1_11512 : GatherDims S1024x258x512 S1024x2 S1024x512 where
  offsetDims := [1]
  collapsedSliceDims := [0, 1]
  operandBatchingDims := []
  startIndicesBatchingDims := []
  startIndexMap := [0, 1]
  indexVectorDim := 1
  sliceSizes := ![1, 1, 512]
  wf := gather_S1024x258x512_S1024x2_S1024x512_1_01_n_n_01_1_11512_wf
def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf
def scatter_S1024x258x512_S1024x2_S1024x512_1_01_01_1 : ScatterDims S1024x258x512 S1024x2 S1024x512 where
  updateWindowDims := [1]
  insertedWindowDims := [0, 1]
  scatterDimsToOperandDims := [0, 1]
  indexVectorDim := 1
  wf := scatter_S1024x258x512_S1024x2_S1024x512_1_01_01_1_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

class Facts : Prop extends Facts₀ where

variable [Facts]
-- ==== Proof.Spec.lean ====
/-
  The mathematics both programs compute, stated once over plain index types.

  One step of a stack LSTM. For batch row `b` with stack position `p b`:
  the right cell reads the stack's top `(h, c) = (stack_hidden[b, p b, :], stack_cell[b, p b, :])`, forms the 2048 gate
  pre-activations `x·W_ihᵀ + h·W_hhᵀ + b_ih + b_hh` (lanes 0–511 input gate, 512–1023 forget gate, 1024–1535 candidate,
  1536–2047 output gate), and updates `c' = σ(f)·c + σ(i)·tanh(g)`, `h' = σ(o)·tanh(c')`; the left cell does the same from
  the zero state; the two hidden rows are composed by `tanh(h'_r·W_c[:, :512]ᵀ + h'_l·W_c[:, 512:]ᵀ + b_c)`; and row
  `p b + 1` of the two stacks is overwritten by `h'_r` and `c'_r` (nothing is written when `p b + 1 = 258`).
  Every sum is a sum in the extended reals, which form a commutative monoid under addition, so no order of summation is
  fixed here and no finiteness is needed anywhere below.
-/
import Idealize.ShloMosaic.PureOps.Ideal
import Idealize.ShloMosaic.Lib.ValueIdx

noncomputable section

open scoped BigOperators

namespace Cert.StackLstm

open Idealize.ShloMosaic Idealize.ShloMosaic.ValueIdx

/-- Arrays of extended reals over literal shapes. -/
abbrev A1 (n : Nat) : Type := (⟨1, ![n]⟩ : Shape).Idx → EReal
abbrev A2 (n0 n1 : Nat) : Type := (⟨2, ![n0, n1]⟩ : Shape).Idx → EReal
abbrev A3 (n0 n1 n2 : Nat) : Type := (⟨3, ![n0, n1, n2]⟩ : Shape).Idx → EReal

/-- The lane of each gate in a row of 2048 pre-activations. -/
def gI (j : Fin 512) : Fin 2048 := ⟨j.val, by omega⟩
def gF (j : Fin 512) : Fin 2048 := ⟨512 + j.val, by omega⟩
def gG (j : Fin 512) : Fin 2048 := ⟨1024 + j.val, by omega⟩
def gO (j : Fin 512) : Fin 2048 := ⟨1536 + j.val, by omega⟩

/-- The two halves of the compose layer's 1024 input lanes. -/
def lo (k : Fin 512) : Fin 1024 := ⟨k.val, by omega⟩
def hi (k : Fin 512) : Fin 1024 := ⟨512 + k.val, by omega⟩

/-- Gate pre-activations of one row: `((x·W_ihᵀ + h·W_hhᵀ) + b_ih) + b_hh` at lane `n`. -/
def gates (x h : Fin 512 → EReal) (Wih Whh : A2 2048 512) (bih bhh : A1 2048) (n : Fin 2048) : EReal :=
  (((∑ k : Fin 512, x k * Wih (ix2 n k)) + (∑ k : Fin 512, h k * Whh (ix2 n k))) + bih (ix1 n)) + bhh (ix1 n)

/-- The new cell state `σ(f)·c + σ(i)·tanh(g)`. -/
def cellC (g : Fin 2048 → EReal) (c : Fin 512 → EReal) (j : Fin 512) : EReal :=
  Ideal.logistic (g (gF j)) * c j + Ideal.logistic (g (gI j)) * Ideal.tanh (g (gG j))

/-- The new hidden state `σ(o)·tanh(c')`. -/
def cellH (g : Fin 2048 → EReal) (c : Fin 512 → EReal) (j : Fin 512) : EReal :=
  Ideal.logistic (g (gO j)) * Ideal.tanh (cellC g c j)

/-- The compose layer `tanh((h_r·W_c[:, :512]ᵀ + h_l·W_c[:, 512:]ᵀ) + b_c)` at lane `j`. -/
def compose (hr hl : Fin 512 → EReal) (Wc : A2 512 1024) (bc : A1 512) (j : Fin 512) : EReal :=
  Ideal.tanh (((∑ k : Fin 512, hr k * Wc (ix2 j (lo k))) + (∑ k : Fin 512, hl k * Wc (ix2 j (hi k)))) + bc (ix1 j))

/-- A sum over 1024 lanes is the sum over its two halves. -/
theorem sum_halves (f : Fin 1024 → EReal) : (∑ k : Fin 1024, f k) = (∑ k : Fin 512, f (lo k)) + (∑ k : Fin 512, f (hi k)) := by
  have h := Fin.sum_univ_add (a := 512) (b := 512) (fun k : Fin (512 + 512) => f ⟨k.val, by have := k.isLt; omega⟩)
  simp only [Fin.coe_castAdd, Fin.coe_natAdd] at h
  exact h

section Arrays

variable (char : A2 1024 512) (sh sc : A3 1024 258 512) (p : Fin 1024 → Fin 258)
  (Wihr Whhr : A2 2048 512) (bihr bhhr : A1 2048) (Wihl Whhl : A2 2048 512) (bihl bhhl : A1 2048)
  (Wc : A2 512 1024) (bc : A1 512)

/-- Row `b` of the character input. -/
def xRow (b : Fin 1024) : Fin 512 → EReal := fun k => char (ix2 b k)
/-- Row `p b` of batch `b` of a stack: the stack's top. -/
def top (st : A3 1024 258 512) (b : Fin 1024) : Fin 512 → EReal := fun k => st (ix3 b (p b) k)

/-- The right cell's gate pre-activations for batch row `b`. -/
def gR (b : Fin 1024) : Fin 2048 → EReal := gates (xRow char b) (top p sh b) Wihr Whhr bihr bhhr
/-- The right cell's new hidden and cell rows. -/
def hR (b : Fin 1024) : Fin 512 → EReal := cellH (gR char sh p Wihr Whhr bihr bhhr b) (top p sc b)
def cR (b : Fin 1024) : Fin 512 → EReal := cellC (gR char sh p Wihr Whhr bihr bhhr b) (top p sc b)
/-- The left cell, from the zero state. -/
def gL (b : Fin 1024) : Fin 2048 → EReal := gates (xRow char b) (fun _ => 0) Wihl Whhl bihl bhhl
def hL (b : Fin 1024) : Fin 512 → EReal := cellH (gL char Wihl Whhl bihl bhhl b) (fun _ => 0)

/-- The composed sub-word vector at `(b, j)`. -/
def sub (b : Fin 1024) (j : Fin 512) : EReal :=
  compose (hR char sh sc p Wihr Whhr bihr bhhr b) (hL char Wihl Whhl bihl bhhl b) Wc bc j

/-- The hidden stack after the push: row `p b + 1` of batch `b` replaced by the new hidden row. -/
def newH (b : Fin 1024) (s : Fin 258) (j : Fin 512) : EReal :=
  if s.val = (p b).val + 1 then hR char sh sc p Wihr Whhr bihr bhhr b j else sh (ix3 b s j)
/-- The cell stack after the push. -/
def newC (b : Fin 1024) (s : Fin 258) (j : Fin 512) : EReal :=
  if s.val = (p b).val + 1 then cR char sh sc p Wihr Whhr bihr bhhr b j else sc (ix3 b s j)

/-- The three results as whole arrays. -/
def subArr : A2 1024 512 := fun i =>
  sub char sh sc p Wihr Whhr bihr bhhr Wihl Whhl bihl bhhl Wc bc ⟨(i 0).val, (i 0).isLt⟩ ⟨(i 1).val, (i 1).isLt⟩
def newHArr : A3 1024 258 512 := fun i =>
  newH char sh sc p Wihr Whhr bihr bhhr ⟨(i 0).val, (i 0).isLt⟩ ⟨(i 1).val, (i 1).isLt⟩ ⟨(i 2).val, (i 2).isLt⟩
def newCArr : A3 1024 258 512 := fun i =>
  newC char sh sc p Wihr Whhr bihr bhhr ⟨(i 0).val, (i 0).isLt⟩ ⟨(i 1).val, (i 1).isLt⟩ ⟨(i 2).val, (i 2).isLt⟩

end Arrays

/-- An array is determined by its entries at `ix2` / `ix3` indices. -/
theorem ext2 {n0 n1 : Nat} {f g : A2 n0 n1} (h : ∀ a b, f (ix2 a b) = g (ix2 a b)) : f = g := by
  funext i; rw [eq_ix2 i]; exact h _ _
theorem ext3 {n0 n1 n2 : Nat} {f g : A3 n0 n1 n2} (h : ∀ a b c, f (ix3 a b c) = g (ix3 a b c)) : f = g := by
  funext i; rw [eq_ix3 i]; exact h _ _ _

end Cert.StackLstm

end
-- ==== Proof.KBlocks.lean ====
/-
  The kernel's blocks as rows of the argument arrays.

  The grid has 256 points; point `t` stages rows `4t … 4t + 3` of the two stacks, of the character input (kept as a
  [1024, 1, 512] array) and of the positions (a [1024, 1, 1] array), and the whole of every weight and bias. The arrays
  the region finds are the arguments themselves up to a change of shape (the character input and the positions) or of
  float format (the weights, which is no change over the extended reals). So block row `r` at point `t` is batch row
  `4t + r` of the arguments.
-/
import proofs.«418086_j48455821033604_2_alg».proof.Proof.Gen.KernelIdeal.Frame
import proofs.«418086_j48455821033604_2_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Blocks

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-- The batch row of block row `r` at grid point `t`. -/
def brow (t : Fin cfg0.N) (r : Fin 4) : Fin 1024 :=
  ⟨4 * t.val + r.val, by have := t.isLt; have h : cfg0.N = 256 := N_0; have := r.isLt; omega⟩

/-! ## The argument arrays, at their literal types -/

abbrev aChar : Vec Ideal S1024x512 .f32 := m ((c : Thread nD τ).loc main_arg0)
abbrev aH : Vec Ideal S1024x258x512 .f32 := m ((c : Thread nD τ).loc main_arg1)
abbrev aC : Vec Ideal S1024x258x512 .f32 := m ((c : Thread nD τ).loc main_arg2)
abbrev aPos : IVec S1024 32 := m ((c : Thread nD τ).loc main_arg3)
abbrev aWihr : Vec Ideal S2048x512 .f32 := m ((c : Thread nD τ).loc main_arg4)
abbrev aWhhr : Vec Ideal S2048x512 .f32 := m ((c : Thread nD τ).loc main_arg5)
abbrev aBihr : Vec Ideal S2048 .f32 := m ((c : Thread nD τ).loc main_arg6)
abbrev aBhhr : Vec Ideal S2048 .f32 := m ((c : Thread nD τ).loc main_arg7)
abbrev aWihl : Vec Ideal S2048x512 .f32 := m ((c : Thread nD τ).loc main_arg8)
abbrev aWhhl : Vec Ideal S2048x512 .f32 := m ((c : Thread nD τ).loc main_arg9)
abbrev aBihl : Vec Ideal S2048 .f32 := m ((c : Thread nD τ).loc main_arg10)
abbrev aBhhl : Vec Ideal S2048 .f32 := m ((c : Thread nD τ).loc main_arg11)
abbrev aWc : Vec Ideal S512x1024 .f32 := m ((c : Thread nD τ).loc main_arg12)
abbrev aBc : Vec Ideal S512 .f32 := m ((c : Thread nD τ).loc main_arg13)

/-! ## The windows' blocks, at their literal types -/

abbrev bH (t : Fin cfg0.N) : Vec Ideal S4x258x512 .f32 := iblk m c 0 t
abbrev bC (t : Fin cfg0.N) : Vec Ideal S4x258x512 .f32 := iblk m c 1 t
abbrev bX (t : Fin cfg0.N) : Vec Ideal S4x1x512 .f32 := iblk m c 2 t
abbrev bP (t : Fin cfg0.N) : Vec Ideal S4x1x1 .i32 := iblk m c 3 t
abbrev bWihr (t : Fin cfg0.N) : Vec Ideal S2048x512 .bf16 := iblk m c 4 t
abbrev bWhhr (t : Fin cfg0.N) : Vec Ideal S2048x512 .bf16 := iblk m c 5 t
abbrev bBihr (t : Fin cfg0.N) : Vec Ideal S2048 .f32 := iblk m c 6 t
abbrev bBhhr (t : Fin cfg0.N) : Vec Ideal S2048 .f32 := iblk m c 7 t
abbrev bWihl (t : Fin cfg0.N) : Vec Ideal S2048x512 .bf16 := iblk m c 8 t
abbrev bWhhl (t : Fin cfg0.N) : Vec Ideal S2048x512 .bf16 := iblk m c 9 t
abbrev bBihl (t : Fin cfg0.N) : Vec Ideal S2048 .f32 := iblk m c 10 t
abbrev bBhhl (t : Fin cfg0.N) : Vec Ideal S2048 .f32 := iblk m c 11 t
abbrev bWc (t : Fin cfg0.N) : Vec Ideal S512x1024 .bf16 := iblk m c 12 t
abbrev bBc (t : Fin cfg0.N) : Vec Ideal S512 .f32 := iblk m c 13 t

/-! ## The arrays the region finds -/

theorem V_v0 : (V m c main_v0 : S1024x1x1.Idx → BitVec 32)
    = shapeCast S1024x1x1 (aPos m c) shapeCasts_S1024_S1024x1x1 := by
  show StableHlo.after hostOps0 (fun b => m (c, b)) (Proc.devRef .tc main_v0) = _
  after_results
  rfl

theorem V_v1 : (V m c main_v1 : S1024x1x512.Idx → EReal)
    = shapeCast S1024x1x512 (aChar m c) shapeCasts_S1024x512_S1024x1x512 := by
  show StableHlo.after hostOps0 (fun b => m (c, b)) (Proc.devRef .tc main_v1) = _
  after_results
  rfl

theorem V_v2 : (V m c main_v2 : S2048x512.Idx → EReal) = aWihr m c := by
  show StableHlo.after hostOps0 (fun b => m (c, b)) (Proc.devRef .tc main_v2) = _
  after_results
  rfl
theorem V_v3 : (V m c main_v3 : S2048x512.Idx → EReal) = aWhhr m c := by
  show StableHlo.after hostOps0 (fun b => m (c, b)) (Proc.devRef .tc main_v3) = _
  after_results
  rfl
theorem V_v4 : (V m c main_v4 : S2048x512.Idx → EReal) = aWihl m c := by
  show StableHlo.after hostOps0 (fun b => m (c, b)) (Proc.devRef .tc main_v4) = _
  after_results
  rfl
theorem V_v5 : (V m c main_v5 : S2048x512.Idx → EReal) = aWhhl m c := by
  show StableHlo.after hostOps0 (fun b => m (c, b)) (Proc.devRef .tc main_v5) = _
  after_results
  rfl
theorem V_v6 : (V m c main_v6 : S512x1024.Idx → EReal) = aWc m c := by
  show StableHlo.after hostOps0 (fun b => m (c, b)) (Proc.devRef .tc main_v6) = _
  after_results
  rfl

/-- The positions as a [1024, 1, 1] array read the position of the batch row. -/
theorem V_v0_apply (b : Fin 1024) : (V m c main_v0 : S1024x1x1.Idx → BitVec 32) (ix3 b 0 0) = aPos m c (ix1 b) := by
  rw [V_v0]
  refine shapeCast_apply (aPos m c) shapeCasts_S1024_S1024x1x1 (ix3 b 0 0) (ix1 b) ?_
  rw [Shape.rowMajor_val_one, Shape.rowMajor_val_three]
  show b.val = (b.val * 1 + 0) * 1 + 0
  omega

/-- The character input as a [1024, 1, 512] array reads the batch row's lane. -/
theorem V_v1_apply (b : Fin 1024) (k : Fin 512) :
    (V m c main_v1 : S1024x1x512.Idx → EReal) (ix3 b 0 k) = aChar m c (ix2 b k) := by
  rw [V_v1]
  refine shapeCast_apply (aChar m c) shapeCasts_S1024x512_S1024x1x512 (ix3 b 0 k) (ix2 b k) ?_
  rw [Shape.rowMajor_val_two, Shape.rowMajor_val_three]
  show b.val * 512 + k.val = (b.val * 1 + 0) * 512 + k.val
  omega

/-! ## The printed index maps, decided over the grid -/

theorem idx_rows : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_14.index t (0 : Fin 3) = t.val ∧ win0_14.index t (1 : Fin 3) = 0 ∧ win0_14.index t (2 : Fin 3) = 0)
    ∧ (win0_15.index t (0 : Fin 3) = t.val ∧ win0_15.index t (1 : Fin 3) = 0 ∧ win0_15.index t (2 : Fin 3) = 0)
    ∧ (win0_16.index t (0 : Fin 3) = t.val ∧ win0_16.index t (1 : Fin 3) = 0 ∧ win0_16.index t (2 : Fin 3) = 0) :=
  (by decide +kernel : ∀ t : Fin grid0.N, _)

theorem idx_whole : ∀ t : Fin cfg0.N,
    (win0_4.index t (0 : Fin 2) = 0 ∧ win0_4.index t (1 : Fin 2) = 0)
    ∧ (win0_5.index t (0 : Fin 2) = 0 ∧ win0_5.index t (1 : Fin 2) = 0)
    ∧ win0_6.index t (0 : Fin 1) = 0 ∧ win0_7.index t (0 : Fin 1) = 0
    ∧ (win0_8.index t (0 : Fin 2) = 0 ∧ win0_8.index t (1 : Fin 2) = 0)
    ∧ (win0_9.index t (0 : Fin 2) = 0 ∧ win0_9.index t (1 : Fin 2) = 0)
    ∧ win0_10.index t (0 : Fin 1) = 0 ∧ win0_11.index t (0 : Fin 1) = 0
    ∧ (win0_12.index t (0 : Fin 2) = 0 ∧ win0_12.index t (1 : Fin 2) = 0)
    ∧ win0_13.index t (0 : Fin 1) = 0 :=
  (by decide +kernel : ∀ t : Fin grid0.N, _)

/-! ## The blocks read -/

theorem bH_apply (t : Fin cfg0.N) (r : Fin 4) (s : Fin 258) (j : Fin 512) :
    bH m c t (ix3 r s j) = aH m c (ix3 (brow t r) s j) := by
  show V m c main_arg1 (((cfg0.win 0).blk t).view.emb (ix3 r s j)) = aH m c (ix3 (brow t r) s j)
  rw [V_main_arg1]
  obtain ⟨⟨e0, e1, e2⟩, -⟩ := idx_rows t
  congr 1
  funext a; apply Fin.ext
  match a with
  | ⟨0, _⟩ => show win0_0.index t (0 : Fin 3) * 4 + 1 * r.val = 4 * t.val + r.val; omega
  | ⟨1, _⟩ => show win0_0.index t (1 : Fin 3) * 258 + 1 * s.val = s.val; omega
  | ⟨2, _⟩ => show win0_0.index t (2 : Fin 3) * 512 + 1 * j.val = j.val; omega

theorem bC_apply (t : Fin cfg0.N) (r : Fin 4) (s : Fin 258) (j : Fin 512) :
    bC m c t (ix3 r s j) = aC m c (ix3 (brow t r) s j) := by
  show V m c main_arg2 (((cfg0.win 1).blk t).view.emb (ix3 r s j)) = aC m c (ix3 (brow t r) s j)
  rw [V_main_arg2]
  obtain ⟨-, ⟨e0, e1, e2⟩, -⟩ := idx_rows t
  congr 1
  funext a; apply Fin.ext
  match a with
  | ⟨0, _⟩ => show win0_1.index t (0 : Fin 3) * 4 + 1 * r.val = 4 * t.val + r.val; omega
  | ⟨1, _⟩ => show win0_1.index t (1 : Fin 3) * 258 + 1 * s.val = s.val; omega
  | ⟨2, _⟩ => show win0_1.index t (2 : Fin 3) * 512 + 1 * j.val = j.val; omega

theorem bX_apply (t : Fin cfg0.N) (r : Fin 4) (k : Fin 512) :
    bX m c t (ix3 r 0 k) = aChar m c (ix2 (brow t r) k) := by
  refine Eq.trans ?_ (V_v1_apply m c (brow t r) k)
  show V m c main_v1 (((cfg0.win 2).blk t).view.emb (ix3 r 0 k)) = V m c main_v1 (ix3 (brow t r) 0 k)
  obtain ⟨-, -, ⟨e0, e1, e2⟩, -⟩ := idx_rows t
  congr 1
  funext a; apply Fin.ext
  match a with
  | ⟨0, _⟩ => show win0_2.index t (0 : Fin 3) * 4 + 1 * r.val = 4 * t.val + r.val; omega
  | ⟨1, _⟩ => show win0_2.index t (1 : Fin 3) * 1 + 1 * 0 = 0; omega
  | ⟨2, _⟩ => show win0_2.index t (2 : Fin 3) * 512 + 1 * k.val = k.val; omega

theorem bP_apply (t : Fin cfg0.N) (r : Fin 4) :
    bP m c t (ix3 r 0 0) = aPos m c (ix1 (brow t r)) := by
  refine Eq.trans ?_ (V_v0_apply m c (brow t r))
  show V m c main_v0 (((cfg0.win 3).blk t).view.emb (ix3 r 0 0)) = V m c main_v0 (ix3 (brow t r) 0 0)
  obtain ⟨-, -, -, ⟨e0, e1, e2⟩, -⟩ := idx_rows t
  congr 1
  funext a; apply Fin.ext
  match a with
  | ⟨0, _⟩ => show win0_3.index t (0 : Fin 3) * 4 + 1 * r.val = 4 * t.val + r.val; omega
  | ⟨1, _⟩ => show win0_3.index t (1 : Fin 3) * 1 + 1 * 0 = 0; omega
  | ⟨2, _⟩ => show win0_3.index t (2 : Fin 3) * 1 + 1 * 0 = 0; omega

end Cert.KernelIdeal.Blocks

end
-- ==== Proof.KPayDefs.lean ====
/-
  A block of the kernel holds four batch rows. These are the rows of a block that the specification's row functions
  are applied to: row `r` of the character block, and stack row `q r` of block row `r` of a stack tile, where `q r`
  is the row's stack position.
-/
import proofs.«418086_j48455821033604_2_alg».proof.Proof.Gen.KernelIdeal.Skeleton
import proofs.«418086_j48455821033604_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.StackLstm

/-- Row `r` of the block of the character input. -/
def xr (x2 : Vec Ideal S4x1x512 .f32) (r : Fin 4) : Fin 512 → EReal := fun k => x2 (ix3 r 0 k)
/-- Stack row `q r` of block row `r` of a stack tile. -/
def tp (q : Fin 4 → Fin 258) (x : Vec Ideal S4x258x512 .f32) (r : Fin 4) : Fin 512 → EReal := fun k => x (ix3 r (q r) k)

/-- The right cell's gate pre-activations for block row `r`, as the specification's function of the block's rows. -/
def gRow (x0 : Vec Ideal S4x258x512 .f32) (x2 : Vec Ideal S4x1x512 .f32) (x4 x5 : Vec Ideal S2048x512 .bf16)
    (x6 x7 : Vec Ideal S2048 .f32) (q : Fin 4 → Fin 258) (r : Fin 4) : Fin 2048 → EReal :=
  gates (xr x2 r) (tp q x0 r) x4 x5 x6 x7
/-- The left cell's, from the zero state. -/
def gRowL (x2 : Vec Ideal S4x1x512 .f32) (x8 x9 : Vec Ideal S2048x512 .bf16) (x10 x11 : Vec Ideal S2048 .f32)
    (r : Fin 4) : Fin 2048 → EReal :=
  gates (xr x2 r) (fun _ => 0) x8 x9 x10 x11

end Cert.KernelIdeal.Pay

end
-- ==== Proof.KPayR.lean ====
/-
  The right LSTM cell of the kernel body, read one element at a time.

  For row `r` of a block whose position word is `q r`, the one-hot compare of the row iota against the position keeps
  exactly stack row `q r`, so the lane sum over the 258 stack rows of the selected tile is that row; a matmul into a
  zero accumulator is the plain sum over the contracted lane; the four gate slices are lanes `j`, `512 + j`,
  `1024 + j`, `1536 + j`; and the select on "stack row = q r + 1" writes the new hidden (cell) row there and keeps
  the tile elsewhere.
-/
import proofs.«418086_j48455821033604_2_alg».proof.Proof.Gen.KernelIdeal.Skeleton
import proofs.«418086_j48455821033604_2_alg».proof.Proof.Spec
import proofs.«418086_j48455821033604_2_alg».proof.Proof.KPayDefs
import Idealize.ShloMosaic.Lib.ValueIdx
import Idealize.ShloMosaic.Lib.Pipeline.Value
import Idealize.ShloMosaic.PureOps.Ideal.Laws
import Idealize.ShloMosaic.Lib.StableHlo.Predicate

noncomputable section

open scoped BigOperators

namespace Cert.KernelIdeal.Pay

open Cert.KernelIdeal Cert.KernelIdeal.Gen Idealize.ShloMosaic Idealize.ShloMosaic.ValueIdx Cert.StackLstm

/-! The operations of the right cell read at one index, each stated once over variables of the literal types. -/

namespace RightCell

/-- Words of two naturals below 2^32 are equal exactly when the naturals are. -/
theorem ofNat32_inj {a b : Nat} (ha : a < 2 ^ 32) (hb : b < 2 ^ 32) : BitVec.ofNat 32 a = BitVec.ofNat 32 b ↔ a = b := by
  constructor
  · intro h
    have := congrArg BitVec.toNat h
    simp only [BitVec.toNat_ofNat] at this
    omega
  · intro h; rw [h]

/-- The iota along the stack axis reads the stack row. -/
theorem rowIota_apply (r : Fin 4) (s : Fin 258) (j : Fin 512) :
    iota .tc S4x258x512 32 [1] iota_S4x258x512_d1_w32 (ix3 r s j) = BitVec.ofNat 32 s.val :=
  iota_single_apply .tc S4x258x512 32 1 iota_S4x258x512_d1_w32 (ix3 r s j)

/-- A [4,1,1] word vector broadcast over the tile reads its row's one entry. -/
theorem bcastPos_apply (v : IVec S4x1x1 32) (r : Fin 4) (s : Fin 258) (j : Fin 512) :
    broadcastTo S4x258x512 v broadcasts_S4x1x1_S4x258x512 (ix3 r s j) = v (ix3 r 0 0) :=
  broadcastTo_apply v broadcasts_S4x1x1_S4x258x512 (ix3 r s j) (ix3 r 0 0) (fun a => match a with
    | ⟨0, _⟩ => by show r.val = if (4 : Nat) = 1 then 0 else r.val; rw [if_neg (by decide)]
    | ⟨1, _⟩ => by show (0 : Nat) = if (1 : Nat) = 1 then 0 else _; rw [if_pos rfl]
    | ⟨2, _⟩ => by show (0 : Nat) = if (1 : Nat) = 1 then 0 else _; rw [if_pos rfl])

/-- The word of a natural plus one is the word of its successor. -/
theorem ofNat32_succ (a : Nat) : IntOp.addi (BitVec.ofNat 32 a) 1#32 = BitVec.ofNat 32 (a + 1) := by
  unfold IntOp.addi
  apply BitVec.eq_of_toNat_eq
  simp only [BitVec.toNat_add, BitVec.toNat_ofNat]
  omega

section Mask

variable (x3 : Vec Ideal S4x1x1 .i32) (q : Fin 4 → Fin 258) (hq : ∀ r : Fin 4, x3 (ix3 r 0 0) = BitVec.ofNat 32 (q r).val)
include hq

/-- The position vector of the block, read at row `r`. -/
theorem pos_apply (r : Fin 4) : k0_pay3 (F := Ideal) x3 (ix3 r 0 0) = BitVec.ofNat 32 (q r).val := by
  unfold k0_pay3
  rw [shapeCast_self]
  exact hq r

/-- The compare "stack row = position" at `(r, s, j)` is set exactly when `s = q r`. -/
theorem mask_iff (r : Fin 4) (s : Fin 258) (j : Fin 512) :
    k0_pay4 (F := Ideal) x3 (ix3 r s j) = 1#1 ↔ s = q r := by
  have e : k0_pay4 (F := Ideal) x3 (ix3 r s j)
      = IntOp.cmpi .eq (BitVec.ofNat 32 s.val) (BitVec.ofNat 32 (q r).val) := by
    show IntOp.cmpi .eq (iota .tc S4x258x512 32 [1] iota_S4x258x512_d1_w32 (ix3 r s j))
      (broadcastTo S4x258x512 (k0_pay3 (F := Ideal) x3) broadcasts_S4x1x1_S4x258x512 (ix3 r s j)) = _
    rw [rowIota_apply, bcastPos_apply, pos_apply x3 q hq]
  rw [e, StableHlo.Predicate.cmpi_eq_iff, ofNat32_inj (by have := s.isLt; omega) (by have := (q r).isLt; omega)]
  exact Fin.val_inj

/-- The compare "stack row = position + 1" at `(r, s, j)` is set exactly when `s = q r + 1`. -/
theorem maskNext_iff (r : Fin 4) (s : Fin 258) (j : Fin 512) :
    k0_pay5 (F := Ideal) x3 (ix3 r s j) = 1#1 ↔ s.val = (q r).val + 1 := by
  have e : k0_pay5 (F := Ideal) x3 (ix3 r s j)
      = IntOp.cmpi .eq (BitVec.ofNat 32 s.val) (BitVec.ofNat 32 ((q r).val + 1)) := by
    show IntOp.cmpi .eq (iota .tc S4x258x512 32 [1] iota_S4x258x512_d1_w32 (ix3 r s j))
      (broadcastTo S4x258x512 (addi (k0_pay3 (F := Ideal) x3) (broadcast S4x1x1 1#32)) broadcasts_S4x1x1_S4x258x512 (ix3 r s j)) = _
    rw [rowIota_apply, bcastPos_apply]
    show IntOp.cmpi .eq _ (IntOp.addi (k0_pay3 (F := Ideal) x3 (ix3 r 0 0)) 1#32) = _
    rw [pos_apply x3 q hq, ofNat32_succ]
  rw [e, StableHlo.Predicate.cmpi_eq_iff, ofNat32_inj (by have := s.isLt; omega) (by have := (q r).isLt; omega)]

end Mask

/-- Inserting stack row `k` into the index `(r, j)` of the reduced tile gives `(r, k, j)`. -/
theorem lift_row (r : Fin 4) (j : Fin 512) (k : Fin 258) :
    reduces_S4x258x512_S4x512.lift (ix2 r j) k = ix3 r k j :=
  funext fun a => Fin.ext (match a with
    | ⟨0, _⟩ => rfl
    | ⟨1, _⟩ => rfl
    | ⟨2, _⟩ => rfl)

/-- The lane sum over the stack axis of a tile, at the ideal values. -/
theorem rowSum_apply (v : Vec Ideal S4x258x512 .f32) (r : Fin 4) (j : Fin 512) :
    multiReduction (F := Ideal) .add [1] S4x512 v 0x00000000#32 reduces_S4x258x512_S4x512 (.inl rfl) rfl (ix2 r j)
      = ∑ k : Fin 258, v (ix3 r k j) := by
  refine (Ideal.multiReduction_add_single v 0x00000000#32 reduces_S4x258x512_S4x512 (.inl rfl) rfl (ix2 r j)).trans ?_
  exact Finset.sum_congr rfl fun k _ => congrArg v (lift_row r j k)

section Gather

variable (x3 : Vec Ideal S4x1x1 .i32) (q : Fin 4 → Fin 258) (hq : ∀ r : Fin 4, x3 (ix3 r 0 0) = BitVec.ofNat 32 (q r).val)
include hq

/-- The tile masked by "stack row = position": row `q r` is kept, every other row is zero. -/
theorem masked_apply (x : Vec Ideal S4x258x512 .f32) (r : Fin 4) (k : Fin 258) (j : Fin 512) :
    select (k0_pay4 (F := Ideal) x3) x (broadcast S4x258x512 (Scalar.ofBits (F := Ideal) .f32 0x00000000#32)) (ix3 r k j)
      = if k = q r then x (ix3 r k j) else 0 := by
  rw [select_apply, broadcast_apply]
  by_cases h : k = q r
  · rw [if_pos h, (mask_iff x3 q hq r k j).2 h, select_one]
  · rw [if_neg h, eq_zero_of_ne_one (fun h1 => h ((mask_iff x3 q hq r k j).1 h1)), select_zero]
    exact Ideal.ofBits_zero_f32

/-- The one-hot lane sum picks stack row `q r`. -/
theorem oneHotSum_apply (x : Vec Ideal S4x258x512 .f32) (r : Fin 4) (j : Fin 512) :
    k0_pay6 (F := Ideal) x3 x (ix2 r j) = x (ix3 r (q r) j) := by
  show multiReduction (F := Ideal) .add [1] S4x512
      (select (k0_pay4 (F := Ideal) x3) x (broadcast S4x258x512 (Scalar.ofBits (F := Ideal) .f32 0x00000000#32)))
      0x00000000#32 reduces_S4x258x512_S4x512 (.inl rfl) rfl (ix2 r j) = _
  rw [rowSum_apply, Finset.sum_congr rfl fun k _ => masked_apply x3 q hq x r k j, Finset.sum_ite_eq' Finset.univ (q r),
    if_pos (Finset.mem_univ _)]

end Gather

/-! The gate matmul `[4,512] × [2048,512] → [4,2048]`, both operands contracting their lane axis. -/

theorem lhs_gateDot_0 (i : S4x2048.Idx) (p : dot_S4x512_S2048x512_S4x2048_1_1_0_0_n_n.contr.Idx) :
    (dot_S4x512_S2048x512_S4x2048_1_1_0_0_n_n.lhsIdx i p 0).val = (i 0).val := by
  unfold DotDims.lhsIdx
  rw [dif_neg (show ¬(0 : Fin S4x512.rank) ∈ dot_S4x512_S2048x512_S4x2048_1_1_0_0_n_n.lhsBatch by decide), dif_pos (show (0 : Fin S4x512.rank) ∈ dot_S4x512_S2048x512_S4x2048_1_1_0_0_n_n.lhsNonContracting by decide)]
  rfl
theorem lhs_gateDot_1 (i : S4x2048.Idx) (p : dot_S4x512_S2048x512_S4x2048_1_1_0_0_n_n.contr.Idx) :
    (dot_S4x512_S2048x512_S4x2048_1_1_0_0_n_n.lhsIdx i p 1).val = (p ⟨0, by decide⟩).val :=
  dot_S4x512_S2048x512_S4x2048_1_1_0_0_n_n.lhsIdx_val_of_single rfl i p
theorem rhs_gateDot_0 (i : S4x2048.Idx) (p : dot_S4x512_S2048x512_S4x2048_1_1_0_0_n_n.contr.Idx) :
    (dot_S4x512_S2048x512_S4x2048_1_1_0_0_n_n.rhsIdx i p 0).val = (i 1).val := by
  unfold DotDims.rhsIdx
  rw [dif_neg (show ¬(0 : Fin S2048x512.rank) ∈ dot_S4x512_S2048x512_S4x2048_1_1_0_0_n_n.rhsBatch by decide), dif_pos (show (0 : Fin S2048x512.rank) ∈ dot_S4x512_S2048x512_S4x2048_1_1_0_0_n_n.rhsNonContracting by decide)]
  rfl
theorem rhs_gateDot_1 (i : S4x2048.Idx) (p : dot_S4x512_S2048x512_S4x2048_1_1_0_0_n_n.contr.Idx) :
    (dot_S4x512_S2048x512_S4x2048_1_1_0_0_n_n.rhsIdx i p 1).val = (p ⟨0, by decide⟩).val :=
  dot_S4x512_S2048x512_S4x2048_1_1_0_0_n_n.rhsIdx_val_of_single rfl i p

/-- The gate matmul into the zero accumulator at `(r, n)`: the sum over the contracted lane. -/
theorem gateDot_apply (a : FVec Ideal S4x512 .bf16) (w : FVec Ideal S2048x512 .bf16) (r : Fin 4) (n : Fin 2048) :
    matmul dot_S4x512_S2048x512_S4x2048_1_1_0_0_n_n none a w (constant S4x2048 .f32 0x00000000#32) (ix2 r n)
      = ∑ k : Fin 512, a (ix2 r k) * w (ix2 n k) := by
  simp only [matmul]
  rw [Ideal.matmul_constant_zero_apply, ← Equiv.sum_comp (contrEquiv1 dot_S4x512_S2048x512_S4x2048_1_1_0_0_n_n 512 rfl rfl).symm]
  refine Finset.sum_congr rfl fun k _ => ?_
  have hk := contrEquiv1_symm_val dot_S4x512_S2048x512_S4x2048_1_1_0_0_n_n 512 rfl rfl k
  have el : dot_S4x512_S2048x512_S4x2048_1_1_0_0_n_n.lhsIdx (ix2 r n) ((contrEquiv1 dot_S4x512_S2048x512_S4x2048_1_1_0_0_n_n 512 rfl rfl).symm k) = ix2 r k := funext fun c => Fin.ext (by
    match c with
    | ⟨0, _⟩ => exact lhs_gateDot_0 _ _
    | ⟨1, _⟩ => exact (lhs_gateDot_1 _ _).trans hk)
  have er : dot_S4x512_S2048x512_S4x2048_1_1_0_0_n_n.rhsIdx (ix2 r n) ((contrEquiv1 dot_S4x512_S2048x512_S4x2048_1_1_0_0_n_n 512 rfl rfl).symm k) = ix2 n k := funext fun c => Fin.ext (by
    match c with
    | ⟨0, _⟩ => exact rhs_gateDot_0 _ _
    | ⟨1, _⟩ => exact (rhs_gateDot_1 _ _).trans hk)
  rw [el, er]

/-- A bias row `[2048]` viewed `[1,2048]` and broadcast over the four block rows reads lane `n`. -/
theorem biasRow_apply (b : Vec Ideal S2048 .f32) (r : Fin 4) (n : Fin 2048) :
    broadcastTo S4x2048 (shapeCast S1x2048 b shapeCasts_S2048_S1x2048) broadcasts_S1x2048_S4x2048 (ix2 r n) = b (ix1 n) := by
  refine (broadcastTo_apply _ broadcasts_S1x2048_S4x2048 (ix2 r n) (ix2 0 n) (fun a => match a with
    | ⟨0, _⟩ => by show (0 : Nat) = if (1 : Nat) = 1 then 0 else _; rw [if_pos rfl]
    | ⟨1, _⟩ => by show n.val = if (2048 : Nat) = 1 then 0 else n.val; rw [if_neg (by decide)])).trans ?_
  refine shapeCast_apply b shapeCasts_S2048_S1x2048 (ix2 0 n) (ix1 n) ?_
  rw [Shape.rowMajor_val_one, Shape.rowMajor_val_two]
  show n.val = 0 * 2048 + n.val
  omega

/-- The character block `[4,1,512]` viewed `[4,512]` reads `(r, 0, k)` at `(r, k)`. -/
theorem charRow_apply (x2 : Vec Ideal S4x1x512 .f32) (r : Fin 4) (k : Fin 512) :
    k0_pay7 (F := Ideal) x2 (ix2 r k) = x2 (ix3 r 0 k) := by
  unfold k0_pay7
  rw [shapeCast_self]
  refine shapeCast_apply x2 shapeCasts_S4x1x512_S4x512 (ix2 r k) (ix3 r 0 k) ?_
  rw [Shape.rowMajor_val_two, Shape.rowMajor_val_three]
  show (r.val * 1 + 0) * 512 + k.val = r.val * 512 + k.val
  omega

section Gates

variable (x0 x1 : Vec Ideal S4x258x512 .f32) (x2 : Vec Ideal S4x1x512 .f32) (x3 : Vec Ideal S4x1x1 .i32)
  (x4 x5 : Vec Ideal S2048x512 .bf16) (x6 x7 : Vec Ideal S2048 .f32)
  (q : Fin 4 → Fin 258) (hq : ∀ r : Fin 4, x3 (ix3 r 0 0) = BitVec.ofNat 32 (q r).val)
include hq

/-- The pre-activations before the second bias: `(x·W_ih + h·W_hh) + b_ih`. -/
theorem preGates_apply (r : Fin 4) (n : Fin 2048) :
    k0_pay8 (F := Ideal) x3 x0 x2 x4 x5 x6 (ix2 r n)
      = ((∑ k : Fin 512, xr x2 r k * x4 (ix2 n k)) + (∑ k : Fin 512, tp q x0 r k * x5 (ix2 n k))) + x6 (ix1 n) := by
  show addf (addf
        (matmul dot_S4x512_S2048x512_S4x2048_1_1_0_0_n_n none (truncf .bf16 (k0_pay7 (F := Ideal) x2) bitsLt_bf16_f32)
          (shapeCast S2048x512 x4 shapeCasts_S2048x512_S2048x512) (constant S4x2048 .f32 0x00000000#32))
        (matmul dot_S4x512_S2048x512_S4x2048_1_1_0_0_n_n none (truncf .bf16 (k0_pay6 (F := Ideal) x3 x0) bitsLt_bf16_f32)
          (shapeCast S2048x512 x5 shapeCasts_S2048x512_S2048x512) (constant S4x2048 .f32 0x00000000#32)))
      (broadcastTo S4x2048 (shapeCast S1x2048 x6 shapeCasts_S2048_S1x2048) broadcasts_S1x2048_S4x2048) (ix2 r n) = _
  rw [addf_apply, addf_apply, gateDot_apply, gateDot_apply, biasRow_apply, shapeCast_self, shapeCast_self]
  refine congrArg (· + x6 (ix1 n)) (congrArg₂ (· + ·) ?_ ?_)
  · exact Finset.sum_congr rfl fun k _ => congrArg (· * x4 (ix2 n k)) ((truncf_apply (ψ := .bf16) (k0_pay7 (F := Ideal) x2) bitsLt_bf16_f32 (ix2 r k)).trans (charRow_apply x2 r k))
  · exact Finset.sum_congr rfl fun k _ => congrArg (· * x5 (ix2 n k)) ((truncf_apply (ψ := .bf16) (k0_pay6 (F := Ideal) x3 x0) bitsLt_bf16_f32 (ix2 r k)).trans (oneHotSum_apply x3 q hq x0 r k))

end Gates

/-- A 512-lane slice of the gate row at lane offset `off` reads lane `off + j`. -/
theorem gateSlice_apply (off : Nat) (g : FVec Ideal S4x2048 .f32) (h : S4x2048.Slices ![0, off] S4x512)
    (r : Fin 4) (j : Fin 512) (m : Fin 2048) (hm : m.val = off + j.val) :
    extractStridedSlice S4x512 ![0, off] g h (ix2 r j) = g (ix2 r m) :=
  extractStridedSlice_apply ![0, off] g h (ix2 r j) (ix2 r m) (fun a => match a with
    | ⟨0, _⟩ => by show r.val = 0 + r.val; omega
    | ⟨1, _⟩ => by show m.val = off + j.val; exact hm)

/-- The cell update of one block row: if the gate row reads `g` and the old cell row reads `c'`, the new cell row is `cellC g c'`. -/
theorem cellC_row (c : FVec Ideal S4x512 .f32) (b : Vec Ideal S2048 .f32) (p : FVec Ideal S4x2048 .f32)
    (g : Fin 2048 → EReal) (c' : Fin 512 → EReal) (r : Fin 4)
    (hg : ∀ n, k0_pay9 (F := Ideal) b p (ix2 r n) = g n) (hc : ∀ j, c (ix2 r j) = c' j) (j : Fin 512) :
    k0_pay10 (F := Ideal) c b p (ix2 r j) = cellC g c' j := by
  show Ideal.logistic (extractStridedSlice S4x512 ![0, 512] (k0_pay9 (F := Ideal) b p) slices_S4x2048_o0_512_S4x512 (ix2 r j)) * c (ix2 r j)
      + Ideal.logistic (extractStridedSlice S4x512 ![0, 0] (k0_pay9 (F := Ideal) b p) slices_S4x2048_o0_0_S4x512 (ix2 r j))
        * Ideal.tanh (extractStridedSlice S4x512 ![0, 1024] (k0_pay9 (F := Ideal) b p) slices_S4x2048_o0_1024_S4x512 (ix2 r j)) = _
  rw [gateSlice_apply 512 _ _ r j (gF j) rfl, gateSlice_apply 0 _ _ r j (gI j) (by show j.val = 0 + j.val; omega),
    gateSlice_apply 1024 _ _ r j (gG j) rfl, hg, hg, hg, hc]
  rfl

/-- The hidden update of one block row, likewise. -/
theorem cellH_row (c : FVec Ideal S4x512 .f32) (b : Vec Ideal S2048 .f32) (p : FVec Ideal S4x2048 .f32)
    (g : Fin 2048 → EReal) (c' : Fin 512 → EReal) (r : Fin 4)
    (hg : ∀ n, k0_pay9 (F := Ideal) b p (ix2 r n) = g n) (hc : ∀ j, c (ix2 r j) = c' j) (j : Fin 512) :
    k0_pay11 (F := Ideal) c b p (ix2 r j) = cellH g c' j := by
  show Ideal.logistic (extractStridedSlice S4x512 ![0, 1536] (k0_pay9 (F := Ideal) b p) slices_S4x2048_o0_1536_S4x512 (ix2 r j))
      * Ideal.tanh (k0_pay10 (F := Ideal) c b p (ix2 r j)) = _
  rw [gateSlice_apply 1536 _ _ r j (gO j) rfl, hg, cellC_row c b p g c' r hg hc j]
  rfl

/-- A `[4,512]` row block viewed `[4,1,512]` and broadcast over the stack axis reads `(r, j)` at `(r, s, j)`. -/
theorem rowBcast_apply (v : FVec Ideal S4x512 .f32) (r : Fin 4) (s : Fin 258) (j : Fin 512) :
    broadcastTo S4x258x512
        (shapeCast S4x1x512 (shapeCast S4x1x512 v shapeCasts_S4x512_S4x1x512) shapeCasts_S4x1x512_S4x1x512)
        broadcasts_S4x1x512_S4x258x512 (ix3 r s j) = v (ix2 r j) := by
  rw [shapeCast_self]
  refine (broadcastTo_apply _ broadcasts_S4x1x512_S4x258x512 (ix3 r s j) (ix3 r 0 j) (fun a => match a with
    | ⟨0, _⟩ => by show r.val = if (4 : Nat) = 1 then 0 else r.val; rw [if_neg (by decide)]
    | ⟨1, _⟩ => by show (0 : Nat) = if (1 : Nat) = 1 then 0 else _; rw [if_pos rfl]
    | ⟨2, _⟩ => by show j.val = if (512 : Nat) = 1 then 0 else j.val; rw [if_neg (by decide)])).trans ?_
  refine shapeCast_apply v shapeCasts_S4x512_S4x1x512 (ix3 r 0 j) (ix2 r j) ?_
  rw [Shape.rowMajor_val_two, Shape.rowMajor_val_three]
  show r.val * 512 + j.val = (r.val * 1 + 0) * 512 + j.val
  omega

/-- A select between a broadcast row block and a tile, on a mask whose bit at `(r, s, j)` decides `P`. -/
theorem push_apply (m : IVec S4x258x512 1) (row : FVec Ideal S4x512 .f32) (t : Vec Ideal S4x258x512 .f32)
    (P : Prop) [Decidable P] (r : Fin 4) (s : Fin 258) (j : Fin 512) (hm : m (ix3 r s j) = 1#1 ↔ P) :
    select m (broadcastTo S4x258x512
        (shapeCast S4x1x512 (shapeCast S4x1x512 row shapeCasts_S4x512_S4x1x512) shapeCasts_S4x1x512_S4x1x512)
        broadcasts_S4x1x512_S4x258x512) t (ix3 r s j) = if P then row (ix2 r j) else t (ix3 r s j) := by
  rw [select_apply, rowBcast_apply]
  by_cases h : P
  · rw [if_pos h, hm.2 h, select_one]
  · rw [if_neg h, eq_zero_of_ne_one (fun h1 => h (hm.1 h1)), select_zero]

end RightCell

variable (x0 x1 : Vec Ideal S4x258x512 .f32) (x2 : Vec Ideal S4x1x512 .f32) (x3 : Vec Ideal S4x1x1 .i32)
  (x4 x5 : Vec Ideal S2048x512 .bf16) (x6 x7 : Vec Ideal S2048 .f32)
  (q : Fin 4 → Fin 258) (hq : ∀ r : Fin 4, x3 (ix3 r 0 0) = BitVec.ofNat 32 (q r).val)
include hq

/-- The one-hot lane sum picks stack row `q r`. -/
theorem gathered_apply (x : Vec Ideal S4x258x512 .f32) (r : Fin 4) (j : Fin 512) :
    k0_pay6 (F := Ideal) x3 x (ix2 r j) = x (ix3 r (q r) j) :=
  RightCell.oneHotSum_apply x3 q hq x r j

/-- The gate pre-activations. -/
theorem gates_apply (r : Fin 4) (n : Fin 2048) :
    k0_pay9 (F := Ideal) x7 (k0_pay8 x3 x0 x2 x4 x5 x6) (ix2 r n) = gRow x0 x2 x4 x5 x6 x7 q r n := by
  show addf (k0_pay8 (F := Ideal) x3 x0 x2 x4 x5 x6)
      (broadcastTo S4x2048 (shapeCast S1x2048 x7 shapeCasts_S2048_S1x2048) broadcasts_S1x2048_S4x2048) (ix2 r n) = _
  rw [addf_apply, RightCell.biasRow_apply, RightCell.preGates_apply x0 x2 x3 x4 x5 x6 q hq]
  rfl

/-- The new cell row. -/
theorem cnew_apply (r : Fin 4) (j : Fin 512) :
    k0_pay10 (F := Ideal) (k0_pay6 x3 x1) x7 (k0_pay8 x3 x0 x2 x4 x5 x6) (ix2 r j)
      = cellC (gRow x0 x2 x4 x5 x6 x7 q r) (tp q x1 r) j :=
  RightCell.cellC_row (k0_pay6 (F := Ideal) x3 x1) x7 (k0_pay8 (F := Ideal) x3 x0 x2 x4 x5 x6)
    (gRow x0 x2 x4 x5 x6 x7 q r) (tp q x1 r) r
    (fun n => gates_apply x0 x2 x3 x4 x5 x6 x7 q hq r n) (fun k => gathered_apply x3 q hq x1 r k) j

/-- The new hidden row. -/
theorem hnew_apply (r : Fin 4) (j : Fin 512) :
    k0_pay11 (F := Ideal) (k0_pay6 x3 x1) x7 (k0_pay8 x3 x0 x2 x4 x5 x6) (ix2 r j)
      = cellH (gRow x0 x2 x4 x5 x6 x7 q r) (tp q x1 r) j :=
  RightCell.cellH_row (k0_pay6 (F := Ideal) x3 x1) x7 (k0_pay8 (F := Ideal) x3 x0 x2 x4 x5 x6)
    (gRow x0 x2 x4 x5 x6 x7 q r) (tp q x1 r) r
    (fun n => gates_apply x0 x2 x3 x4 x5 x6 x7 q hq r n) (fun k => gathered_apply x3 q hq x1 r k) j

/-- The hidden tile after the push. -/
theorem newH_block (r : Fin 4) (s : Fin 258) (j : Fin 512) :
    k0_pay13 (F := Ideal) (k0_pay5 x3) x0 (k0_pay6 x3 x1) x7 (k0_pay8 x3 x0 x2 x4 x5 x6) (ix3 r s j)
      = if s.val = (q r).val + 1 then cellH (gRow x0 x2 x4 x5 x6 x7 q r) (tp q x1 r) j else x0 (ix3 r s j) := by
  refine (RightCell.push_apply (k0_pay5 (F := Ideal) x3)
    (k0_pay11 (F := Ideal) (k0_pay6 x3 x1) x7 (k0_pay8 x3 x0 x2 x4 x5 x6)) x0
    (s.val = (q r).val + 1) r s j (RightCell.maskNext_iff x3 q hq r s j)).trans ?_
  rw [hnew_apply x0 x1 x2 x3 x4 x5 x6 x7 q hq r j]

/-- The cell tile after the push. -/
theorem newC_block (r : Fin 4) (s : Fin 258) (j : Fin 512) :
    k0_pay1 (F := Ideal) (k0_pay5 x3) x1 (k0_pay10 (k0_pay6 x3 x1) x7 (k0_pay8 x3 x0 x2 x4 x5 x6)) (ix3 r s j)
      = if s.val = (q r).val + 1 then cellC (gRow x0 x2 x4 x5 x6 x7 q r) (tp q x1 r) j else x1 (ix3 r s j) := by
  refine (RightCell.push_apply (k0_pay5 (F := Ideal) x3)
    (k0_pay10 (F := Ideal) (k0_pay6 x3 x1) x7 (k0_pay8 x3 x0 x2 x4 x5 x6)) x1
    (s.val = (q r).val + 1) r s j (RightCell.maskNext_iff x3 q hq r s j)).trans ?_
  rw [cnew_apply x0 x1 x2 x3 x4 x5 x6 x7 q hq r j]

end Cert.KernelIdeal.Pay

end
-- ==== Proof.KPayL.lean ====
/-
  The left LSTM cell and the compose layer of the kernel body, read one element at a time.

  The left cell starts from the zero state: its hidden-state matmul contracts a block of zeros, and its cell update
  multiplies the forget gate by zero; both are kept as they are written, since the specification's left cell is the same
  cell function applied to the zero row. The compose layer contracts the two hidden blocks against the two column
  halves of the 512 × 1024 weight.
-/
import proofs.«418086_j48455821033604_2_alg».proof.Proof.Gen.KernelIdeal.Skeleton
import proofs.«418086_j48455821033604_2_alg».proof.Proof.Spec
import proofs.«418086_j48455821033604_2_alg».proof.Proof.KPayDefs
import Idealize.ShloMosaic.Lib.ValueIdx
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.StackLstm

/-! ## Layout operations of the body, read at an index -/

section Layout
variable {α : Type}

/-- Dropping the unit middle axis: the [4,512] view at (r, k) is the [4,1,512] block at (r, 0, k). -/
theorem dropMid_apply (v : S4x1x512.Idx → α) (h : S4x1x512.ShapeCasts S4x512) (r : Fin 4) (k : Fin 512) :
    shapeCast S4x512 v h (ix2 r k) = v (ix3 r 0 k) := by
  refine shapeCast_apply v h (ix2 r k) (ix3 r 0 k) ?_
  rw [Shape.rowMajor_val_three, Shape.rowMajor_val_two]
  show (r.val * 1 + 0) * 512 + k.val = r.val * 512 + k.val
  omega

/-- Adding the unit middle axis back: the [4,1,512] view at (r, 0, j) is the [4,512] block at (r, j). -/
theorem addMid_apply (v : S4x512.Idx → α) (h : S4x512.ShapeCasts S4x1x512) (r : Fin 4) (j : Fin 512) :
    shapeCast S4x1x512 v h (ix3 r 0 j) = v (ix2 r j) := by
  refine shapeCast_apply v h (ix3 r 0 j) (ix2 r j) ?_
  rw [Shape.rowMajor_val_three, Shape.rowMajor_val_two]
  show r.val * 512 + j.val = (r.val * 1 + 0) * 512 + j.val
  omega

/-- A bias row of 2048 lanes, viewed [1,2048] and broadcast over the four rows, reads its lane. -/
theorem biasRow2048_apply (v : S2048.Idx → α) (h : S2048.ShapeCasts S1x2048) (h' : S1x2048.Broadcasts S4x2048)
    (r : Fin 4) (n : Fin 2048) :
    broadcastTo S4x2048 (shapeCast S1x2048 v h) h' (ix2 r n) = v (ix1 n) := by
  refine (broadcastTo_apply _ h' (ix2 r n) (ix2 (0 : Fin 1) n) (fun a => match a with
    | ⟨0, _⟩ => rfl
    | ⟨1, _⟩ => rfl)).trans ?_
  refine shapeCast_apply v h (ix2 (0 : Fin 1) n) (ix1 n) ?_
  rw [Shape.rowMajor_val_one, Shape.rowMajor_val_two]
  show n.val = 0 * 2048 + n.val
  omega

/-- A bias row of 512 lanes likewise. -/
theorem biasRow512_apply (v : S512.Idx → α) (h : S512.ShapeCasts S1x512) (h' : S1x512.Broadcasts S4x512)
    (r : Fin 4) (j : Fin 512) :
    broadcastTo S4x512 (shapeCast S1x512 v h) h' (ix2 r j) = v (ix1 j) := by
  refine (broadcastTo_apply _ h' (ix2 r j) (ix2 (0 : Fin 1) j) (fun a => match a with
    | ⟨0, _⟩ => rfl
    | ⟨1, _⟩ => rfl)).trans ?_
  refine shapeCast_apply v h (ix2 (0 : Fin 1) j) (ix1 j) ?_
  rw [Shape.rowMajor_val_one, Shape.rowMajor_val_two]
  show j.val = 0 * 512 + j.val
  omega

/-- A 512-lane slice of a row of 2048 gate lanes at lane offset `o` reads lane `o + j`. -/
theorem gateSlice_apply (o : Nat) (v : S4x2048.Idx → α) (h : S4x2048.Slices ![0, o] S4x512) (r : Fin 4) (j : Fin 512)
    (n : Fin 2048) (hn : n.val = o + j.val) :
    extractStridedSlice S4x512 ![0, o] v h (ix2 r j) = v (ix2 r n) := by
  refine extractStridedSlice_apply _ v h (ix2 r j) (ix2 r n) (fun a => match a with
    | ⟨0, _⟩ => by show r.val = 0 + r.val; omega
    | ⟨1, _⟩ => by show n.val = o + j.val; exact hn)

/-- A column half of the 512 × 1024 weight at column offset `o` reads column `o + k`. -/
theorem colHalf_apply (o : Nat) (v : S512x1024.Idx → α) (h : S512x1024.Slices ![0, o] S512x512) (j k : Fin 512)
    (c : Fin 1024) (hc : c.val = o + k.val) :
    extractStridedSlice S512x512 ![0, o] v h (ix2 j k) = v (ix2 j c) := by
  refine extractStridedSlice_apply _ v h (ix2 j k) (ix2 j c) (fun a => match a with
    | ⟨0, _⟩ => by show j.val = 0 + j.val; omega
    | ⟨1, _⟩ => by show c.val = o + k.val; exact hc)

end Layout

/-! ## The two contractions, read at an index

Both contract axis 1 of both operands: the product at (r, n) is the sum over k of lhs (r, k) · rhs (n, k). -/

section Contraction

theorem lhs_gates_0 (i : S4x2048.Idx) (q : dot_S4x512_S2048x512_S4x2048_1_1_0_0_n_n.contr.Idx) :
    (dot_S4x512_S2048x512_S4x2048_1_1_0_0_n_n.lhsIdx i q 0).val = (i 0).val := by
  unfold DotDims.lhsIdx
  rw [dif_neg (show ¬(0 : Fin S4x512.rank) ∈ dot_S4x512_S2048x512_S4x2048_1_1_0_0_n_n.lhsBatch by decide), dif_pos (show (0 : Fin S4x512.rank) ∈ dot_S4x512_S2048x512_S4x2048_1_1_0_0_n_n.lhsNonContracting by decide)]
  rfl
theorem lhs_gates_1 (i : S4x2048.Idx) (q : dot_S4x512_S2048x512_S4x2048_1_1_0_0_n_n.contr.Idx) :
    (dot_S4x512_S2048x512_S4x2048_1_1_0_0_n_n.lhsIdx i q 1).val = (q ⟨0, by decide⟩).val :=
  dot_S4x512_S2048x512_S4x2048_1_1_0_0_n_n.lhsIdx_val_of_single rfl i q
theorem rhs_gates_0 (i : S4x2048.Idx) (q : dot_S4x512_S2048x512_S4x2048_1_1_0_0_n_n.contr.Idx) :
    (dot_S4x512_S2048x512_S4x2048_1_1_0_0_n_n.rhsIdx i q 0).val = (i 1).val := by
  unfold DotDims.rhsIdx
  rw [dif_neg (show ¬(0 : Fin S2048x512.rank) ∈ dot_S4x512_S2048x512_S4x2048_1_1_0_0_n_n.rhsBatch by decide), dif_pos (show (0 : Fin S2048x512.rank) ∈ dot_S4x512_S2048x512_S4x2048_1_1_0_0_n_n.rhsNonContracting by decide)]
  rfl
theorem rhs_gates_1 (i : S4x2048.Idx) (q : dot_S4x512_S2048x512_S4x2048_1_1_0_0_n_n.contr.Idx) :
    (dot_S4x512_S2048x512_S4x2048_1_1_0_0_n_n.rhsIdx i q 1).val = (q ⟨0, by decide⟩).val :=
  dot_S4x512_S2048x512_S4x2048_1_1_0_0_n_n.rhsIdx_val_of_single rfl i q

/-- The gate matmul into the zero accumulator at (r, n): the row of the left operand against row `n` of the weight. -/
theorem gatesMatmul_apply {φ₁ φ₂ : FTy} (a : FVec Ideal S4x512 φ₁) (w : FVec Ideal S2048x512 φ₂) (r : Fin 4) (n : Fin 2048) :
    matmul dot_S4x512_S2048x512_S4x2048_1_1_0_0_n_n none a w (constant S4x2048 .f32 0x00000000#32) (ix2 r n)
      = ∑ k : Fin 512, a (ix2 r k) * w (ix2 n k) := by
  simp only [matmul]
  rw [Ideal.matmul_constant_zero_apply, ← Equiv.sum_comp (contrEquiv1 dot_S4x512_S2048x512_S4x2048_1_1_0_0_n_n 512 rfl rfl).symm]
  refine Finset.sum_congr rfl fun k _ => ?_
  have hk := contrEquiv1_symm_val dot_S4x512_S2048x512_S4x2048_1_1_0_0_n_n 512 rfl rfl k
  have el : dot_S4x512_S2048x512_S4x2048_1_1_0_0_n_n.lhsIdx (ix2 r n) ((contrEquiv1 dot_S4x512_S2048x512_S4x2048_1_1_0_0_n_n 512 rfl rfl).symm k) = ix2 r k := funext fun b => Fin.ext (by
    match b with
    | ⟨0, _⟩ => exact lhs_gates_0 _ _
    | ⟨1, _⟩ => exact (lhs_gates_1 _ _).trans hk)
  have er : dot_S4x512_S2048x512_S4x2048_1_1_0_0_n_n.rhsIdx (ix2 r n) ((contrEquiv1 dot_S4x512_S2048x512_S4x2048_1_1_0_0_n_n 512 rfl rfl).symm k) = ix2 n k := funext fun b => Fin.ext (by
    match b with
    | ⟨0, _⟩ => exact rhs_gates_0 _ _
    | ⟨1, _⟩ => exact (rhs_gates_1 _ _).trans hk)
  rw [el, er]

theorem lhs_comp_0 (i : S4x512.Idx) (q : dot_S4x512_S512x512_S4x512_1_1_0_0_n_n.contr.Idx) :
    (dot_S4x512_S512x512_S4x512_1_1_0_0_n_n.lhsIdx i q 0).val = (i 0).val := by
  unfold DotDims.lhsIdx
  rw [dif_neg (show ¬(0 : Fin S4x512.rank) ∈ dot_S4x512_S512x512_S4x512_1_1_0_0_n_n.lhsBatch by decide), dif_pos (show (0 : Fin S4x512.rank) ∈ dot_S4x512_S512x512_S4x512_1_1_0_0_n_n.lhsNonContracting by decide)]
  rfl
theorem lhs_comp_1 (i : S4x512.Idx) (q : dot_S4x512_S512x512_S4x512_1_1_0_0_n_n.contr.Idx) :
    (dot_S4x512_S512x512_S4x512_1_1_0_0_n_n.lhsIdx i q 1).val = (q ⟨0, by decide⟩).val :=
  dot_S4x512_S512x512_S4x512_1_1_0_0_n_n.lhsIdx_val_of_single rfl i q
theorem rhs_comp_0 (i : S4x512.Idx) (q : dot_S4x512_S512x512_S4x512_1_1_0_0_n_n.contr.Idx) :
    (dot_S4x512_S512x512_S4x512_1_1_0_0_n_n.rhsIdx i q 0).val = (i 1).val := by
  unfold DotDims.rhsIdx
  rw [dif_neg (show ¬(0 : Fin S512x512.rank) ∈ dot_S4x512_S512x512_S4x512_1_1_0_0_n_n.rhsBatch by decide), dif_pos (show (0 : Fin S512x512.rank) ∈ dot_S4x512_S512x512_S4x512_1_1_0_0_n_n.rhsNonContracting by decide)]
  rfl
theorem rhs_comp_1 (i : S4x512.Idx) (q : dot_S4x512_S512x512_S4x512_1_1_0_0_n_n.contr.Idx) :
    (dot_S4x512_S512x512_S4x512_1_1_0_0_n_n.rhsIdx i q 1).val = (q ⟨0, by decide⟩).val :=
  dot_S4x512_S512x512_S4x512_1_1_0_0_n_n.rhsIdx_val_of_single rfl i q

/-- The compose matmul into the zero accumulator at (r, j): the row of the left operand against row `j` of the weight half. -/
theorem compMatmul_apply {φ₁ φ₂ : FTy} (a : FVec Ideal S4x512 φ₁) (w : FVec Ideal S512x512 φ₂) (r : Fin 4) (j : Fin 512) :
    matmul dot_S4x512_S512x512_S4x512_1_1_0_0_n_n none a w (constant S4x512 .f32 0x00000000#32) (ix2 r j)
      = ∑ k : Fin 512, a (ix2 r k) * w (ix2 j k) := by
  simp only [matmul]
  rw [Ideal.matmul_constant_zero_apply, ← Equiv.sum_comp (contrEquiv1 dot_S4x512_S512x512_S4x512_1_1_0_0_n_n 512 rfl rfl).symm]
  refine Finset.sum_congr rfl fun k _ => ?_
  have hk := contrEquiv1_symm_val dot_S4x512_S512x512_S4x512_1_1_0_0_n_n 512 rfl rfl k
  have el : dot_S4x512_S512x512_S4x512_1_1_0_0_n_n.lhsIdx (ix2 r j) ((contrEquiv1 dot_S4x512_S512x512_S4x512_1_1_0_0_n_n 512 rfl rfl).symm k) = ix2 r k := funext fun b => Fin.ext (by
    match b with
    | ⟨0, _⟩ => exact lhs_comp_0 _ _
    | ⟨1, _⟩ => exact (lhs_comp_1 _ _).trans hk)
  have er : dot_S4x512_S512x512_S4x512_1_1_0_0_n_n.rhsIdx (ix2 r j) ((contrEquiv1 dot_S4x512_S512x512_S4x512_1_1_0_0_n_n 512 rfl rfl).symm k) = ix2 j k := funext fun b => Fin.ext (by
    match b with
    | ⟨0, _⟩ => exact rhs_comp_0 _ _
    | ⟨1, _⟩ => exact (rhs_comp_1 _ _).trans hk)
  rw [el, er]

end Contraction

/-! ## Elementwise operations at an index -/

section Elementwise
variable {s : Shape} {φ : FTy}

/-- A hyperbolic tangent at an index is the ideal one of the element. -/
theorem tanh_at (a : FVec Ideal s φ) (i : s.Idx) : tanh a i = Ideal.tanh (a i) := rfl
/-- A logistic at an index is the ideal one of the element. -/
theorem logistic_at (a : FVec Ideal s φ) (i : s.Idx) : logistic a i = Ideal.logistic (a i) := rfl
/-- The broadcast f32 zero word is the extended real zero at every index. -/
theorem zeroSplat_at (i : s.Idx) : broadcast s (Scalar.ofBits (F := Ideal) .f32 0x00000000#32) i = (0 : EReal) :=
  Ideal.ofBits_zero_f32

end Elementwise

variable (x2 : Vec Ideal S4x1x512 .f32)
  (x8 x9 : Vec Ideal S2048x512 .bf16) (x10 x11 : Vec Ideal S2048 .f32)
  (x12 : Vec Ideal S512x1024 .bf16) (x13 : Vec Ideal S512 .f32)

/-! ## The left cell -/

/-- The block of the character input viewed [4,512] reads row `r`, lane `k` of the block. -/
theorem pay7_apply (r : Fin 4) (k : Fin 512) : k0_pay7 (F := Ideal) x2 (ix2 r k) = x2 (ix3 r 0 k) := by
  unfold k0_pay7
  show shapeCast S4x512 (shapeCast S4x1x512 x2 shapeCasts_S4x1x512_S4x1x512) shapeCasts_S4x1x512_S4x512 (ix2 r k) = _
  rw [shapeCast_self]
  exact dropMid_apply x2 _ r k

/-- The left cell's gate pre-activations as the body forms them from an input block `v` and the zero hidden block:
    the specification's gates of row `r` of `v` and the zero row. -/
theorem gatesL_apply (v : FVec Ideal S4x512 .f32) (r : Fin 4) (n : Fin 2048) :
    addf (addf (addf
        (matmul dot_S4x512_S2048x512_S4x2048_1_1_0_0_n_n none (truncf .bf16 v bitsLt_bf16_f32)
          (shapeCast S2048x512 x8 shapeCasts_S2048x512_S2048x512 : FVec Ideal S2048x512 .bf16) (constant S4x2048 .f32 0x00000000#32))
        (matmul dot_S4x512_S2048x512_S4x2048_1_1_0_0_n_n none
          (truncf .bf16 (broadcast S4x512 (Scalar.ofBits (F := Ideal) .f32 0x00000000#32)) bitsLt_bf16_f32)
          (shapeCast S2048x512 x9 shapeCasts_S2048x512_S2048x512 : FVec Ideal S2048x512 .bf16) (constant S4x2048 .f32 0x00000000#32)))
        (broadcastTo S4x2048 (shapeCast S1x2048 x10 shapeCasts_S2048_S1x2048 : FVec Ideal S1x2048 .f32) broadcasts_S1x2048_S4x2048))
        (broadcastTo S4x2048 (shapeCast S1x2048 x11 shapeCasts_S2048_S1x2048 : FVec Ideal S1x2048 .f32) broadcasts_S1x2048_S4x2048) (ix2 r n)
      = gates (fun k => v (ix2 r k)) (fun _ => 0) x8 x9 x10 x11 n := by
  rw [addf_apply, addf_apply, addf_apply, gatesMatmul_apply, gatesMatmul_apply, biasRow2048_apply, biasRow2048_apply,
    shapeCast_self, shapeCast_self]
  unfold gates
  refine congrArg (· + x11 (ix1 n)) (congrArg (· + x10 (ix1 n)) ?_)
  refine congrArg₂ (· + ·) (Finset.sum_congr rfl fun k _ => ?_) (Finset.sum_congr rfl fun k _ => ?_)
  · rw [truncf_apply]
  · rw [truncf_apply, zeroSplat_at]

/-- The cell update from the zero cell state, as the body writes it over a block `G` of gate pre-activations:
    the specification's hidden row of the row of `G` and the zero row. -/
theorem cellFromZero_apply (G : FVec Ideal S4x2048 .f32) (g : Fin 2048 → EReal) (r : Fin 4) (hG : ∀ n, G (ix2 r n) = g n)
    (j : Fin 512) :
    mulf (logistic (extractStridedSlice S4x512 ![0, 1536] G slices_S4x2048_o0_1536_S4x512 : FVec Ideal S4x512 .f32))
      (tanh (addf
        (mulf (logistic (extractStridedSlice S4x512 ![0, 512] G slices_S4x2048_o0_512_S4x512 : FVec Ideal S4x512 .f32))
          (broadcast S4x512 (Scalar.ofBits (F := Ideal) .f32 0x00000000#32)))
        (mulf (logistic (extractStridedSlice S4x512 ![0, 0] G slices_S4x2048_o0_0_S4x512 : FVec Ideal S4x512 .f32))
          (tanh (extractStridedSlice S4x512 ![0, 1024] G slices_S4x2048_o0_1024_S4x512 : FVec Ideal S4x512 .f32)))))
      (ix2 r j) = cellH g (fun _ => 0) j := by
  rw [mulf_apply, logistic_at, tanh_at, addf_apply, mulf_apply, mulf_apply, logistic_at, logistic_at, tanh_at, zeroSplat_at,
    gateSlice_apply 1536 G _ r j (gO j) rfl, gateSlice_apply 512 G _ r j (gF j) rfl,
    gateSlice_apply 0 G _ r j (gI j) (by show j.val = 0 + j.val; omega), gateSlice_apply 1024 G _ r j (gG j) rfl,
    hG, hG, hG, hG]
  rfl

/-- The left cell's hidden block over any input block. -/
theorem pay12_apply (v : FVec Ideal S4x512 .f32) (r : Fin 4) (j : Fin 512) :
    k0_pay12 (F := Ideal) v x8 x9 x10 x11 (ix2 r j)
      = cellH (gates (fun k => v (ix2 r k)) (fun _ => 0) x8 x9 x10 x11) (fun _ => 0) j := by
  unfold k0_pay12
  exact cellFromZero_apply _ _ r (fun n => gatesL_apply x8 x9 x10 x11 v r n) j

/-- The left cell's hidden row, from the zero state. -/
theorem hleft_apply (r : Fin 4) (j : Fin 512) :
    k0_pay12 (F := Ideal) (k0_pay7 x2) x8 x9 x10 x11 (ix2 r j) = cellH (gRowL x2 x8 x9 x10 x11 r) (fun _ => 0) j := by
  rw [pay12_apply]
  have h : (fun k => k0_pay7 (F := Ideal) x2 (ix2 r k)) = xr x2 r := funext fun k => pay7_apply x2 r k
  rw [h]
  rfl

/-- The compose layer over any two hidden blocks. -/
theorem compose_apply (hr hl : FVec Ideal S4x512 .f32) (r : Fin 4) (j : Fin 512) :
    k0_pay2 (F := Ideal) hr hl x12 x13 (ix3 r 0 j)
      = compose (fun k => hr (ix2 r k)) (fun k => hl (ix2 r k)) x12 x13 j := by
  unfold k0_pay2
  refine (addMid_apply _ _ r j).trans ?_
  rw [tanh_at, addf_apply, addf_apply, compMatmul_apply, compMatmul_apply, biasRow512_apply]
  unfold compose
  refine congrArg Ideal.tanh (congrArg (· + x13 (ix1 j)) (congrArg₂ (· + ·)
    (Finset.sum_congr rfl fun k _ => ?_) (Finset.sum_congr rfl fun k _ => ?_)))
  · rw [truncf_apply, colHalf_apply 0 _ _ j k (lo k) (by show k.val = 0 + k.val; omega), shapeCast_self]
  · rw [truncf_apply, colHalf_apply 512 _ _ j k (hi k) rfl, shapeCast_self]

end Cert.KernelIdeal.Pay

end
-- ==== Proof.KRun.lean ====
/-
  The kernel's run, read as the specification's arrays.

  At grid point `t` the body writes back, for each of the two stacks, the tile whose row `r` is batch row `4t + r` of
  the stack with stack row `p + 1` replaced by the new hidden (cell) row, and for the sub-word output the composed row;
  these are block `t` of the specification's arrays. The 256 blocks tile the arrays (batch row `b` lies in block
  `b / 4`), so after the region the arrays hold the specification's; the reshape after the region drops the unit axis
  of the sub-word array.
-/
import proofs.«418086_j48455821033604_2_alg».proof.Proof.KBlocks
import proofs.«418086_j48455821033604_2_alg».proof.Proof.KPayR
import proofs.«418086_j48455821033604_2_alg».proof.Proof.KPayL

noncomputable section

namespace Cert.KernelIdeal.Blocks

open Cert.KernelIdeal Cert.KernelIdeal.Gen Idealize.ShloMosaic Idealize.ShloMosaic.TcCoe Idealize.SL.Sem
open Idealize.ShloMosaic.StableHlo Idealize.ShloMosaic.ValueIdx Cert.StackLstm Cert.KernelIdeal.Pay

variable (m : (ℓ : Loc nD τ sig) → Buf (Elt Ideal) ℓ) (c : Dev nD)

/-! ## The blocks that are the whole array -/

theorem bWihr_eq (t : Fin cfg0.N) : bWihr m c t = aWihr m c := by
  funext y
  refine Eq.trans ?_ (congrFun (V_v2 m c) y)
  show V m c main_v2 (((cfg0.win 4).blk t).view.emb y) = V m c main_v2 y
  have hw := idx_whole t
  congr 1
  funext a; apply Fin.ext
  match a with
  | ⟨0, _⟩ => show win0_4.index t (0 : Fin 2) * 2048 + 1 * (y 0).val = (y 0).val; omega
  | ⟨1, _⟩ => show win0_4.index t (1 : Fin 2) * 512 + 1 * (y 1).val = (y 1).val; omega

theorem bWhhr_eq (t : Fin cfg0.N) : bWhhr m c t = aWhhr m c := by
  funext y
  refine Eq.trans ?_ (congrFun (V_v3 m c) y)
  show V m c main_v3 (((cfg0.win 5).blk t).view.emb y) = V m c main_v3 y
  have hw := idx_whole t
  congr 1
  funext a; apply Fin.ext
  match a with
  | ⟨0, _⟩ => show win0_5.index t (0 : Fin 2) * 2048 + 1 * (y 0).val = (y 0).val; omega
  | ⟨1, _⟩ => show win0_5.index t (1 : Fin 2) * 512 + 1 * (y 1).val = (y 1).val; omega

theorem bBihr_eq (t : Fin cfg0.N) : bBihr m c t = aBihr m c := by
  funext y
  refine Eq.trans ?_ (congrFun (V_main_arg6 m c) y)
  show V m c main_arg6 (((cfg0.win 6).blk t).view.emb y) = V m c main_arg6 y
  have hw := idx_whole t
  congr 1
  funext a; apply Fin.ext
  match a with
  | ⟨0, _⟩ => show win0_6.index t (0 : Fin 1) * 2048 + 1 * (y 0).val = (y 0).val; omega

theorem bBhhr_eq (t : Fin cfg0.N) : bBhhr m c t = aBhhr m c := by
  funext y
  refine Eq.trans ?_ (congrFun (V_main_arg7 m c) y)
  show V m c main_arg7 (((cfg0.win 7).blk t).view.emb y) = V m c main_arg7 y
  have hw := idx_whole t
  congr 1
  funext a; apply Fin.ext
  match a with
  | ⟨0, _⟩ => show win0_7.index t (0 : Fin 1) * 2048 + 1 * (y 0).val = (y 0).val; omega

theorem bWihl_eq (t : Fin cfg0.N) : bWihl m c t = aWihl m c := by
  funext y
  refine Eq.trans ?_ (congrFun (V_v4 m c) y)
  show V m c main_v4 (((cfg0.win 8).blk t).view.emb y) = V m c main_v4 y
  have hw := idx_whole t
  congr 1
  funext a; apply Fin.ext
  match a with
  | ⟨0, _⟩ => show win0_8.index t (0 : Fin 2) * 2048 + 1 * (y 0).val = (y 0).val; omega
  | ⟨1, _⟩ => show win0_8.index t (1 : Fin 2) * 512 + 1 * (y 1).val = (y 1).val; omega

theorem bWhhl_eq (t : Fin cfg0.N) : bWhhl m c t = aWhhl m c := by
  funext y
  refine Eq.trans ?_ (congrFun (V_v5 m c) y)
  show V m c main_v5 (((cfg0.win 9).blk t).view.emb y) = V m c main_v5 y
  have hw := idx_whole t
  congr 1
  funext a; apply Fin.ext
  match a with
  | ⟨0, _⟩ => show win0_9.index t (0 : Fin 2) * 2048 + 1 * (y 0).val = (y 0).val; omega
  | ⟨1, _⟩ => show win0_9.index t (1 : Fin 2) * 512 + 1 * (y 1).val = (y 1).val; omega

theorem bBihl_eq (t : Fin cfg0.N) : bBihl m c t = aBihl m c := by
  funext y
  refine Eq.trans ?_ (congrFun (V_main_arg10 m c) y)
  show V m c main_arg10 (((cfg0.win 10).blk t).view.emb y) = V m c main_arg10 y
  have hw := idx_whole t
  congr 1
  funext a; apply Fin.ext
  match a with
  | ⟨0, _⟩ => show win0_10.index t (0 : Fin 1) * 2048 + 1 * (y 0).val = (y 0).val; omega

theorem bBhhl_eq (t : Fin cfg0.N) : bBhhl m c t = aBhhl m c := by
  funext y
  refine Eq.trans ?_ (congrFun (V_main_arg11 m c) y)
  show V m c main_arg11 (((cfg0.win 11).blk t).view.emb y) = V m c main_arg11 y
  have hw := idx_whole t
  congr 1
  funext a; apply Fin.ext
  match a with
  | ⟨0, _⟩ => show win0_11.index t (0 : Fin 1) * 2048 + 1 * (y 0).val = (y 0).val; omega

theorem bWc_eq (t : Fin cfg0.N) : bWc m c t = aWc m c := by
  funext y
  refine Eq.trans ?_ (congrFun (V_v6 m c) y)
  show V m c main_v6 (((cfg0.win 12).blk t).view.emb y) = V m c main_v6 y
  have hw := idx_whole t
  congr 1
  funext a; apply Fin.ext
  match a with
  | ⟨0, _⟩ => show win0_12.index t (0 : Fin 2) * 512 + 1 * (y 0).val = (y 0).val; omega
  | ⟨1, _⟩ => show win0_12.index t (1 : Fin 2) * 1024 + 1 * (y 1).val = (y 1).val; omega

theorem bBc_eq (t : Fin cfg0.N) : bBc m c t = aBc m c := by
  funext y
  refine Eq.trans ?_ (congrFun (V_main_arg13 m c) y)
  show V m c main_arg13 (((cfg0.win 13).blk t).view.emb y) = V m c main_arg13 y
  have hw := idx_whole t
  congr 1
  funext a; apply Fin.ext
  match a with
  | ⟨0, _⟩ => show win0_13.index t (0 : Fin 1) * 512 + 1 * (y 0).val = (y 0).val; omega

/-! ## What a point writes back -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

variable (p : Fin 1024 → Fin 258) (hp : ∀ b : Fin 1024, aPos m c (ix1 b) = BitVec.ofNat 32 (p b).val)

/-- The stack positions of a block's four rows. -/
def qAt (t : Fin cfg0.N) : Fin 4 → Fin 258 := fun r => p (brow t r)

include hp in
theorem hqAt (t : Fin cfg0.N) (r : Fin 4) : bP m c t (ix3 r 0 0) = BitVec.ofNat 32 (qAt p t r).val :=
  (bP_apply m c t r).trans (hp _)

/-- A block row's character row, stack tops and gate pre-activations are the batch row's. -/
theorem xr_eq (t : Fin cfg0.N) (r : Fin 4) : xr (bX m c t) r = xRow (aChar m c) (brow t r) :=
  funext fun k => bX_apply m c t r k
theorem tpH_eq (t : Fin cfg0.N) (r : Fin 4) : tp (qAt p t) (bH m c t) r = top p (aH m c) (brow t r) :=
  funext fun k => bH_apply m c t r _ k
theorem tpC_eq (t : Fin cfg0.N) (r : Fin 4) : tp (qAt p t) (bC m c t) r = top p (aC m c) (brow t r) :=
  funext fun k => bC_apply m c t r _ k

theorem gRow_eq (t : Fin cfg0.N) (r : Fin 4) :
    gRow (bH m c t) (bX m c t) (bWihr m c t) (bWhhr m c t) (bBihr m c t) (bBhhr m c t) (qAt p t) r
      = gR (aChar m c) (aH m c) p (aWihr m c) (aWhhr m c) (aBihr m c) (aBhhr m c) (brow t r) := by
  unfold gRow gR
  rw [xr_eq, tpH_eq, bWihr_eq, bWhhr_eq, bBihr_eq, bBhhr_eq]

theorem gRowL_eq (t : Fin cfg0.N) (r : Fin 4) :
    gRowL (bX m c t) (bWihl m c t) (bWhhl m c t) (bBihl m c t) (bBhhl m c t) r
      = gL (aChar m c) (aWihl m c) (aWhhl m c) (aBihl m c) (aBhhl m c) (brow t r) := by
  unfold gRowL gL
  rw [xr_eq, bWihl_eq, bWhhl_eq, bBihl_eq, bBhhl_eq]

/-- The specification's arrays of this run's arguments. -/
abbrev GH : Vec Ideal S1024x258x512 .f32 :=
  newHArr (aChar m c) (aH m c) (aC m c) p (aWihr m c) (aWhhr m c) (aBihr m c) (aBhhr m c)
abbrev GC : Vec Ideal S1024x258x512 .f32 :=
  newCArr (aChar m c) (aH m c) (aC m c) p (aWihr m c) (aWhhr m c) (aBihr m c) (aBhhr m c)

theorem emb14 (t : Fin cfg0.N) (r : Fin 4) (s : Fin 258) (j : Fin 512) :
    ((cfg0.win 14).blk t).view.emb (ix3 r s j) = ix3 (brow t r) s j := by
  obtain ⟨-, -, -, -, ⟨e0, e1, e2⟩, -⟩ := idx_rows t
  funext a; apply Fin.ext
  match a with
  | ⟨0, _⟩ => show win0_14.index t (0 : Fin 3) * 4 + 1 * r.val = 4 * t.val + r.val; omega
  | ⟨1, _⟩ => show win0_14.index t (1 : Fin 3) * 258 + 1 * s.val = s.val; omega
  | ⟨2, _⟩ => show win0_14.index t (2 : Fin 3) * 512 + 1 * j.val = j.val; omega

include hp in
/-- Point `t` writes back block `t` of the hidden stack after the push. -/
theorem flushed14_eq (t : Fin cfg0.N) :
    (dats m 0 c).flushed 14 t = ((cfg0.win 14).blk t).view.read (Elt Ideal) (GH m c p) := by
  show (cfg0.win 14).cut (grid0.coords t) ((dats m 0 c).after 14 t) = _
  rw [after0_14]
  unfold out0_14
  rw [View.canon_unit_zero hz3]
  simp only [View.ld_unit_zero (S := S4x258x512) hz3, View.ld_unit_zero (S := S4x1x512) hz3,
    View.ld_unit_zero (S := S4x1x1) hz3, View.ld_unit_zero (S := S2048x512) hz2, View.ld_unit_zero (S := S2048) hz1]
  funext y
  obtain ⟨r, s, j, rfl⟩ : ∃ (r : Fin 4) (s : Fin 258) (j : Fin 512), y = ix3 r s j := ⟨y 0, y 1, y 2, eq_ix3 y⟩
  show k0_pay13 (k0_pay5 (bP m c t)) (bH m c t) (k0_pay6 (bP m c t) (bC m c t)) (bBhhr m c t)
        (k0_pay8 (bP m c t) (bH m c t) (bX m c t) (bWihr m c t) (bWhhr m c t) (bBihr m c t)) (ix3 r s j)
      = GH m c p (((cfg0.win 14).blk t).view.emb (ix3 r s j))
  refine (newH_block (bH m c t) (bC m c t) (bX m c t) (bP m c t) (bWihr m c t) (bWhhr m c t) (bBihr m c t) (bBhhr m c t)
    (qAt p t) (hqAt m c p hp t) r s j).trans ?_
  rw [emb14, gRow_eq, tpC_eq, bH_apply]
  rfl

theorem emb15 (t : Fin cfg0.N) (r : Fin 4) (s : Fin 258) (j : Fin 512) :
    ((cfg0.win 15).blk t).view.emb (ix3 r s j) = ix3 (brow t r) s j := by
  obtain ⟨-, -, -, -, -, ⟨e0, e1, e2⟩, -⟩ := idx_rows t
  funext a; apply Fin.ext
  match a with
  | ⟨0, _⟩ => show win0_15.index t (0 : Fin 3) * 4 + 1 * r.val = 4 * t.val + r.val; omega
  | ⟨1, _⟩ => show win0_15.index t (1 : Fin 3) * 258 + 1 * s.val = s.val; omega
  | ⟨2, _⟩ => show win0_15.index t (2 : Fin 3) * 512 + 1 * j.val = j.val; omega

include hp in
/-- Point `t` writes back block `t` of the cell stack after the push. -/
theorem flushed15_eq (t : Fin cfg0.N) :
    (dats m 0 c).flushed 15 t = ((cfg0.win 15).blk t).view.read (Elt Ideal) (GC m c p) := by
  show (cfg0.win 15).cut (grid0.coords t) ((dats m 0 c).after 15 t) = _
  rw [after0_15]
  unfold out0_15
  rw [View.canon_unit_zero hz3]
  simp only [View.ld_unit_zero (S := S4x258x512) hz3, View.ld_unit_zero (S := S4x1x512) hz3,
    View.ld_unit_zero (S := S4x1x1) hz3, View.ld_unit_zero (S := S2048x512) hz2, View.ld_unit_zero (S := S2048) hz1]
  funext y
  obtain ⟨r, s, j, rfl⟩ : ∃ (r : Fin 4) (s : Fin 258) (j : Fin 512), y = ix3 r s j := ⟨y 0, y 1, y 2, eq_ix3 y⟩
  show k0_pay1 (k0_pay5 (bP m c t)) (bC m c t) (k0_pay10 (k0_pay6 (bP m c t) (bC m c t)) (bBhhr m c t)
        (k0_pay8 (bP m c t) (bH m c t) (bX m c t) (bWihr m c t) (bWhhr m c t) (bBihr m c t))) (ix3 r s j)
      = GC m c p (((cfg0.win 15).blk t).view.emb (ix3 r s j))
  refine (newC_block (bH m c t) (bC m c t) (bX m c t) (bP m c t) (bWihr m c t) (bWhhr m c t) (bBihr m c t) (bBhhr m c t)
    (qAt p t) (hqAt m c p hp t) r s j).trans ?_
  rw [emb15, gRow_eq, tpC_eq, bC_apply]
  rfl

/-- The sub-word output as the [1024, 1, 512] array the region writes. -/
abbrev GS3 : Vec Ideal S1024x1x512 .f32 := fun i =>
  sub (aChar m c) (aH m c) (aC m c) p (aWihr m c) (aWhhr m c) (aBihr m c) (aBhhr m c) (aWihl m c) (aWhhl m c) (aBihl m c)
    (aBhhl m c) (aWc m c) (aBc m c) ⟨(i 0).val, (i 0).isLt⟩ ⟨(i 2).val, (i 2).isLt⟩

theorem emb16 (t : Fin cfg0.N) (r : Fin 4) (j : Fin 512) :
    ((cfg0.win 16).blk t).view.emb (ix3 r 0 j) = ix3 (brow t r) 0 j := by
  obtain ⟨-, -, -, -, -, -, ⟨e0, e1, e2⟩⟩ := idx_rows t
  funext a; apply Fin.ext
  match a with
  | ⟨0, _⟩ => show win0_16.index t (0 : Fin 3) * 4 + 1 * r.val = 4 * t.val + r.val; omega
  | ⟨1, _⟩ => show win0_16.index t (1 : Fin 3) * 1 + 1 * 0 = 0; omega
  | ⟨2, _⟩ => show win0_16.index t (2 : Fin 3) * 512 + 1 * j.val = j.val; omega

include hp in
/-- Point `t` writes back block `t` of the composed sub-word rows. -/
theorem flushed16_eq (t : Fin cfg0.N) :
    (dats m 0 c).flushed 16 t = ((cfg0.win 16).blk t).view.read (Elt Ideal) (GS3 m c p) := by
  show (cfg0.win 16).cut (grid0.coords t) ((dats m 0 c).after 16 t) = _
  rw [after0_16]
  unfold out0_16
  rw [View.canon_unit_zero hz3]
  simp only [View.ld_unit_zero (S := S4x258x512) hz3, View.ld_unit_zero (S := S4x1x512) hz3,
    View.ld_unit_zero (S := S4x1x1) hz3, View.ld_unit_zero (S := S2048x512) hz2, View.ld_unit_zero (S := S2048) hz1,
    View.ld_unit_zero (S := S512x1024) hz2, View.ld_unit_zero (S := S512) hz1]
  funext y
  obtain ⟨r, z, j, rfl⟩ : ∃ (r : Fin 4) (z : Fin 1) (j : Fin 512), y = ix3 r z j := ⟨y 0, y 1, y 2, eq_ix3 y⟩
  obtain rfl : z = 0 := Subsingleton.elim _ _
  show k0_pay2 (k0_pay11 (k0_pay6 (bP m c t) (bC m c t)) (bBhhr m c t)
          (k0_pay8 (bP m c t) (bH m c t) (bX m c t) (bWihr m c t) (bWhhr m c t) (bBihr m c t)))
        (k0_pay12 (k0_pay7 (bX m c t)) (bWihl m c t) (bWhhl m c t) (bBihl m c t) (bBhhl m c t)) (bWc m c t) (bBc m c t) (ix3 r 0 j)
      = GS3 m c p (((cfg0.win 16).blk t).view.emb (ix3 r 0 j))
  refine (compose_apply (bWc m c t) (bBc m c t) _ _ r j).trans ?_
  have e1 : (fun k : Fin 512 => k0_pay11 (F := Ideal) (k0_pay6 (bP m c t) (bC m c t)) (bBhhr m c t)
        (k0_pay8 (bP m c t) (bH m c t) (bX m c t) (bWihr m c t) (bWhhr m c t) (bBihr m c t)) (ix2 r k))
      = hR (aChar m c) (aH m c) (aC m c) p (aWihr m c) (aWhhr m c) (aBihr m c) (aBhhr m c) (brow t r) :=
    funext fun k => (hnew_apply (bH m c t) (bC m c t) (bX m c t) (bP m c t) (bWihr m c t) (bWhhr m c t) (bBihr m c t)
      (bBhhr m c t) (qAt p t) (hqAt m c p hp t) r k).trans (by rw [gRow_eq, tpC_eq]; rfl)
  have e2 : (fun k : Fin 512 => k0_pay12 (F := Ideal) (k0_pay7 (bX m c t)) (bWihl m c t) (bWhhl m c t) (bBihl m c t)
        (bBhhl m c t) (ix2 r k))
      = hL (aChar m c) (aWihl m c) (aWhhl m c) (aBihl m c) (aBhhl m c) (brow t r) :=
    funext fun k => (hleft_apply (bX m c t) (bWihl m c t) (bWhhl m c t) (bBihl m c t) (bBhhl m c t) r k).trans
      (by rw [gRowL_eq]; rfl)
  rw [e1, e2, bWc_eq, bBc_eq, emb16]
  rfl

/-! ## The blocks tile the arrays -/

theorem mem_blk14 (t : Fin cfg0.N) (i : S1024x258x512.Idx) :
    i ∈ ((cfg0.win 14).blk t).view.set ↔ ∀ a : Fin 3, win0_14.index t a * S4x258x512.size a ≤ (i a).val
      ∧ (i a).val < win0_14.index t a * S4x258x512.size a + S4x258x512.size a := by
  show i ∈ ((View.whole main_v7_0).slice (win0_14.rect t)).set ↔ _
  rw [View.set_slice_whole, Rect.mem_set_unit]
  exact Iff.rfl
theorem mem_blk15 (t : Fin cfg0.N) (i : S1024x258x512.Idx) :
    i ∈ ((cfg0.win 15).blk t).view.set ↔ ∀ a : Fin 3, win0_15.index t a * S4x258x512.size a ≤ (i a).val
      ∧ (i a).val < win0_15.index t a * S4x258x512.size a + S4x258x512.size a := by
  show i ∈ ((View.whole main_v7_1).slice (win0_15.rect t)).set ↔ _
  rw [View.set_slice_whole, Rect.mem_set_unit]
  exact Iff.rfl
theorem mem_blk16 (t : Fin cfg0.N) (i : S1024x1x512.Idx) :
    i ∈ ((cfg0.win 16).blk t).view.set ↔ ∀ a : Fin 3, win0_16.index t a * S4x1x512.size a ≤ (i a).val
      ∧ (i a).val < win0_16.index t a * S4x1x512.size a + S4x1x512.size a := by
  show i ∈ ((View.whole main_v7_2).slice (win0_16.rect t)).set ↔ _
  rw [View.set_slice_whole, Rect.mem_set_unit]
  exact Iff.rfl

theorem cover14 (i : S1024x258x512.Idx) :
    ∃ t : Fin cfg0.N, (cfg0.win 14).flush t = true ∧ i ∈ ((cfg0.win 14).blk t).view.set := by
  have hi0 : (i 0).val < 1024 := (i 0).isLt
  have hi1 : (i 1).val < 258 := (i 1).isLt
  have hi2 : (i 2).val < 512 := (i 2).isLt
  have hN : cfg0.N = 256 := N_0
  refine ⟨⟨(i 0).val / 4, by omega⟩, flush0_14 _, ?_⟩
  rw [mem_blk14]
  obtain ⟨-, -, -, -, ⟨e0, e1, e2⟩, -⟩ := idx_rows ⟨(i 0).val / 4, by omega⟩
  intro a
  match a with
  | ⟨0, _⟩ => show win0_14.index _ (0 : Fin 3) * 4 ≤ (i 0).val ∧ (i 0).val < win0_14.index _ (0 : Fin 3) * 4 + 4; rw [e0]; show (i 0).val / 4 * 4 ≤ (i 0).val ∧ (i 0).val < (i 0).val / 4 * 4 + 4; omega
  | ⟨1, _⟩ => show win0_14.index _ (1 : Fin 3) * 258 ≤ (i 1).val ∧ (i 1).val < win0_14.index _ (1 : Fin 3) * 258 + 258; rw [e1]; omega
  | ⟨2, _⟩ => show win0_14.index _ (2 : Fin 3) * 512 ≤ (i 2).val ∧ (i 2).val < win0_14.index _ (2 : Fin 3) * 512 + 512; rw [e2]; omega

theorem cover15 (i : S1024x258x512.Idx) :
    ∃ t : Fin cfg0.N, (cfg0.win 15).flush t = true ∧ i ∈ ((cfg0.win 15).blk t).view.set := by
  have hi0 : (i 0).val < 1024 := (i 0).isLt
  have hi1 : (i 1).val < 258 := (i 1).isLt
  have hi2 : (i 2).val < 512 := (i 2).isLt
  have hN : cfg0.N = 256 := N_0
  refine ⟨⟨(i 0).val / 4, by omega⟩, flush0_15 _, ?_⟩
  rw [mem_blk15]
  obtain ⟨-, -, -, -, -, ⟨e0, e1, e2⟩, -⟩ := idx_rows ⟨(i 0).val / 4, by omega⟩
  intro a
  match a with
  | ⟨0, _⟩ => show win0_15.index _ (0 : Fin 3) * 4 ≤ (i 0).val ∧ (i 0).val < win0_15.index _ (0 : Fin 3) * 4 + 4; rw [e0]; show (i 0).val / 4 * 4 ≤ (i 0).val ∧ (i 0).val < (i 0).val / 4 * 4 + 4; omega
  | ⟨1, _⟩ => show win0_15.index _ (1 : Fin 3) * 258 ≤ (i 1).val ∧ (i 1).val < win0_15.index _ (1 : Fin 3) * 258 + 258; rw [e1]; omega
  | ⟨2, _⟩ => show win0_15.index _ (2 : Fin 3) * 512 ≤ (i 2).val ∧ (i 2).val < win0_15.index _ (2 : Fin 3) * 512 + 512; rw [e2]; omega

theorem cover16 (i : S1024x1x512.Idx) :
    ∃ t : Fin cfg0.N, (cfg0.win 16).flush t = true ∧ i ∈ ((cfg0.win 16).blk t).view.set := by
  have hi0 : (i 0).val < 1024 := (i 0).isLt
  have hi1 : (i 1).val < 1 := (i 1).isLt
  have hi2 : (i 2).val < 512 := (i 2).isLt
  have hN : cfg0.N = 256 := N_0
  refine ⟨⟨(i 0).val / 4, by omega⟩, flush0_16 _, ?_⟩
  rw [mem_blk16]
  obtain ⟨-, -, -, -, -, -, ⟨e0, e1, e2⟩⟩ := idx_rows ⟨(i 0).val / 4, by omega⟩
  intro a
  match a with
  | ⟨0, _⟩ => show win0_16.index _ (0 : Fin 3) * 4 ≤ (i 0).val ∧ (i 0).val < win0_16.index _ (0 : Fin 3) * 4 + 4; rw [e0]; show (i 0).val / 4 * 4 ≤ (i 0).val ∧ (i 0).val < (i 0).val / 4 * 4 + 4; omega
  | ⟨1, _⟩ => show win0_16.index _ (1 : Fin 3) * 1 ≤ (i 1).val ∧ (i 1).val < win0_16.index _ (1 : Fin 3) * 1 + 1; rw [e1]; omega
  | ⟨2, _⟩ => show win0_16.index _ (2 : Fin 3) * 512 ≤ (i 2).val ∧ (i 2).val < win0_16.index _ (2 : Fin 3) * 512 + 512; rw [e2]; omega

/-! ## The arrays after the region -/

include hp in
theorem final14 : (dats m 0 c).arrAt 14 cfg0.N = GH m c p :=
  (dats m 0 c).arrAt_eq_of_cover 14 (GH m c p) (fun t _ => flushed14_eq m c p hp t) cover14
include hp in
theorem final15 : (dats m 0 c).arrAt 15 cfg0.N = GC m c p :=
  (dats m 0 c).arrAt_eq_of_cover 15 (GC m c p) (fun t _ => flushed15_eq m c p hp t) cover15
include hp in
theorem final16 : (dats m 0 c).arrAt 16 cfg0.N = GS3 m c p :=
  (dats m 0 c).arrAt_eq_of_cover 16 (GS3 m c p) (fun t _ => flushed16_eq m c p hp t) cover16

/-- The reshape after the region. -/
theorem tail_v8 : Pipeline.afterTail₀ cfgs (dats m) 0 (V0 m) [hostOps1] c main_v8
    = shapeCast S1024x512 ((dats m 0 c).arrAt 16 cfg0.N) shapeCasts_S1024x1x512_S1024x512 := by
  unfold Pipeline.afterTail₀
  show StableHlo.after hostOps1 _ (Proc.devRef .tc main_v8) = _
  after_results
  exact congrArg (fun x => shapeCast S1024x512 x shapeCasts_S1024x1x512_S1024x512)
    (Pipeline.withArrays_arr (Val := Elt Ideal) spec0 launch0.win.arr_inj c (V0 m c)
      (fun w => (dats m 0 c).arrAt w cfg0.N) 16)

/-- The sub-word result: the [1024, 1, 512] array with its unit axis dropped. -/
abbrev GS : Vec Ideal S1024x512 .f32 :=
  subArr (aChar m c) (aH m c) (aC m c) p (aWihr m c) (aWhhr m c) (aBihr m c) (aBhhr m c) (aWihl m c) (aWhhl m c) (aBihl m c)
    (aBhhl m c) (aWc m c) (aBc m c)

theorem dropUnit_GS3 : shapeCast S1024x512 (GS3 m c p) shapeCasts_S1024x1x512_S1024x512 = GS m c p := by
  funext i
  obtain ⟨b, j, rfl⟩ : ∃ (b : Fin 1024) (j : Fin 512), i = ix2 b j := ⟨i 0, i 1, eq_ix2 i⟩
  refine (shapeCast_apply (GS3 m c p) shapeCasts_S1024x1x512_S1024x512 (ix2 b j) (ix3 b 0 j) ?_).trans rfl
  rw [Shape.rowMajor_val_two, Shape.rowMajor_val_three]
  show (b.val * 1 + 0) * 512 + j.val = b.val * 512 + j.val
  omega

/-! ## The run -/

/-- Every weakly fair execution of the kernel's program ends with the three results at the specification's arrays of
    the arguments and the arguments unchanged, when every position is the word of a stack row. -/
theorem kernel_run (ρ : Dev nD → PrngReg) (pp : Dev nD → Fin 1024 → Fin 258)
    (hpp : ∀ (c : Dev nD) (b : Fin 1024), aPos m c (ix1 b) = BitVec.ofNat 32 (pp c b).val) :
    θ_run defs (onTc (τ := τ) (main (F := Ideal))) ⟨m, fun _ => 0, ρ⟩ (fun r => ∀ c : Dev nD,
      r.2.mem ((c.tc : Thread nD τ).loc main_v8) = GS m c (pp c)
      ∧ r.2.mem ((c.tc : Thread nD τ).loc main_v7_0) = GH m c (pp c)
      ∧ r.2.mem ((c.tc : Thread nD τ).loc main_v7_1) = GC m c (pp c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨
      ((h c).2 main_v8 (Pipeline.mem_restRefs_of main_v8 (by decide) (by decide))).trans
        ((tail_v8 m c).trans ((congrArg (fun x => shapeCast S1024x512 x shapeCasts_S1024x1x512_S1024x512)
          (final16 m c (pp c) (hpp c))).trans (dropUnit_GS3 m c (pp c)))),
      ((h c).1 14).trans (final14 m c (pp c) (hpp c)),
      ((h c).1 15).trans (final15 m c (pp c) (hpp c)),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      (((h c).2 main_arg12 (Pipeline.mem_restRefs_of main_arg12 (by decide) (by decide))).trans (W_main_arg12 m (dats m) c)),
      ((h c).1 13).trans (((dats m 0 c).arrAt_in 13 rfl _).trans ((A_eq m c 13).trans (V_main_arg13 m c)))⟩)
    (run_main m ρ)

end Cert.KernelIdeal.Blocks

end
-- ==== Proof.RefIdx.lean ====
/-
  The reference's index tables and its two gathers, read at an index.

  jnp's `stack[arange(B), pos]` lowers to a gather whose start indices are the pairs `(b, pos b)`, each coordinate
  first wrapped (a negative index has the axis length added) and the pair then clamped into the array. For a position
  that is the word of a stack row `p b < 258` neither the wrap nor the clamp does anything: the batch coordinate is
  `b`, the stack coordinate is `p b`, and the gather reads `stack[b, p b, j]`. The scatter's tables are the same with
  `pos + 1`, which is the word of `p b + 1 ≤ 258`, still non-negative, so again not wrapped.
-/
import proofs.«418086_j48455821033604_2_alg».proof.Proof.Gen.ReferenceIdeal.Read
import proofs.«418086_j48455821033604_2_alg».proof.Proof.Spec
import Idealize.ShloMosaic.Lib.StableHlo.Predicate
import Idealize.ShloMosaic.Lib.ValueIdx
import Idealize.ShloMosaic.Lib.Pipeline.Value
import Idealize.ShloMosaic.PureOps.Ideal.Laws

noncomputable section

open scoped BigOperators

namespace Cert.ReferenceIdeal.Hand

open Cert.ReferenceIdeal Cert.ReferenceIdeal.Gen Cert.ReferenceIdeal.Read Idealize.ShloMosaic Idealize.ShloMosaic.ValueIdx Cert.StackLstm

/-- A word below 2³¹ is not below zero as a signed word. -/
private theorem slt_zero_of_small (n : Nat) (hn : n < 2 ^ 31) : IntOp.cmpi .slt (BitVec.ofNat 32 n) 0#32 = 0#1 := by
  apply eq_zero_of_ne_one
  intro h
  have := (StableHlo.Predicate.slt_ofNat_iff n 0 hn (by decide)).mp h
  omega

/-- The wrap of a non-negative word does nothing. -/
private theorem wrap_small {n : Nat} (hn : n < 2 ^ 31) (A : BitVec 32) :
    Scalar.select (IntOp.cmpi .slt (BitVec.ofNat 32 n) 0#32) A (BitVec.ofNat 32 n) = BitVec.ofNat 32 n := by
  rw [slt_zero_of_small n hn, select_zero]

/-- The successor of a word. -/
private theorem addi_one_ofNat (n : Nat) : IntOp.addi (BitVec.ofNat 32 n) 1#32 = BitVec.ofNat 32 (n + 1) := by
  show BitVec.ofNat 32 n + 1#32 = _
  rw [BitVec.ofNat_add]

section Columns
variable {α : Type}

/-- The two-column table at column 0 is the first column. -/
private theorem cat_at0 (x₁ x₂ : S1024x1.Idx → α) (b : Fin 1024) :
    concatenate S1024x2 1 [⟨S1024x1, x₁⟩, ⟨S1024x1, x₂⟩] concatenates_S1024x1_S1024x1_S1024x2_d1 (ix2 b (0 : Fin 2))
      = x₁ (ix2 b (0 : Fin 1)) :=
  concatenate_pair_apply_left 1 x₁ x₂ concatenates_S1024x1_S1024x1_S1024x2_d1 _ rfl _ (fun a => by
    match a with
    | ⟨0, _⟩ => rfl
    | ⟨1, _⟩ => rfl)

/-- The two-column table at column 1 is the second column. -/
private theorem cat_at1 (x₁ x₂ : S1024x1.Idx → α) (b : Fin 1024) :
    concatenate S1024x2 1 [⟨S1024x1, x₁⟩, ⟨S1024x1, x₂⟩] concatenates_S1024x1_S1024x1_S1024x2_d1 (ix2 b (1 : Fin 2))
      = x₂ (ix2 b (0 : Fin 1)) :=
  concatenate_pair_apply_right 1 x₁ x₂ concatenates_S1024x1_S1024x1_S1024x2_d1 _ rfl rfl _
    (fun a ha => by
      match a with
      | ⟨0, _⟩ => rfl
      | ⟨1, _⟩ => exact absurd rfl ha)
    rfl

end Columns

/-- The operand index the gather reads at result `(b, j)`, for any table whose row `b` holds the words of `b` and of a
    stack row `q`: neither start is moved by the clamp, the stack's two leading axes are collapsed, and the offset runs
    along the lanes. -/
private theorem gather_operandIdx (idx : IVec S1024x2 32) (b : Fin 1024) (q : Fin 258) (j : Fin 512)
    (h0 : idx (ix2 b (0 : Fin 2)) = BitVec.ofNat 32 b.val) (h1 : idx (ix2 b (1 : Fin 2)) = BitVec.ofNat 32 q.val) :
    gather_S1024x258x512_S1024x2_S1024x512_1_01_n_n_01_1_11512.operandIdx (ix2 b j) idx = ix3 b q j := by
  have hsi0 : gather_S1024x258x512_S1024x2_S1024x512_1_01_n_n_01_1_11512.siIdx (ix2 b j)
      ⟨List.idxOf (0 : Fin 3) gather_S1024x258x512_S1024x2_S1024x512_1_01_n_n_01_1_11512.startIndexMap, by decide⟩
        = ix2 b (0 : Fin 2) := by
    funext c; apply Fin.ext
    match c with
    | ⟨0, _⟩ => rfl
    | ⟨1, _⟩ => rfl
  have hsi1 : gather_S1024x258x512_S1024x2_S1024x512_1_01_n_n_01_1_11512.siIdx (ix2 b j)
      ⟨List.idxOf (1 : Fin 3) gather_S1024x258x512_S1024x2_S1024x512_1_01_n_n_01_1_11512.startIndexMap, by decide⟩
        = ix2 b (1 : Fin 2) := by
    funext c; apply Fin.ext
    match c with
    | ⟨0, _⟩ => rfl
    | ⟨1, _⟩ => rfl
  -- the batch axis: start `b`, collapsed
  have e0 : gather_S1024x258x512_S1024x2_S1024x512_1_01_n_n_01_1_11512.start (ix2 b j) idx (0 : Fin 3)
      + gather_S1024x258x512_S1024x2_S1024x512_1_01_n_n_01_1_11512.batchCoord (ix2 b j) (0 : Fin 3)
      + gather_S1024x258x512_S1024x2_S1024x512_1_01_n_n_01_1_11512.offCoord (ix2 b j) (0 : Fin 3) = b.val := by
    rw [GatherDims.batchCoord_eq_zero _ _ _ List.not_mem_nil, Nat.add_zero,
      GatherDims.offCoord_eq_zero _ _ _ (fun h => ((GatherDims.mem_sKept _ _).mp h).1 (by decide)), Nat.add_zero]
    unfold GatherDims.start
    rw [dif_pos (show (0 : Fin 3) ∈ gather_S1024x258x512_S1024x2_S1024x512_1_01_n_n_01_1_11512.startIndexMap by decide),
      hsi0, h0, StableHlo.Predicate.toInt_ofNat_small _ (by have := b.isLt; omega)]
    show min b.val (1024 - 1) = b.val
    have := b.isLt; omega
  -- the stack axis: start `q`, collapsed
  have e1 : gather_S1024x258x512_S1024x2_S1024x512_1_01_n_n_01_1_11512.start (ix2 b j) idx (1 : Fin 3)
      + gather_S1024x258x512_S1024x2_S1024x512_1_01_n_n_01_1_11512.batchCoord (ix2 b j) (1 : Fin 3)
      + gather_S1024x258x512_S1024x2_S1024x512_1_01_n_n_01_1_11512.offCoord (ix2 b j) (1 : Fin 3) = q.val := by
    rw [GatherDims.batchCoord_eq_zero _ _ _ List.not_mem_nil, Nat.add_zero,
      GatherDims.offCoord_eq_zero _ _ _ (fun h => ((GatherDims.mem_sKept _ _).mp h).1 (by decide)), Nat.add_zero]
    unfold GatherDims.start
    rw [dif_pos (show (1 : Fin 3) ∈ gather_S1024x258x512_S1024x2_S1024x512_1_01_n_n_01_1_11512.startIndexMap by decide),
      hsi1, h1, StableHlo.Predicate.toInt_ofNat_small _ (by have := q.isLt; omega)]
    show min q.val (258 - 1) = q.val
    have := q.isLt; omega
  -- the lane axis: no start, the offset is the result's lane
  have e2 : gather_S1024x258x512_S1024x2_S1024x512_1_01_n_n_01_1_11512.start (ix2 b j) idx (2 : Fin 3)
      + gather_S1024x258x512_S1024x2_S1024x512_1_01_n_n_01_1_11512.batchCoord (ix2 b j) (2 : Fin 3)
      + gather_S1024x258x512_S1024x2_S1024x512_1_01_n_n_01_1_11512.offCoord (ix2 b j) (2 : Fin 3) = j.val := by
    rw [GatherDims.batchCoord_eq_zero _ _ _ List.not_mem_nil, Nat.add_zero]
    unfold GatherDims.start
    rw [dif_neg (show (2 : Fin 3) ∉ gather_S1024x258x512_S1024x2_S1024x512_1_01_n_n_01_1_11512.startIndexMap by decide),
      Nat.zero_add]
    unfold GatherDims.offCoord
    rw [dif_pos (show (2 : Fin 3) ∈ gather_S1024x258x512_S1024x2_S1024x512_1_01_n_n_01_1_11512.sKept by decide)]
    rfl
  funext a
  apply Fin.ext
  match a with
  | ⟨0, _⟩ => exact e0
  | ⟨1, _⟩ => exact e1
  | ⟨2, _⟩ => exact e2

/-- The position word read through any index whose coordinate is `b`. -/
private theorem pos_at (x3 : (⟨S1024, .i32⟩ : BufTy).Contents (Elt Ideal)) (p : Fin 1024 → Fin 258)
    (hp : ∀ b : Fin 1024, x3 (ix1 b) = BitVec.ofNat 32 (p b).val) (i : S1024.Idx) (b : Fin 1024) (hi : i 0 = b) :
    x3 i = BitVec.ofNat 32 (p b).val := by
  rw [eq_ix1 i, hi]; exact hp b

variable (x3 : (⟨S1024, .i32⟩ : BufTy).Contents (Elt Ideal)) (p : Fin 1024 → Fin 258)
  (hp : ∀ b : Fin 1024, x3 (ix1 b) = BitVec.ofNat 32 (p b).val)
include hp

/-- The hidden gather's start indices. -/
theorem v13_at0 (b : Fin 1024) : val_main_v13 (F := Ideal) x3 (ix2 b (0 : Fin 2)) = BitVec.ofNat 32 b.val := by
  unfold val_main_v13
  rw [cat_at0, val_main_v11_apply, val_main_v5_apply, val_main_v2_apply, val_main_v0_apply, val_main_v1_apply,
    val_main_c_apply]
  exact wrap_small (n := b.val) (by have := b.isLt; omega) _
theorem v13_at1 (b : Fin 1024) : val_main_v13 (F := Ideal) x3 (ix2 b (1 : Fin 2)) = BitVec.ofNat 32 (p b).val := by
  unfold val_main_v13
  rw [cat_at1, val_main_v12_apply, val_main_v10_apply, val_main_v7_apply, val_main_v6_apply, val_main_c_1_apply,
    pos_at x3 p hp _ b rfl]
  exact wrap_small (by have := (p b).isLt; omega) _
/-- The cell gather's start indices. -/
theorem v27_at0 (b : Fin 1024) : val_main_v27 (F := Ideal) x3 (ix2 b (0 : Fin 2)) = BitVec.ofNat 32 b.val := by
  unfold val_main_v27
  rw [cat_at0, val_main_v25_apply, val_main_v19_apply, val_main_v16_apply, val_main_v0_apply, val_main_v15_apply,
    val_main_c_3_apply]
  exact wrap_small (n := b.val) (by have := b.isLt; omega) _
theorem v27_at1 (b : Fin 1024) : val_main_v27 (F := Ideal) x3 (ix2 b (1 : Fin 2)) = BitVec.ofNat 32 (p b).val := by
  unfold val_main_v27
  rw [cat_at1, val_main_v26_apply, val_main_v24_apply, val_main_v21_apply, val_main_v20_apply, val_main_c_5_apply,
    pos_at x3 p hp _ b rfl]
  exact wrap_small (by have := (p b).isLt; omega) _
/-- The hidden push's scatter indices. -/
theorem v82_at0 (b : Fin 1024) : val_main_v82 (F := Ideal) x3 (ix2 b (0 : Fin 2)) = BitVec.ofNat 32 b.val := by
  unfold val_main_v82
  rw [cat_at0, val_main_v80_apply, val_main_v74_apply, val_main_v71_apply, val_main_v0_apply, val_main_v70_apply,
    val_main_c_13_apply]
  exact wrap_small (n := b.val) (by have := b.isLt; omega) _
theorem v82_at1 (b : Fin 1024) : val_main_v82 (F := Ideal) x3 (ix2 b (1 : Fin 2)) = BitVec.ofNat 32 ((p b).val + 1) := by
  unfold val_main_v82
  rw [cat_at1, val_main_v81_apply, val_main_v79_apply, val_main_v76_apply, val_main_v75_apply, val_main_c_15_apply,
    val_main_v69_apply, val_main_v68_apply, val_main_c_12_apply, pos_at x3 p hp _ b rfl, addi_one_ofNat]
  exact wrap_small (by have := (p b).isLt; omega) _
/-- The cell push's scatter indices. -/
theorem v98_at0 (b : Fin 1024) : val_main_v98 (F := Ideal) x3 (ix2 b (0 : Fin 2)) = BitVec.ofNat 32 b.val := by
  unfold val_main_v98
  rw [cat_at0, val_main_v96_apply, val_main_v90_apply, val_main_v87_apply, val_main_v0_apply, val_main_v86_apply,
    val_main_c_18_apply]
  exact wrap_small (n := b.val) (by have := b.isLt; omega) _
theorem v98_at1 (b : Fin 1024) : val_main_v98 (F := Ideal) x3 (ix2 b (1 : Fin 2)) = BitVec.ofNat 32 ((p b).val + 1) := by
  unfold val_main_v98
  rw [cat_at1, val_main_v97_apply, val_main_v95_apply, val_main_v92_apply, val_main_v91_apply, val_main_c_20_apply,
    val_main_v85_apply, val_main_v84_apply, val_main_c_17_apply, pos_at x3 p hp _ b rfl, addi_one_ofNat]
  exact wrap_small (by have := (p b).isLt; omega) _

/-- The gathered hidden row is the stack's top. -/
theorem v14_apply (x1 : (⟨S1024x258x512, .f32⟩ : BufTy).Contents (Elt Ideal)) (b : Fin 1024) (j : Fin 512) :
    val_main_v14 (F := Ideal) x1 x3 (ix2 b j) = x1 (ix3 b (p b) j) := by
  unfold val_main_v14 Host.gather
  exact congrArg x1 (gather_operandIdx _ b (p b) j (v13_at0 x3 p hp b) (v13_at1 x3 p hp b))
/-- The gathered cell row is the stack's top. -/
theorem v28_apply (x2 : (⟨S1024x258x512, .f32⟩ : BufTy).Contents (Elt Ideal)) (b : Fin 1024) (j : Fin 512) :
    val_main_v28 (F := Ideal) x2 x3 (ix2 b j) = x2 (ix3 b (p b) j) := by
  unfold val_main_v28 Host.gather
  exact congrArg x2 (gather_operandIdx _ b (p b) j (v27_at0 x3 p hp b) (v27_at1 x3 p hp b))

end Cert.ReferenceIdeal.Hand

end
-- ==== Proof.RefCell.lean ====
/-
  The reference's right LSTM cell, read at an index.

  Given that the two gathers read the stack's top, the gate pre-activations at `(b, n)` are
  `((∑ₖ char[b,k]·W_ih[n,k] + ∑ₖ h[k]·W_hh[n,k]) + b_ih[n]) + b_hh[n]`: each `dot_general` against a transposed weight
  is the sum over the one contracted lane, and the biases are broadcast along the batch axis. jax expands the logistic
  function into negate, exponential, add one and divide, which is the logistic function of the extended reals by
  definition; the four gate slices are lanes `j`, `512 + j`, `1024 + j`, `1536 + j`.
-/
import proofs.«418086_j48455821033604_2_alg».proof.Proof.Gen.ReferenceIdeal.Read
import proofs.«418086_j48455821033604_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.Hand

open Cert.ReferenceIdeal Cert.ReferenceIdeal.Gen Cert.ReferenceIdeal.Read Idealize.ShloMosaic Idealize.ShloMosaic.ValueIdx Cert.StackLstm

/-- The single-precision pattern `0x3F800000` denotes the real number one. -/
private theorem ofBits_one_f32 : Ideal.ofBits .f32 0x3F800000#32 = 1 := by
  simp [Ideal.ofBits, Ideal.ieee, -EReal.coe_mul]; norm_num

/-- One divided by one plus the exponential of the negation is the logistic function. -/
private theorem expanded_logistic (v : EReal) :
    Ideal.div (Ideal.ofBits .f32 0x3F800000#32) (Ideal.ofBits .f32 0x3F800000#32 + Ideal.exp (-v)) = Ideal.logistic v := by
  rw [ofBits_one_f32]; rfl

variable (x0 : (⟨S1024x512, .f32⟩ : BufTy).Contents (Elt Ideal)) (x1 x2 : (⟨S1024x258x512, .f32⟩ : BufTy).Contents (Elt Ideal)) (x3 : (⟨S1024, .i32⟩ : BufTy).Contents (Elt Ideal))
  (x4 x5 : (⟨S2048x512, .f32⟩ : BufTy).Contents (Elt Ideal)) (x6 x7 : (⟨S2048, .f32⟩ : BufTy).Contents (Elt Ideal))
  (p : Fin 1024 → Fin 258)
  (h14 : ∀ (b : Fin 1024) (j : Fin 512), val_main_v14 (F := Ideal) x1 x3 (ix2 b j) = x1 (ix3 b (p b) j))
  (h28 : ∀ (b : Fin 1024) (j : Fin 512), val_main_v28 (F := Ideal) x2 x3 (ix2 b j) = x2 (ix3 b (p b) j))
include h14

/-- The gate pre-activations. -/
theorem v39_apply (b : Fin 1024) (n : Fin 2048) :
    val_main_v39 (F := Ideal) x0 x1 x3 x4 x5 x6 x7 (ix2 b n) = gR x0 x1 p x4 x5 x6 x7 b n := by
  rw [val_main_v39_apply, val_main_v36_apply, val_main_v33_apply, val_main_v30_apply, val_main_v32_apply,
    val_main_v35_apply, val_main_v34_apply, val_main_v38_apply, val_main_v37_apply]
  simp only [Ideal.addf_def]
  unfold gR gates xRow top
  -- the left operand of either product is read at row `b`, lane `k`
  have el : ∀ k : Fin 512, lidx_main_v30 (ix2 b n) k = ix2 b k := fun k => funext fun a => Fin.ext (by
    match a with
    | ⟨0, _⟩ => rfl
    | ⟨1, _⟩ => rfl)
  have el' : ∀ k : Fin 512, lidx_main_v32 (ix2 b n) k = ix2 b k := fun k => funext fun a => Fin.ext (by
    match a with
    | ⟨0, _⟩ => rfl
    | ⟨1, _⟩ => rfl)
  -- the transposed weight, read at `(k, n)`, is the weight at `(n, k)`
  have er : ∀ k : Fin 512, idx_main_v29 (ridx_main_v30 (ix2 b n) k) = ix2 n k := fun k => funext fun a => Fin.ext (by
    match a with
    | ⟨0, _⟩ => rfl
    | ⟨1, _⟩ => rfl)
  have er' : ∀ k : Fin 512, idx_main_v31 (ridx_main_v32 (ix2 b n) k) = ix2 n k := fun k => funext fun a => Fin.ext (by
    match a with
    | ⟨0, _⟩ => rfl
    | ⟨1, _⟩ => rfl)
  -- a bias broadcast along the batch axis is read at lane `n`
  have e6 : idx_main_v34 (idx_main_v35 (ix2 b n)) = ix1 n := funext fun a => Fin.ext (by
    match a with
    | ⟨0, _⟩ => rfl)
  have e7 : idx_main_v37 (idx_main_v38 (ix2 b n)) = ix1 n := funext fun a => Fin.ext (by
    match a with
    | ⟨0, _⟩ => rfl)
  rw [e6, e7]
  congr 3
  · refine Finset.sum_congr rfl fun k _ => ?_
    rw [val_main_v29_apply, el, er]
  · refine Finset.sum_congr rfl fun k _ => ?_
    rw [val_main_v31_apply, el', er', h14]

/-- The forget gate: the logistic function of lane `512 + j`. -/
theorem v49_apply (b : Fin 1024) (j : Fin 512) :
    val_main_v49 (F := Ideal) x0 x1 x3 x4 x5 x6 x7 (ix2 b j) = Ideal.logistic (gR x0 x1 p x4 x5 x6 x7 b (gF j)) := by
  rw [val_main_v49_apply, val_main_v48_apply, val_main_cst_7_apply, val_main_v47_apply, val_main_v46_apply,
    val_main_cst_apply, val_main_v45_apply, val_main_v44_apply, val_main_v41_apply]
  have e : idx_main_v41 (ix2 b j) = ix2 b (gF j) := funext fun a => Fin.ext (by
    match a with
    | ⟨0, _⟩ => rfl
    | ⟨1, _⟩ => rfl)
  rw [e, v39_apply x0 x1 x3 x4 x5 x6 x7 p h14]
  simp only [Ideal.hostDivf_def, Ideal.ofBits_def, Ideal.addf_def, Ideal.hostUnary_exp_def, Ideal.hostNegf_def, Ideal.negf_def]
  exact expanded_logistic _

/-- The input gate: the logistic function of lane `j`. -/
theorem v56_apply (b : Fin 1024) (j : Fin 512) :
    val_main_v56 (F := Ideal) x0 x1 x3 x4 x5 x6 x7 (ix2 b j) = Ideal.logistic (gR x0 x1 p x4 x5 x6 x7 b (gI j)) := by
  rw [val_main_v56_apply, val_main_v55_apply, val_main_cst_9_apply, val_main_v54_apply, val_main_v53_apply,
    val_main_cst_8_apply, val_main_v52_apply, val_main_v51_apply, val_main_v40_apply]
  have e : idx_main_v40 (ix2 b j) = ix2 b (gI j) := funext fun a => Fin.ext (by
    match a with
    | ⟨0, _⟩ => rfl
    | ⟨1, _⟩ => rfl)
  rw [e, v39_apply x0 x1 x3 x4 x5 x6 x7 p h14]
  simp only [Ideal.hostDivf_def, Ideal.ofBits_def, Ideal.addf_def, Ideal.hostUnary_exp_def, Ideal.hostNegf_def, Ideal.negf_def]
  exact expanded_logistic _

/-- The candidate: the hyperbolic tangent of lane `1024 + j`. -/
theorem v57_apply (b : Fin 1024) (j : Fin 512) :
    val_main_v57 (F := Ideal) x0 x1 x3 x4 x5 x6 x7 (ix2 b j) = Ideal.tanh (gR x0 x1 p x4 x5 x6 x7 b (gG j)) := by
  rw [val_main_v57_apply, val_main_v42_apply]
  have e : idx_main_v42 (ix2 b j) = ix2 b (gG j) := funext fun a => Fin.ext (by
    match a with
    | ⟨0, _⟩ => rfl
    | ⟨1, _⟩ => rfl)
  rw [e, v39_apply x0 x1 x3 x4 x5 x6 x7 p h14]
  rfl

/-- The output gate: the logistic function of lane `1536 + j`. -/
theorem v65_apply (b : Fin 1024) (j : Fin 512) :
    val_main_v65 (F := Ideal) x0 x1 x3 x4 x5 x6 x7 (ix2 b j) = Ideal.logistic (gR x0 x1 p x4 x5 x6 x7 b (gO j)) := by
  rw [val_main_v65_apply, val_main_v64_apply, val_main_cst_11_apply, val_main_v63_apply, val_main_v62_apply,
    val_main_cst_10_apply, val_main_v61_apply, val_main_v60_apply, val_main_v43_apply]
  have e : idx_main_v43 (ix2 b j) = ix2 b (gO j) := funext fun a => Fin.ext (by
    match a with
    | ⟨0, _⟩ => rfl
    | ⟨1, _⟩ => rfl)
  rw [e, v39_apply x0 x1 x3 x4 x5 x6 x7 p h14]
  simp only [Ideal.hostDivf_def, Ideal.ofBits_def, Ideal.addf_def, Ideal.hostUnary_exp_def, Ideal.hostNegf_def, Ideal.negf_def]
  exact expanded_logistic _

include h28

/-- The new cell row. -/
theorem v59_apply (b : Fin 1024) (j : Fin 512) :
    val_main_v59 (F := Ideal) x0 x1 x2 x3 x4 x5 x6 x7 (ix2 b j) = cR x0 x1 x2 p x4 x5 x6 x7 b j := by
  rw [val_main_v59_apply, val_main_v50_apply, val_main_v58_apply, v49_apply x0 x1 x3 x4 x5 x6 x7 p h14,
    v56_apply x0 x1 x3 x4 x5 x6 x7 p h14, v57_apply x0 x1 x3 x4 x5 x6 x7 p h14, h28]
  rfl

/-- The new hidden row. -/
theorem v67_apply (b : Fin 1024) (j : Fin 512) :
    val_main_v67 (F := Ideal) x0 x1 x2 x3 x4 x5 x6 x7 (ix2 b j) = hR x0 x1 x2 p x4 x5 x6 x7 b j := by
  rw [val_main_v67_apply, val_main_v66_apply, v65_apply x0 x1 x3 x4 x5 x6 x7 p h14,
    v59_apply x0 x1 x2 x3 x4 x5 x6 x7 p h14 h28]
  rfl

end Cert.ReferenceIdeal.Hand

end
-- ==== Proof.RefLeft.lean ====
/-
  The reference's left LSTM cell and its compose layer, read at an index.

  The left cell is the same cell from the zero state: its hidden-state contraction sums `0·W_hh[n,k]` and its cell
  update multiplies the forget gate by zero; both are kept as written, since the specification's left cell is the cell
  function at the zero row. The compose layer contracts the concatenation `[h_r, h_l]` of 1024 lanes against the
  transposed weight; a sum over 1024 lanes is the sum over its two halves, the first half reading `h_r` and the second
  `h_l`.
-/
import proofs.«418086_j48455821033604_2_alg».proof.Proof.Gen.ReferenceIdeal.Read
import proofs.«418086_j48455821033604_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.Hand

open Cert.ReferenceIdeal Cert.ReferenceIdeal.Gen Cert.ReferenceIdeal.Read Idealize.ShloMosaic Idealize.ShloMosaic.ValueIdx Cert.StackLstm

variable (x0 : (⟨S1024x512, .f32⟩ : BufTy).Contents (Elt Ideal)) (x1 x2 : (⟨S1024x258x512, .f32⟩ : BufTy).Contents (Elt Ideal)) (x3 : (⟨S1024, .i32⟩ : BufTy).Contents (Elt Ideal))
  (x4 x5 : (⟨S2048x512, .f32⟩ : BufTy).Contents (Elt Ideal)) (x6 x7 : (⟨S2048, .f32⟩ : BufTy).Contents (Elt Ideal))
  (x8 x9 : (⟨S2048x512, .f32⟩ : BufTy).Contents (Elt Ideal)) (x10 x11 : (⟨S2048, .f32⟩ : BufTy).Contents (Elt Ideal))
  (x12 : (⟨S512x1024, .f32⟩ : BufTy).Contents (Elt Ideal)) (x13 : (⟨S512, .f32⟩ : BufTy).Contents (Elt Ideal))

/-! ### Constants -/

/-- The word `0x3F800000` is the single-precision encoding of one. -/
private theorem one_f32_left : Ideal.ofBits .f32 0x3F800000#32 = 1 := by
  simp [Ideal.ofBits, Ideal.ieee, -EReal.coe_mul]; norm_num

/-! ### The composed index maps of the left cell, as coordinates

Each map below is the composition of the index maps of a transpose, a contraction operand, a broadcast or a slice;
evaluated at `(b, n)` or `(b, j)` it is the index with the stated coordinates. -/

/-- The input contraction reads the character row `b` at lane `k`. -/
private theorem left_in_lhs (b : Fin 1024) (n : Fin 2048) (k : Fin 512) : lidx_main_v102 (ix2 b n) k = ix2 b k :=
  funext fun a => Fin.ext (by match a with | ⟨0, _⟩ => rfl | ⟨1, _⟩ => rfl)
/-- The transposed input weight read at `(k, n)` is the weight at `(n, k)`. -/
private theorem left_in_rhs (b : Fin 1024) (n : Fin 2048) (k : Fin 512) :
    idx_main_v101 (ridx_main_v102 (ix2 b n) k) = ix2 n k :=
  funext fun a => Fin.ext (by match a with | ⟨0, _⟩ => rfl | ⟨1, _⟩ => rfl)
/-- The transposed hidden weight read at `(k, n)` is the weight at `(n, k)`. -/
private theorem left_hid_rhs (b : Fin 1024) (n : Fin 2048) (k : Fin 512) :
    idx_main_v103 (ridx_main_v104 (ix2 b n) k) = ix2 n k :=
  funext fun a => Fin.ext (by match a with | ⟨0, _⟩ => rfl | ⟨1, _⟩ => rfl)
/-- The two biases, broadcast over the batch, are read at lane `n`. -/
private theorem left_bias_ih (b : Fin 1024) (n : Fin 2048) : idx_main_v106 (idx_main_v107 (ix2 b n)) = ix1 n :=
  funext fun a => Fin.ext (by match a with | ⟨0, _⟩ => rfl)
private theorem left_bias_hh (b : Fin 1024) (n : Fin 2048) : idx_main_v109 (idx_main_v110 (ix2 b n)) = ix1 n :=
  funext fun a => Fin.ext (by match a with | ⟨0, _⟩ => rfl)

/-- The four slices of the 2048 pre-activations read the lanes of the input, forget, candidate and output gates. -/
private theorem left_slice_i (b : Fin 1024) (j : Fin 512) : idx_main_v112 (ix2 b j) = ix2 b (gI j) :=
  funext fun a => Fin.ext (by match a with | ⟨0, _⟩ => rfl | ⟨1, _⟩ => rfl)
private theorem left_slice_f (b : Fin 1024) (j : Fin 512) : idx_main_v113 (ix2 b j) = ix2 b (gF j) :=
  funext fun a => Fin.ext (by match a with | ⟨0, _⟩ => rfl | ⟨1, _⟩ => rfl)
private theorem left_slice_g (b : Fin 1024) (j : Fin 512) : idx_main_v114 (ix2 b j) = ix2 b (gG j) :=
  funext fun a => Fin.ext (by match a with | ⟨0, _⟩ => rfl | ⟨1, _⟩ => rfl)
private theorem left_slice_o (b : Fin 1024) (j : Fin 512) : idx_main_v115 (ix2 b j) = ix2 b (gO j) :=
  funext fun a => Fin.ext (by match a with | ⟨0, _⟩ => rfl | ⟨1, _⟩ => rfl)

/-! ### The left cell -/

/-- The left cell's gate pre-activations at `(b, n)`: the hidden contraction is a sum of `0 · W_hh[n, k]`, kept as a
    sum, which is what the gate function gives at the zero row. -/
private theorem left_gates_apply (b : Fin 1024) (n : Fin 2048) :
    val_main_v111 (F := Ideal) x0 x8 x9 x10 x11 (ix2 b n) = gL x0 x8 x9 x10 x11 b n := by
  unfold gL gates xRow
  simp only [val_main_v111_apply, val_main_v108_apply, val_main_v105_apply, val_main_v102_apply, val_main_v104_apply,
    val_main_v107_apply, val_main_v106_apply, val_main_v110_apply, val_main_v109_apply, val_main_v101_apply,
    val_main_v103_apply, val_main_v100_apply, val_main_cst_22_apply, Ideal.addf_def, Ideal.ofBits_def,
    Ideal.ofBits_zero_f32]
  simp only [left_in_lhs, left_in_rhs, left_hid_rhs, left_bias_ih, left_bias_hh]

/-! ### The concatenation `[h_r, h_l]` read at a column

A two-piece concatenation of `[1024, 512]` arrays along the column axis reads its first piece at a column below 512 and
its second piece, 512 columns earlier, from column 512 on. -/

/-- Column `k < 512` of the concatenation is column `k` of the first piece. -/
private theorem concat_cols_lo {α : Type} (u v : S1024x512.Idx → α) (b : Fin 1024) (k : Fin 512) :
    concatenate S1024x1024 1 [⟨S1024x512, u⟩, ⟨S1024x512, v⟩] concatenates_S1024x512_S1024x512_S1024x1024_d1
      (ix2 b (lo k)) = u (ix2 b k) :=
  concatenate_pair_apply_left (1 : Fin S1024x1024.rank) u v concatenates_S1024x512_S1024x512_S1024x1024_d1
    (ix2 b (lo k)) rfl (ix2 b k) (fun a => by match a with | ⟨0, _⟩ => rfl | ⟨1, _⟩ => rfl)

/-- Column `512 + k` of the concatenation is column `k` of the second piece. -/
private theorem concat_cols_hi {α : Type} (u v : S1024x512.Idx → α) (b : Fin 1024) (k : Fin 512) :
    concatenate S1024x1024 1 [⟨S1024x512, u⟩, ⟨S1024x512, v⟩] concatenates_S1024x512_S1024x512_S1024x1024_d1
      (ix2 b (hi k)) = v (ix2 b k) :=
  concatenate_pair_apply_right (1 : Fin S1024x1024.rank) u v concatenates_S1024x512_S1024x512_S1024x1024_d1
    (ix2 b (hi k)) rfl rfl (ix2 b k)
    (fun a ha => by
      match a, ha with
      | ⟨0, _⟩, _ => rfl
      | ⟨1, _⟩, ha => exact absurd rfl ha)
    (by show k.val + 512 = 512 + k.val; omega)

/-! ### The compose layer -/

/-- The compose contraction reads the concatenation's row `b` at lane `k` … -/
private theorem compose_lhs (b : Fin 1024) (j : Fin 512) (k : Fin 1024) : lidx_main_v142 (ix2 b j) k = ix2 b k :=
  funext fun a => Fin.ext (by match a with | ⟨0, _⟩ => rfl | ⟨1, _⟩ => rfl)
/-- … against the transposed compose weight at `(k, j)`, which is the weight at `(j, k)`. -/
private theorem compose_rhs (b : Fin 1024) (j : Fin 512) (k : Fin 1024) :
    idx_main_v141 (ridx_main_v142 (ix2 b j) k) = ix2 j k :=
  funext fun a => Fin.ext (by match a with | ⟨0, _⟩ => rfl | ⟨1, _⟩ => rfl)
/-- The compose bias, broadcast over the batch, is read at lane `j`. -/
private theorem compose_bias (b : Fin 1024) (j : Fin 512) : idx_main_v143 (idx_main_v144 (ix2 b j)) = ix1 j :=
  funext fun a => Fin.ext (by match a with | ⟨0, _⟩ => rfl)

/-- The left cell's hidden row. -/
theorem v139_apply (b : Fin 1024) (j : Fin 512) :
    val_main_v139 (F := Ideal) x0 x8 x9 x10 x11 (ix2 b j) = hL x0 x8 x9 x10 x11 b j := by
  unfold hL cellH cellC
  -- read every stage at (b, j): each gate is 1 / (1 + exp (-v)) with both ones the constant one, and the old cell
  -- state is the constant zero, so the forget gate's product σ(f) · 0 stays as written
  simp only [val_main_v139_apply, val_main_v138_apply, val_main_v137_apply, val_main_v136_apply, val_main_v135_apply,
    val_main_v134_apply, val_main_v133_apply, val_main_v132_apply, val_main_v131_apply, val_main_v130_apply,
    val_main_v129_apply, val_main_v128_apply, val_main_v127_apply, val_main_v126_apply, val_main_v125_apply,
    val_main_v124_apply, val_main_v123_apply, val_main_v122_apply, val_main_v121_apply, val_main_v120_apply,
    val_main_v119_apply, val_main_v118_apply, val_main_v117_apply, val_main_v116_apply, val_main_v115_apply,
    val_main_v114_apply, val_main_v113_apply, val_main_v112_apply, val_main_v100_apply,
    val_main_cst_22_apply, val_main_cst_23_apply, val_main_cst_24_apply, val_main_cst_25_apply,
    val_main_cst_26_apply, val_main_cst_27_apply, val_main_cst_28_apply,
    Ideal.mulf_def, Ideal.addf_def, Ideal.hostDivf_def, Ideal.hostUnary_exp_def, Ideal.hostUnary_tanh_def,
    Ideal.hostNegf_def, Ideal.negf_def, Ideal.ofBits_def, Ideal.ofBits_zero_f32, one_f32_left]
  -- the four slices are the four gates' lanes of the pre-activations, which are the gate function at the zero row
  simp only [left_slice_i, left_slice_f, left_slice_g, left_slice_o, left_gates_apply]
  -- 1 / (1 + exp (-v)) is the logistic function by definition
  rfl

/-- The composed sub-word vector, given the right cell's hidden row. -/
theorem v146_apply (p : Fin 1024 → Fin 258)
    (h67 : ∀ (b : Fin 1024) (j : Fin 512),
      val_main_v67 (F := Ideal) x0 x1 x2 x3 x4 x5 x6 x7 (ix2 b j) = hR x0 x1 x2 p x4 x5 x6 x7 b j)
    (b : Fin 1024) (j : Fin 512) :
    val_main_v146 (F := Ideal) x0 x1 x2 x3 x4 x5 x6 x7 x8 x9 x10 x11 x12 x13 (ix2 b j)
      = sub x0 x1 x2 p x4 x5 x6 x7 x8 x9 x10 x11 x12 x13 b j := by
  unfold sub compose
  -- tanh of (the contraction of row b of [h_r, h_l] with row j of the weight, over 1024 lanes) plus the bias at j
  simp only [val_main_v146_apply, val_main_v145_apply, val_main_v142_apply, val_main_v144_apply, val_main_v143_apply,
    val_main_v141_apply, Ideal.addf_def, Ideal.hostUnary_tanh_def]
  simp only [compose_lhs, compose_rhs, compose_bias]
  -- the 1024 lanes are the 512 low lanes, where the concatenation is h_r, then the 512 high lanes, where it is h_l
  rw [sum_halves]
  unfold val_main_v140
  simp only [concat_cols_lo, concat_cols_hi, h67, v139_apply]

end Cert.ReferenceIdeal.Hand

end
-- ==== Proof.LibScatterSet.lean ====
/-
  A general fact about `stablehlo.scatter` whose body returns the update (jax's `x.at[idx].set(v)`).

  The scatter is a left fold over the update indices in row-major order; each step overwrites the element its update
  lands on, when it lands inside the operand. If, for a result index `i`, exactly one update index lands on `i`, the
  result at `i` is that update (nothing later overwrites it, and whatever earlier steps wrote there is overwritten);
  if none does, the result at `i` is the operand's element. No hypothesis on the other result indices is needed.
-/
import Idealize.ShloMosaic.PureOps.ShapeOps

noncomputable section

namespace Idealize.ShloMosaic.ScatterSet

open Idealize.ShloMosaic

variable {α : Type} {s si u : Shape} {w : Nat}

section Fold

variable {ι β : Type}

/-- A fold whose step either overwrites the one element `g n` names (with `v n`) or, when `g n` names none, changes
    nothing: if no member of the list names `i`, the value at `i` is the starting one. -/
theorem foldl_overwrite_of_none (g : β → Option ι) (v : β → α) (step : (ι → α) → β → (ι → α))
    (hhit : ∀ r n k, g n = some k → step r n k = v n)
    (hmiss : ∀ r n k, g n = some k → ∀ i', i' ≠ k → step r n i' = r i')
    (hnone : ∀ r n, g n = none → step r n = r) (i : ι) :
    ∀ (L : List β) (r : ι → α), (∀ n ∈ L, g n ≠ some i) → L.foldl step r i = r i := by
  intro L
  induction L with
  | nil => intro r _; rfl
  | cons n L ih =>
    intro r h
    rw [List.foldl_cons, ih (step r n) (fun m hm => h m (List.mem_cons_of_mem _ hm))]
    have hn : g n ≠ some i := h n List.mem_cons_self
    cases hg : g n with
    | none => rw [hnone r n hg]
    | some k =>
      have hik : i ≠ k := fun e => hn (by rw [hg, e])
      exact hmiss r n k hg i hik

/-- The same fold over a list without repeats: if `n₀` in the list names `i` and is the only member that does, the
    value at `i` is `v n₀` — the step at `n₀` overwrites whatever was there, and no later step touches `i`. -/
theorem foldl_overwrite_of_unique (g : β → Option ι) (v : β → α) (step : (ι → α) → β → (ι → α))
    (hhit : ∀ r n k, g n = some k → step r n k = v n)
    (hmiss : ∀ r n k, g n = some k → ∀ i', i' ≠ k → step r n i' = r i')
    (hnone : ∀ r n, g n = none → step r n = r) (i : ι) (n₀ : β) (h₀ : g n₀ = some i) :
    ∀ (L : List β) (r : ι → α), L.Nodup → n₀ ∈ L → (∀ n ∈ L, g n = some i → n = n₀) → L.foldl step r i = v n₀ := by
  intro L
  induction L with
  | nil => intro r _ hmem _; exact absurd hmem List.not_mem_nil
  | cons n L ih =>
    intro r hnd hmem huniq
    rw [List.foldl_cons]
    have hnL : n ∉ L := (List.nodup_cons.1 hnd).1
    have hndL : L.Nodup := (List.nodup_cons.1 hnd).2
    by_cases hn : n = n₀
    · -- the head is the one that names `i`; nothing in the tail does
      have htail : ∀ m ∈ L, g m ≠ some i := fun m hm hgm =>
        hnL (by rw [hn, ← huniq m (List.mem_cons_of_mem _ hm) hgm]; exact hm)
      rw [foldl_overwrite_of_none g v step hhit hmiss hnone i L (step r n) htail, hn]
      exact hhit r n₀ i h₀
    · -- the head is another one; the one that names `i` is in the tail
      have hmemL : n₀ ∈ L := by
        rcases List.mem_cons.1 hmem with e | e
        · exact absurd e.symm hn
        · exact e
      exact ih (step r n) hndL hmemL (fun m hm => huniq m (List.mem_cons_of_mem _ hm))

end Fold

/-- The three facts about `Host.scatter`'s step with the body that returns the update. -/
private theorem step_hit (d : ScatterDims s si u) (idx : IVec si w) (upd : u.Idx → α)
    (r : s.Idx → α) (n : Fin u.numel) (k : s.Idx) (h : d.resultIdx? (u.rowMajor.symm n) idx = some k) :
    (match d.resultIdx? (u.rowMajor.symm n) idx with
      | some i => fun i' => if i' = i then (fun (_ b : α) => b) (r i) (upd (u.rowMajor.symm n)) else r i'
      | none => r) k = upd (u.rowMajor.symm n) := by
  rw [h]; exact if_pos rfl

private theorem step_miss (d : ScatterDims s si u) (idx : IVec si w) (upd : u.Idx → α)
    (r : s.Idx → α) (n : Fin u.numel) (k : s.Idx) (h : d.resultIdx? (u.rowMajor.symm n) idx = some k)
    (i' : s.Idx) (hi : i' ≠ k) :
    (match d.resultIdx? (u.rowMajor.symm n) idx with
      | some i => fun i' => if i' = i then (fun (_ b : α) => b) (r i) (upd (u.rowMajor.symm n)) else r i'
      | none => r) i' = r i' := by
  rw [h]; exact if_neg hi

private theorem step_none (d : ScatterDims s si u) (idx : IVec si w) (upd : u.Idx → α)
    (r : s.Idx → α) (n : Fin u.numel) (h : d.resultIdx? (u.rowMajor.symm n) idx = none) :
    (match d.resultIdx? (u.rowMajor.symm n) idx with
      | some i => fun i' => if i' = i then (fun (_ b : α) => b) (r i) (upd (u.rowMajor.symm n)) else r i'
      | none => r) = r := by
  rw [h]

/-- No update lands on `i`: the operand's element survives. -/
theorem apply_of_none (d : ScatterDims s si u) (x : s.Idx → α) (idx : IVec si w) (upd : u.Idx → α) (i : s.Idx)
    (hnone : ∀ j : u.Idx, d.resultIdx? j idx ≠ some i) :
    Host.scatter d (fun _ b => b) x idx upd i = x i := by
  unfold Host.scatter
  exact foldl_overwrite_of_none (fun n : Fin u.numel => d.resultIdx? (u.rowMajor.symm n) idx)
    (fun n => upd (u.rowMajor.symm n)) _
    (fun r n k h => step_hit d idx upd r n k h) (fun r n k h i' hi => step_miss d idx upd r n k h i' hi)
    (fun r n h => step_none d idx upd r n h) i (List.finRange u.numel) x (fun n _ => hnone _)

/-- Exactly one update lands on `i`: the result there is that update. -/
theorem apply_of_unique (d : ScatterDims s si u) (x : s.Idx → α) (idx : IVec si w) (upd : u.Idx → α) (i : s.Idx)
    (j₀ : u.Idx) (h₀ : d.resultIdx? j₀ idx = some i) (huniq : ∀ j : u.Idx, d.resultIdx? j idx = some i → j = j₀) :
    Host.scatter d (fun _ b => b) x idx upd i = upd j₀ := by
  unfold Host.scatter
  have h₀' : d.resultIdx? (u.rowMajor.symm (u.rowMajor j₀)) idx = some i := by
    rw [Equiv.symm_apply_apply]; exact h₀
  refine (foldl_overwrite_of_unique (fun n : Fin u.numel => d.resultIdx? (u.rowMajor.symm n) idx)
    (fun n => upd (u.rowMajor.symm n)) _
    (fun r n k h => step_hit d idx upd r n k h) (fun r n k h i' hi => step_miss d idx upd r n k h i' hi)
    (fun r n h => step_none d idx upd r n h) i (u.rowMajor j₀) h₀' (List.finRange u.numel) x
    (List.nodup_finRange _) (List.mem_finRange _) ?_).trans ?_
  · -- an update index that lands on `i` is `j₀`, so its row-major position is `j₀`'s
    intro n _ hn
    have := huniq _ hn
    rw [← this, Equiv.apply_symm_apply]
  · exact congrArg upd (Equiv.symm_apply_apply _ _)

end Idealize.ShloMosaic.ScatterSet

end
-- ==== Proof.RefPush.lean ====
/-
  The reference's push onto a stack, read at an index.

  The scatter indices are the pairs `(b, p1 b)`, one per batch row `b`, and the update for `b` is a whole row of 512
  lanes written at `(b, p1 b, ·)`. Distinct batch rows land on distinct first coordinates, so each result element is
  hit by at most one update; a row whose target `p1 b` is 258 lies outside the 258 stack rows and is dropped.
  So the result at `(b, s, j)` is the update's `(b, j)` when `s = p1 b`, and the operand's element otherwise.
-/
import proofs.«418086_j48455821033604_2_alg».proof.ReferenceIdeal
import proofs.«418086_j48455821033604_2_alg».proof.Proof.LibScatterSet
import Idealize.ShloMosaic.Lib.ValueIdx
import Idealize.ShloMosaic.Lib.StableHlo.Predicate

noncomputable section

namespace Cert.ReferenceIdeal.Hand

open Cert.ReferenceIdeal Idealize.ShloMosaic Idealize.ShloMosaic.ValueIdx

variable [Cert.ReferenceIdeal.Facts₀]

local notation "dS" => scatter_S1024x258x512_S1024x2_S1024x512_1_01_01_1

/-- A property of the three operand axes holds on all of them once it holds on each. -/
private theorem forall_axis {P : Fin 3 → Prop} (h0 : P 0) (h1 : P 1) (h2 : P 2) : ∀ a, P a := by
  intro a
  match a with
  | ⟨0, _⟩ => exact h0
  | ⟨1, _⟩ => exact h1
  | ⟨2, _⟩ => exact h2

/-! The window coordinate of update `(b', j')`: its lane `j'` on the last axis, zero on the two inserted axes. -/
private theorem window_0 (b' : Fin 1024) (j' : Fin 512) : ScatterDims.window dS (ix2 b' j') 0 = 0 := rfl
private theorem window_1 (b' : Fin 1024) (j' : Fin 512) : ScatterDims.window dS (ix2 b' j') 1 = 0 := rfl
private theorem window_2 (b' : Fin 1024) (j' : Fin 512) : ScatterDims.window dS (ix2 b' j') 2 = j'.val := rfl

/-! The start-index components update `(b', j')` reads: row `b'` of the scatter indices, column 0 and column 1. -/
private theorem siIdx_0 (b' : Fin 1024) (j' : Fin 512) :
    ScatterDims.siIdx dS (ix2 b' j') ⟨0, Nat.zero_lt_two⟩ = ix2 b' (0 : Fin 2) := by
  funext a
  match a with
  | ⟨0, _⟩ => rfl
  | ⟨1, _⟩ => rfl
private theorem siIdx_1 (b' : Fin 1024) (j' : Fin 512) :
    ScatterDims.siIdx dS (ix2 b' j') ⟨1, Nat.one_lt_two⟩ = ix2 b' (1 : Fin 2) := by
  funext a
  match a with
  | ⟨0, _⟩ => rfl
  | ⟨1, _⟩ => rfl

/-! The window's start on each operand axis: the two index components on the scattered axes, zero on the lane axis. -/
private theorem start_0 (idx : IVec S1024x2 32) (b' : Fin 1024) (j' : Fin 512) :
    ScatterDims.start dS (ix2 b' j') idx 0 = (idx (ix2 b' (0 : Fin 2))).toInt := by
  have h : ScatterDims.start dS (ix2 b' j') idx 0
      = (idx (ScatterDims.siIdx dS (ix2 b' j') ⟨0, Nat.zero_lt_two⟩)).toInt := rfl
  rw [h, siIdx_0]
private theorem start_1 (idx : IVec S1024x2 32) (b' : Fin 1024) (j' : Fin 512) :
    ScatterDims.start dS (ix2 b' j') idx 1 = (idx (ix2 b' (1 : Fin 2))).toInt := by
  have h : ScatterDims.start dS (ix2 b' j') idx 1
      = (idx (ScatterDims.siIdx dS (ix2 b' j') ⟨1, Nat.one_lt_two⟩)).toInt := rfl
  rw [h, siIdx_1]
private theorem start_2 (idx : IVec S1024x2 32) (b' : Fin 1024) (j' : Fin 512) :
    ScatterDims.start dS (ix2 b' j') idx 2 = 0 := rfl

section Landing

variable (idx : IVec S1024x2 32) (p1 : Fin 1024 → ℕ)
  (h0 : ∀ b : Fin 1024, idx (ix2 b (0 : Fin 2)) = BitVec.ofNat 32 b.val)
  (h1 : ∀ b : Fin 1024, idx (ix2 b (1 : Fin 2)) = BitVec.ofNat 32 (p1 b))
  (hp1 : ∀ b : Fin 1024, p1 b ≤ 258)
include h0 h1 hp1

/-! Start plus window on each axis, as integers: `b'`, `p1 b'`, `j'`. -/
private theorem land_0 (b' : Fin 1024) (j' : Fin 512) :
    ScatterDims.start dS (ix2 b' j') idx 0 + (ScatterDims.window dS (ix2 b' j') 0 : ℕ) = (b'.val : ℤ) := by
  have hb := b'.isLt
  rw [start_0, window_0, h0, StableHlo.Predicate.toInt_ofNat_small _ (by omega)]
  simp
private theorem land_1 (b' : Fin 1024) (j' : Fin 512) :
    ScatterDims.start dS (ix2 b' j') idx 1 + (ScatterDims.window dS (ix2 b' j') 1 : ℕ) = (p1 b' : ℤ) := by
  have hb := hp1 b'
  rw [start_1, window_1, h1, StableHlo.Predicate.toInt_ofNat_small _ (by omega)]
  simp
private theorem land_2 (b' : Fin 1024) (j' : Fin 512) :
    ScatterDims.start dS (ix2 b' j') idx 2 + (ScatterDims.window dS (ix2 b' j') 2 : ℕ) = (j'.val : ℤ) := by
  rw [start_2, window_2]
  simp

/-- A row whose target is inside the stack lands its lane `j'` at `(b', p1 b', j')`. -/
private theorem resultIdx?_of_lt (b' : Fin 1024) (j' : Fin 512) (hlt : p1 b' < 258) :
    ScatterDims.resultIdx? dS (ix2 b' j') idx = some (ix3 b' ⟨p1 b', hlt⟩ j') := by
  have hb := b'.isLt
  have hj := j'.isLt
  have e0 := land_0 idx p1 h0 h1 hp1 b' j'
  have e1 := land_1 idx p1 h0 h1 hp1 b' j'
  have e2 := land_2 idx p1 h0 h1 hp1 b' j'
  have H : ∀ a : Fin 3, 0 ≤ ScatterDims.start dS (ix2 b' j') idx a + (ScatterDims.window dS (ix2 b' j') a : ℕ) ∧
      ScatterDims.start dS (ix2 b' j') idx a + (ScatterDims.window dS (ix2 b' j') a : ℕ) < (S1024x258x512.size a : ℕ) := by
    refine forall_axis ?_ ?_ ?_
    · rw [e0]; change 0 ≤ (b'.val : ℤ) ∧ (b'.val : ℤ) < ((1024 : ℕ) : ℤ); omega
    · rw [e1]; change 0 ≤ (p1 b' : ℤ) ∧ (p1 b' : ℤ) < ((258 : ℕ) : ℤ); omega
    · rw [e2]; change 0 ≤ (j'.val : ℤ) ∧ (j'.val : ℤ) < ((512 : ℕ) : ℤ); omega
  unfold ScatterDims.resultIdx?
  rw [dif_pos H]
  refine congrArg some (funext (forall_axis ?_ ?_ ?_))
  · refine Fin.ext ?_
    change (ScatterDims.start dS (ix2 b' j') idx 0 + (ScatterDims.window dS (ix2 b' j') 0 : ℕ)).toNat = b'.val
    rw [e0]; exact Int.toNat_natCast _
  · refine Fin.ext ?_
    change (ScatterDims.start dS (ix2 b' j') idx 1 + (ScatterDims.window dS (ix2 b' j') 1 : ℕ)).toNat = p1 b'
    rw [e1]; exact Int.toNat_natCast _
  · refine Fin.ext ?_
    change (ScatterDims.start dS (ix2 b' j') idx 2 + (ScatterDims.window dS (ix2 b' j') 2 : ℕ)).toNat = j'.val
    rw [e2]; exact Int.toNat_natCast _

/-- A row whose target is 258, one past the last stack row, is dropped. -/
private theorem resultIdx?_of_eq (b' : Fin 1024) (j' : Fin 512) (heq : p1 b' = 258) :
    ScatterDims.resultIdx? dS (ix2 b' j') idx = none := by
  have e1 := land_1 idx p1 h0 h1 hp1 b' j'
  unfold ScatterDims.resultIdx?
  rw [dif_neg]
  intro H
  have h := (H 1).2
  rw [e1] at h
  change (p1 b' : ℤ) < ((258 : ℕ) : ℤ) at h
  omega

/-- An update that lands on `(b, s, j)` is lane `j` of row `b`, and `s` is that row's target. -/
private theorem of_lands (b' : Fin 1024) (j' : Fin 512) (b : Fin 1024) (s : Fin 258) (j : Fin 512)
    (h : ScatterDims.resultIdx? dS (ix2 b' j') idx = some (ix3 b s j)) : b' = b ∧ j' = j ∧ s.val = p1 b := by
  rcases Nat.lt_or_ge (p1 b') 258 with hlt | hge
  · rw [resultIdx?_of_lt idx p1 h0 h1 hp1 b' j' hlt] at h
    have e := Option.some.inj h
    have eb : b' = b := congrFun e 0
    have es : (⟨p1 b', hlt⟩ : Fin 258) = s := congrFun e 1
    have ej : j' = j := congrFun e 2
    refine ⟨eb, ej, ?_⟩
    rw [← eb, ← es]
  · rw [resultIdx?_of_eq idx p1 h0 h1 hp1 b' j' (le_antisymm (hp1 b') hge)] at h
    exact absurd h (Option.some_ne_none _).symm

end Landing

/-- The push at an index. -/
theorem push_apply {α : Type} (x : S1024x258x512.Idx → α) (idx : IVec S1024x2 32) (upd : S1024x512.Idx → α)
    (p1 : Fin 1024 → ℕ)
    (h0 : ∀ b : Fin 1024, idx (ix2 b (0 : Fin 2)) = BitVec.ofNat 32 b.val)
    (h1 : ∀ b : Fin 1024, idx (ix2 b (1 : Fin 2)) = BitVec.ofNat 32 (p1 b))
    (hp1 : ∀ b : Fin 1024, p1 b ≤ 258)
    (b : Fin 1024) (s : Fin 258) (j : Fin 512) :
    Host.scatter scatter_S1024x258x512_S1024x2_S1024x512_1_01_01_1 (fun _ v => v) x idx upd (ix3 b s j)
      = if s.val = p1 b then upd (ix2 b j) else x (ix3 b s j) := by
  by_cases hs : s.val = p1 b
  · rw [if_pos hs]
    have hlt : p1 b < 258 := hs ▸ s.isLt
    refine ScatterSet.apply_of_unique dS x idx upd (ix3 b s j) (ix2 b j) ?_ ?_
    · rw [resultIdx?_of_lt idx p1 h0 h1 hp1 b j hlt]
      have es : (⟨p1 b, hlt⟩ : Fin 258) = s := Fin.ext hs.symm
      rw [es]
    · intro j'' hj
      rw [eq_ix2 j''] at hj ⊢
      obtain ⟨eb, ej, _⟩ := of_lands idx p1 h0 h1 hp1 (j'' 0) (j'' 1) b s j hj
      rw [eb, ej]
      rfl
  · rw [if_neg hs]
    refine ScatterSet.apply_of_none dS x idx upd (ix3 b s j) ?_
    intro j'' hj
    rw [eq_ix2 j''] at hj
    exact hs (of_lands idx p1 h0 h1 hp1 (j'' 0) (j'' 1) b s j hj).2.2

end Cert.ReferenceIdeal.Hand

end
-- ==== Proof.RefTop.lean ====
/-
  The reference's three results as the specification's arrays.

  The new hidden row is the cell function of the gathered stack tops; the composed sub-word vector reads it and the
  left cell's row; each stack after the push is the scatter of the new row at `(b, p b + 1)`, whose index tables are
  the batch row and the position plus one.
-/
import proofs.«418086_j48455821033604_2_alg».proof.Proof.RefIdx
import proofs.«418086_j48455821033604_2_alg».proof.Proof.RefCell
import proofs.«418086_j48455821033604_2_alg».proof.Proof.RefLeft
import proofs.«418086_j48455821033604_2_alg».proof.Proof.RefPush

noncomputable section

namespace Cert.ReferenceIdeal.Hand

open Cert.ReferenceIdeal Cert.ReferenceIdeal.Gen Cert.ReferenceIdeal.Read Idealize.ShloMosaic Idealize.ShloMosaic.TcCoe
open Idealize.SL.Sem Idealize.ShloMosaic.ValueIdx Cert.StackLstm

variable (m' : (ℓ : Loc nD τ sig) → Buf (Elt Ideal) ℓ) (c : Dev nD) (p : Fin 1024 → Fin 258)
  (hp : ∀ b : Fin 1024, (m' ((c.tc : Thread nD τ).loc main_arg3)) (ix1 b) = BitVec.ofNat 32 (p b).val)
include hp

/-- The right cell's new hidden row, with the gathers read. -/
theorem hR_at (b : Fin 1024) (j : Fin 512) :
    val_main_v67 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (ix2 b j) = hR (m' ((c.tc : Thread nD τ).loc main_arg0)) (m' ((c.tc : Thread nD τ).loc main_arg1)) (m' ((c.tc : Thread nD τ).loc main_arg2)) p (m' ((c.tc : Thread nD τ).loc main_arg4)) (m' ((c.tc : Thread nD τ).loc main_arg5)) (m' ((c.tc : Thread nD τ).loc main_arg6)) (m' ((c.tc : Thread nD τ).loc main_arg7)) b j :=
  v67_apply _ _ _ _ _ _ _ _ p (v14_apply _ p hp _) (v28_apply _ p hp _) b j

/-- The right cell's new cell row. -/
theorem cR_at (b : Fin 1024) (j : Fin 512) :
    val_main_v59 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (ix2 b j) = cR (m' ((c.tc : Thread nD τ).loc main_arg0)) (m' ((c.tc : Thread nD τ).loc main_arg1)) (m' ((c.tc : Thread nD τ).loc main_arg2)) p (m' ((c.tc : Thread nD τ).loc main_arg4)) (m' ((c.tc : Thread nD τ).loc main_arg5)) (m' ((c.tc : Thread nD τ).loc main_arg6)) (m' ((c.tc : Thread nD τ).loc main_arg7)) b j :=
  v59_apply _ _ _ _ _ _ _ _ p (v14_apply _ p hp _) (v28_apply _ p hp _) b j

/-- The sub-word result. -/
theorem ref_sub : Cert.ReferenceIdeal.Value.res_main_v146 m' c = subArr (m' ((c.tc : Thread nD τ).loc main_arg0)) (m' ((c.tc : Thread nD τ).loc main_arg1)) (m' ((c.tc : Thread nD τ).loc main_arg2)) p (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) := by
  rw [val_main_v146_eq]
  refine ext2 (fun b j => ?_)
  exact v146_apply _ _ _ _ _ _ _ _ _ _ _ _ _ _ p (hR_at m' c p hp) b j

/-- The hidden stack after the push. -/
theorem ref_newH : Cert.ReferenceIdeal.Value.res_main_v83 m' c = newHArr (m' ((c.tc : Thread nD τ).loc main_arg0)) (m' ((c.tc : Thread nD τ).loc main_arg1)) (m' ((c.tc : Thread nD τ).loc main_arg2)) p (m' ((c.tc : Thread nD τ).loc main_arg4)) (m' ((c.tc : Thread nD τ).loc main_arg5)) (m' ((c.tc : Thread nD τ).loc main_arg6)) (m' ((c.tc : Thread nD τ).loc main_arg7)) := by
  rw [val_main_v83_eq]
  refine ext3 (fun b s j => ?_)
  unfold val_main_v83
  refine (push_apply _ _ _ (fun b => (p b).val + 1) (v82_at0 _ p hp) (v82_at1 _ p hp)
    (fun b => by have := (p b).isLt; omega) b s j).trans ?_
  rw [hR_at m' c p hp b j]
  rfl

/-- The cell stack after the push. -/
theorem ref_newC : Cert.ReferenceIdeal.Value.res_main_v99 m' c = newCArr (m' ((c.tc : Thread nD τ).loc main_arg0)) (m' ((c.tc : Thread nD τ).loc main_arg1)) (m' ((c.tc : Thread nD τ).loc main_arg2)) p (m' ((c.tc : Thread nD τ).loc main_arg4)) (m' ((c.tc : Thread nD τ).loc main_arg5)) (m' ((c.tc : Thread nD τ).loc main_arg6)) (m' ((c.tc : Thread nD τ).loc main_arg7)) := by
  rw [val_main_v99_eq]
  refine ext3 (fun b s j => ?_)
  unfold val_main_v99
  refine (push_apply _ _ _ (fun b => (p b).val + 1) (v98_at0 _ p hp) (v98_at1 _ p hp)
    (fun b => by have := (p b).isLt; omega) b s j).trans ?_
  rw [cR_at m' c p hp b j]
  rfl

end Cert.ReferenceIdeal.Hand

end
-- ==== Proof.PreDecode.lean ====
/-
  What the precondition says about the position input.

  The precondition is a conjunction, folded left to right, whose last two conjuncts are "every position is ≥ 0" and
  "every position is < 258", each an and-reduction of a signed comparison against a broadcast constant. A word that is
  non-negative and below 258 as a signed integer is the 32-bit word of a natural number below 258. The finiteness
  conjuncts in front are not opened.
-/
import proofs.«418086_j48455821033604_2_alg».proof.Pre_finite_inputs
import Idealize.ShloMosaic.Lib.ValueIdx
import Idealize.ShloMosaic.Lib.ReduceAll
import Idealize.ShloMosaic.Lib.StableHlo.Predicate

noncomputable section

namespace Cert.Pre_finite_inputs.Hand

open Cert.Pre_finite_inputs Idealize.ShloMosaic Idealize.ShloMosaic.ValueIdx

variable [Cert.Pre_finite_inputs.Facts]

/-- A 32-bit word that is non-negative and below 258 as a signed integer has an unsigned value below 258. -/
theorem toNat_lt_of_signed_range (a : BitVec 32) (h0 : (0#32).toInt ≤ a.toInt) (h1 : a.toInt < (258#32).toInt) :
    a.toNat < 258 := by
  have e0 : (0#32).toInt = 0 := by decide
  have e1 : (258#32).toInt = 258 := by decide
  rw [e0] at h0
  rw [e1] at h1
  rw [BitVec.toInt_eq_toNat_cond] at h0 h1
  have hlt := a.isLt
  by_cases hc : 2 * a.toNat < 2 ^ 32
  · rw [if_pos hc] at h0 h1
    omega
  · rw [if_neg hc] at h0 h1
    omega

/-- Under the precondition every position is the word of a stack row. -/
theorem pos_of_pre (a0 : FVec Ideal S1024x512 .f32) (a1 a2 : FVec Ideal S1024x258x512 .f32) (a3 : IVec S1024 32)
    (a4 a5 : FVec Ideal S2048x512 .f32) (a6 a7 : FVec Ideal S2048 .f32) (a8 a9 : FVec Ideal S2048x512 .f32)
    (a10 a11 : FVec Ideal S2048 .f32) (a12 : FVec Ideal S512x1024 .f32) (a13 : FVec Ideal S512 .f32)
    (h : fn (F := Ideal) a0 a1 a2 a3 a4 a5 a6 a7 a8 a9 a10 a11 a12 a13 = fun _ => 1#1) :
    ∃ p : Fin 1024 → Fin 258, ∀ b : Fin 1024, a3 (ix1 b) = BitVec.ofNat 32 (p b).val := by
  have h' := congrFun h (fun d => d.elim0)
  unfold fn fn_part1 fn_part2 fn_part3 fn_part4 at h'
  dsimp only at h'
  -- the conjunction is folded to the left: the last conjunct is "every position < 258", the one before it "every position ≥ 0"
  obtain ⟨h67, h70⟩ := IntOp.andi_eq_one.1 h'
  obtain ⟨-, h66⟩ := IntOp.andi_eq_one.1 h67
  -- the scalar shape has exactly one index, so an and-reduction that is 1 there had a 1 at every index
  haveI : Subsingleton S_.Idx := ⟨fun a b => funext fun d => d.elim0⟩
  have hge := Host.reduce_andi_all _ _ _ _ _ h66
  have hlt := Host.reduce_andi_all _ _ _ _ _ h70
  -- each comparison, read signed, against the broadcast constant
  have hpos : ∀ b : Fin 1024, (a3 (ix1 b)).toNat < 258 := fun b =>
    toNat_lt_of_signed_range (a3 (ix1 b)) (IntOp.cmpi_sge.1 (hge (ix1 b))) (IntOp.cmpi_slt.1 (hlt (ix1 b)))
  exact ⟨fun b => ⟨(a3 (ix1 b)).toNat, hpos b⟩, fun b =>
    BitVec.eq_of_toNat_eq (by rw [BitVec.toNat_ofNat]; exact (Nat.mod_eq_of_lt (a3 (ix1 b)).isLt).symm)⟩

end Cert.Pre_finite_inputs.Hand

end
-- ==== Proof.lean ====
/-
  The kernel is one step of a stack LSTM for 1024 batch rows: the right cell reads the top of each row's stack (at the
  row's position), updates it and pushes the new hidden and cell rows one position higher; the left cell runs from the
  zero state; the two hidden rows are composed into the sub-word vector. The kernel does the gather by a one-hot
  compare against the stack-row index followed by a sum over the stack rows, and the push by a select on the same
  compare at the position plus one; the reference does them by an indexed gather and an indexed scatter. Under the
  precondition every position is a stack row, `0 ≤ pos < 258`, where the compare-and-sum and the gather read the same
  row, and the select and the scatter write the same row (none, when the position is the last row). Over the extended
  reals a change of float format is the identity, a matrix product into a zero accumulator is the host's contraction,
  and the compose layer's contraction of the 1024 concatenated lanes is the sum of its two halves; all of these are
  equalities of sums in a commutative monoid, so the finiteness of the float inputs is never used.

  Both programs' results are shown to be the same three arrays of the arguments (`Cert.StackLstm`): the kernel's block by
  block over its 256 grid points, the reference's one operation at a time.
-/
import proofs.«418086_j48455821033604_2_alg».proof.Defs
import proofs.«418086_j48455821033604_2_alg».proof.Proof.Gen.Kernel
import proofs.«418086_j48455821033604_2_alg».proof.Proof.Gen.Kernel.Skeleton
import proofs.«418086_j48455821033604_2_alg».proof.Proof.Gen.Kernel.Launch
import proofs.«418086_j48455821033604_2_alg».proof.Proof.Gen.Kernel.Points
import proofs.«418086_j48455821033604_2_alg».proof.Proof.Gen.Kernel.Frame
import proofs.«418086_j48455821033604_2_alg».proof.Proof.Gen.KernelIdeal
import proofs.«418086_j48455821033604_2_alg».proof.Proof.Gen.KernelIdeal.Skeleton
import proofs.«418086_j48455821033604_2_alg».proof.Proof.Gen.KernelIdeal.Launch
import proofs.«418086_j48455821033604_2_alg».proof.Proof.Gen.KernelIdeal.Points
import proofs.«418086_j48455821033604_2_alg».proof.Proof.Gen.KernelIdeal.Frame
import proofs.«418086_j48455821033604_2_alg».proof.Proof.Gen.ReferenceIdeal
import proofs.«418086_j48455821033604_2_alg».proof.Proof.Gen.Pre_finite_inputs
import proofs.«418086_j48455821033604_2_alg».proof.Proof.Gen.ReferenceIdeal.Run
import proofs.«418086_j48455821033604_2_alg».proof.Proof.Gen.ReferenceIdeal.Read
import proofs.«418086_j48455821033604_2_alg».proof.Proof.KRun
import proofs.«418086_j48455821033604_2_alg».proof.Proof.RefTop
import proofs.«418086_j48455821033604_2_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs, faults nowhere and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs, with its arguments unchanged: its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote nothing. -/
theorem preserves : Cert.preserves_Kernel_KernelIdeal := trivial

/-- From memories that agree on the arguments, with every position a stack row, both programs end with the
    specification's three arrays of the arguments. -/
theorem algebraic : Cert.algebraic_KernelIdeal_ReferenceIdeal := by
  intro m ρ m' ρ' hpre hagree
  have hex : ∀ c : Dev Cert.KernelIdeal.nD, ∃ p : Fin 1024 → Fin 258, ∀ b : Fin 1024,
      Cert.KernelIdeal.Blocks.aPos m c (ix1 b) = BitVec.ofNat 32 (p b).val :=
    fun c => Cert.Pre_finite_inputs.Hand.pos_of_pre _ _ _ _ _ _ _ _ _ _ _ _ _ _ (hpre c)
  choose pp hpp using hex
  refine ⟨fun c => Cert.KernelIdeal.Blocks.GS m c (pp c), fun c => Cert.KernelIdeal.Blocks.GH m c (pp c), fun c => Cert.KernelIdeal.Blocks.GC m c (pp c),
    Cert.KernelIdeal.Blocks.kernel_run m ρ pp hpp, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11, a12, a13⟩ := hagree c
  have hp' : ∀ b : Fin 1024, (m' ((c.tc : Thread Cert.ReferenceIdeal.nD Cert.ReferenceIdeal.τ).loc Cert.ReferenceIdeal.main_arg3)) (ix1 b)
      = BitVec.ofNat 32 (pp c b).val := fun b => by rw [a3]; exact hpp c b
  refine ⟨(h c).1.trans ((Cert.ReferenceIdeal.Hand.ref_sub m' c (pp c) hp').trans ?_),
    (h c).2.1.trans ((Cert.ReferenceIdeal.Hand.ref_newH m' c (pp c) hp').trans ?_),
    (h c).2.2.1.trans ((Cert.ReferenceIdeal.Hand.ref_newC m' c (pp c) hp').trans ?_), (h c).2.2.2⟩
  · rw [a0, a1, a2, a4, a5, a6, a7, a8, a9, a10, a11, a12, a13]
  · rw [a0, a1, a2, a4, a5, a6, a7]
  · rw [a0, a1, a2, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
